-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x26 : Shape := ⟨2, ![16384, 26]⟩
abbrev S16384x13 : Shape := ⟨2, ![16384, 13]⟩
abbrev S26x100000 : Shape := ⟨2, ![26, 100000]⟩
abbrev S1x13 : Shape := ⟨2, ![1, 13]⟩
abbrev S1 : Shape := ⟨1, ![1]⟩
abbrev S26x100000x32 : Shape := ⟨3, ![26, 100000, 32]⟩
abbrev S13x32 : Shape := ⟨2, ![13, 32]⟩
abbrev S512x1248 : Shape := ⟨2, ![512, 1248]⟩
abbrev S512 : Shape := ⟨1, ![512]⟩
abbrev S256x512 : Shape := ⟨2, ![256, 512]⟩
abbrev S256 : Shape := ⟨1, ![256]⟩
abbrev S1x256 : Shape := ⟨2, ![1, 256]⟩
abbrev S_ : Shape := ⟨0, ![]⟩

class Facts : Prop where
  bcast_S_S16384x13 : S_.BroadcastsInDim S16384x13 (![] : Fin 0 → Fin S16384x13.rank)
  reducesTo_S16384x13_S_d0_1 : S16384x13.ReducesTo [0, 1] S_
  h_S_ : 0 < S_.numel
  bcast_S_S26x100000 : S_.BroadcastsInDim S26x100000 (![] : Fin 0 → Fin S26x100000.rank)
  reducesTo_S26x100000_S_d0_1 : S26x100000.ReducesTo [0, 1] S_
  bcast_S_S1x13 : S_.BroadcastsInDim S1x13 (![] : Fin 0 → Fin S1x13.rank)
  reducesTo_S1x13_S_d0_1 : S1x13.ReducesTo [0, 1] S_
  bcast_S_S1 : S_.BroadcastsInDim S1 (![] : Fin 0 → Fin S1.rank)
  reducesTo_S1_S_d0 : S1.ReducesTo [0] S_
  bcast_S_S26x100000x32 : S_.BroadcastsInDim S26x100000x32 (![] : Fin 0 → Fin S26x100000x32.rank)
  reducesTo_S26x100000x32_S_d0_1_2 : S26x100000x32.ReducesTo [0, 1, 2] S_
  bcast_S_S13x32 : S_.BroadcastsInDim S13x32 (![] : Fin 0 → Fin S13x32.rank)
  reducesTo_S13x32_S_d0_1 : S13x32.ReducesTo [0, 1] S_
  bcast_S_S512x1248 : S_.BroadcastsInDim S512x1248 (![] : Fin 0 → Fin S512x1248.rank)
  reducesTo_S512x1248_S_d0_1 : S512x1248.ReducesTo [0, 1] S_
  bcast_S_S512 : S_.BroadcastsInDim S512 (![] : Fin 0 → Fin S512.rank)
  reducesTo_S512_S_d0 : S512.ReducesTo [0] S_
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_
  bcast_S_S1x256 : S_.BroadcastsInDim S1x256 (![] : Fin 0 → Fin S1x256.rank)
  reducesTo_S1x256_S_d0_1 : S1x256.ReducesTo [0, 1] S_
  bcast_S_S16384x26 : S_.BroadcastsInDim S16384x26 (![] : Fin 0 → Fin S16384x26.rank)
  reducesTo_S16384x26_S_d0_1 : S16384x26.ReducesTo [0, 1] S_

variable [Facts]

def fn_part3 {F : FTy → Type} [FloatOps F] (main_arg0 : IVec S16384x26 32) (main_arg12 : FVec F S1 .f32) (main_v48 : IVec S_ 1) (main_v49 : FVec F S1x256 .f32) (main_v50 : FVec F S1x256 .f32) : IVec S_ 1 :=
  let main_v51 : IVec S1x256 1 := cmpf .olt main_v49 main_v50
  let main_c_19 : IVec S_ 1 := constantI S_ 1 1#1
  let main_v52 : IVec S_ 1 := (fun x v => Host.reduce IntOp.andi x v reducesTo_S1x256_S_d0_1 h_S_) main_v51 main_c_19
  let main_v53 : IVec S_ 1 := andi main_v48 main_v52
  let main_v54 : FVec F S1 .f32 := Host.absf main_arg12
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  let main_c_22 : IVec S_ 32 := constantI S_ 32 0#32
  let main_v59 : IVec S16384x26 32 := broadcastInDim S16384x26 ![] bcast_S_S16384x26 main_c_22
  let main_v60 : IVec S16384x26 1 := cmpi .sge main_arg0 main_v59
  let main_c_23 : IVec S_ 1 := constantI S_ 1 1#1
  let main_v61 : IVec S_ 1 := (fun x v => Host.reduce IntOp.andi x v reducesTo_S16384x26_S_d0_1 h_S_) main_v60 main_c_23
  let main_v62 : IVec S_ 1 := andi main_v58 main_v61
  let main_c_24 : IVec S_ 32 := constantI S_ 32 100000#32
  let main_v63 : IVec S16384x26 32 := broadcastInDim S16384x26 ![] bcast_S_S16384x26 main_c_24
  let main_v64 : IVec S16384x26 1 := cmpi .slt main_arg0 main_v63
  let main_c_25 : IVec S_ 1 := constantI S_ 1 1#1
  let main_v65 : IVec S_ 1 := (fun x v => Host.reduce IntOp.andi x v reducesTo_S16384x26_S_d0_1 h_S_) main_v64 main_c_25
  let main_v66 : IVec S_ 1 := andi main_v62 main_v65
  main_v66

def fn_part2 {F : FTy → Type} [FloatOps F] (main_arg0 : IVec S16384x26 32) (main_arg8 : FVec F S512 .f32) (main_arg9 : FVec F S256x512 .f32) (main_arg10 : FVec F S256 .f32) (main_arg11 : FVec F S1x256 .f32) (main_arg12 : FVec F S1 .f32) (main_v33 : IVec S_ 1) : IVec S_ 1 :=
  let main_v34 : FVec F S512 .f32 := Host.absf main_arg8
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S256x512 .f32 := Host.absf main_arg9
  let main_cst_14 : FVec F S_ .f32 := constant S_ .f32 0x7F800000#32
  let main_v40 : FVec F S256x512 .f32 := broadcastInDim S256x512 ![] bcast_S_S256x512 main_cst_14
  let main_v41 : IVec S256x512 1 := cmpf .olt main_v39 main_v40
  let main_c_15 : IVec S_ 1 := constantI S_ 1 1#1
  let main_v42 : IVec S_ 1 := (fun x v => Host.reduce IntOp.andi x v reducesTo_S256x512_S_d0_1 h_S_) main_v41 main_c_15
  let main_v43 : IVec S_ 1 := andi main_v38 main_v42
  let main_v44 : FVec F S256 .f32 := Host.absf main_arg10
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S1x256 .f32 := Host.absf main_arg11
  let main_cst_18 : FVec F S_ .f32 := constant S_ .f32 0x7F800000#32
  let main_v50 : FVec F S1x256 .f32 := broadcastInDim S1x256 ![] bcast_S_S1x256 main_cst_18
  fn_part3 (F := F) main_arg0 main_arg12 main_v48 main_v49 main_v50

def fn_part1 {F : FTy → Type} [FloatOps F] (main_arg0 : IVec S16384x26 32) (main_arg5 : FVec F S26x100000x32 .f32) (main_arg6 : FVec F S13x32 .f32) (main_arg7 : FVec F S512x1248 .f32) (main_arg8 : FVec F S512 .f32) (main_arg9 : FVec F S256x512 .f32) (main_arg10 : FVec F S256 .f32) (main_arg11 : FVec F S1x256 .f32) (main_arg12 : FVec F S1 .f32) (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  let main_v19 : FVec F S26x100000x32 .f32 := Host.absf main_arg5
  let main_cst_6 : FVec F S_ .f32 := constant S_ .f32 0x7F800000#32
  let main_v20 : FVec F S26x100000x32 .f32 := broadcastInDim S26x100000x32 ![] bcast_S_S26x100000x32 main_cst_6
  let main_v21 : IVec S26x100000x32 1 := cmpf .olt main_v19 main_v20
  let main_c_7 : IVec S_ 1 := constantI S_ 1 1#1
  let main_v22 : IVec S_ 1 := (fun x v => Host.reduce IntOp.andi x v reducesTo_S26x100000x32_S_d0_1_2 h_S_) main_v21 main_c_7
  let main_v23 : IVec S_ 1 := andi main_v18 main_v22
  let main_v24 : FVec F S13x32 .f32 := Host.absf main_arg6
  let main_cst_8 : FVec F S_ .f32 := constant S_ .f32 0x7F800000#32
  let main_v25 : FVec F S13x32 .f32 := broadcastInDim S13x32 ![] bcast_S_S13x32 main_cst_8
  let main_v26 : IVec S13x32 1 := cmpf .olt main_v24 main_v25
  let main_c_9 : IVec S_ 1 := constantI S_ 1 1#1
  let main_v27 : IVec S_ 1 := (fun x v => Host.reduce IntOp.andi x v reducesTo_S13x32_S_d0_1 h_S_) main_v26 main_c_9
  let main_v28 : IVec S_ 1 := andi main_v23 main_v27
  let main_v29 : FVec F S512x1248 .f32 := Host.absf main_arg7
  let main_cst_10 : FVec F S_ .f32 := constant S_ .f32 0x7F800000#32
  let main_v30 : FVec F S512x1248 .f32 := broadcastInDim S512x1248 ![] bcast_S_S512x1248 main_cst_10
  let main_v31 : IVec S512x1248 1 := cmpf .olt main_v29 main_v30
  let main_c_11 : IVec S_ 1 := constantI S_ 1 1#1
  let main_v32 : IVec S_ 1 := (fun x v => Host.reduce IntOp.andi x v reducesTo_S512x1248_S_d0_1 h_S_) main_v31 main_c_11
  let main_v33 : IVec S_ 1 := andi main_v28 main_v32
  fn_part2 (F := F) main_arg0 main_arg8 main_arg9 main_arg10 main_arg11 main_arg12 main_v33

def fn {F : FTy → Type} [FloatOps F] (main_arg0 : IVec S16384x26 32) (main_arg1 : FVec F S16384x13 .f32) (main_arg2 : FVec F S26x100000 .f32) (main_arg3 : FVec F S1x13 .f32) (main_arg4 : FVec F S1 .f32) (main_arg5 : FVec F S26x100000x32 .f32) (main_arg6 : FVec F S13x32 .f32) (main_arg7 : FVec F S512x1248 .f32) (main_arg8 : FVec F S512 .f32) (main_arg9 : FVec F S256x512 .f32) (main_arg10 : FVec F S256 .f32) (main_arg11 : FVec F S1x256 .f32) (main_arg12 : FVec F S1 .f32) : IVec S_ 1 :=
  let main_v0 : FVec F S16384x13 .f32 := Host.absf main_arg1
  let main_cst : FVec F S_ .f32 := constant S_ .f32 0x7F800000#32
  let main_v1 : FVec F S16384x13 .f32 := broadcastInDim S16384x13 ![] bcast_S_S16384x13 main_cst
  let main_v2 : IVec S16384x13 1 := cmpf .olt main_v0 main_v1
  let main_c : IVec S_ 1 := constantI S_ 1 1#1
  let main_v3 : IVec S_ 1 := (fun x v => Host.reduce IntOp.andi x v reducesTo_S16384x13_S_d0_1 h_S_) main_v2 main_c
  let main_v4 : FVec F S26x100000 .f32 := Host.absf main_arg2
  let main_cst_0 : FVec F S_ .f32 := constant S_ .f32 0x7F800000#32
  let main_v5 : FVec F S26x100000 .f32 := broadcastInDim S26x100000 ![] bcast_S_S26x100000 main_cst_0
  let main_v6 : IVec S26x100000 1 := cmpf .olt main_v4 main_v5
  let main_c_1 : IVec S_ 1 := constantI S_ 1 1#1
  let main_v7 : IVec S_ 1 := (fun x v => Host.reduce IntOp.andi x v reducesTo_S26x100000_S_d0_1 h_S_) main_v6 main_c_1
  let main_v8 : IVec S_ 1 := andi main_v3 main_v7
  let main_v9 : FVec F S1x13 .f32 := Host.absf main_arg3
  let main_cst_2 : FVec F S_ .f32 := constant S_ .f32 0x7F800000#32
  let main_v10 : FVec F S1x13 .f32 := broadcastInDim S1x13 ![] bcast_S_S1x13 main_cst_2
  let main_v11 : IVec S1x13 1 := cmpf .olt main_v9 main_v10
  let main_c_3 : IVec S_ 1 := constantI S_ 1 1#1
  let main_v12 : IVec S_ 1 := (fun x v => Host.reduce IntOp.andi x v reducesTo_S1x13_S_d0_1 h_S_) main_v11 main_c_3
  let main_v13 : IVec S_ 1 := andi main_v8 main_v12
  let main_v14 : FVec F S1 .f32 := Host.absf main_arg4
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_arg0 main_arg5 main_arg6 main_arg7 main_arg8 main_arg9 main_arg10 main_arg11 main_arg12 main_v13 main_v16
-- ==== Kernel.lean ====
abbrev S16384x26 : Shape := ⟨2, ![16384, 26]⟩
abbrev S16384x13 : Shape := ⟨2, ![16384, 13]⟩
abbrev S26x100000 : Shape := ⟨2, ![26, 100000]⟩
abbrev S1x13 : Shape := ⟨2, ![1, 13]⟩
abbrev S1 : Shape := ⟨1, ![1]⟩
abbrev S26x100000x32 : Shape := ⟨3, ![26, 100000, 32]⟩
abbrev S13x32 : Shape := ⟨2, ![13, 32]⟩
abbrev S512x1248 : Shape := ⟨2, ![512, 1248]⟩
abbrev S512 : Shape := ⟨1, ![512]⟩
abbrev S256x512 : Shape := ⟨2, ![256, 512]⟩
abbrev S256 : Shape := ⟨1, ![256]⟩
abbrev S1x256 : Shape := ⟨2, ![1, 256]⟩
abbrev S26x100000x1 : Shape := ⟨3, ![26, 100000, 1]⟩
abbrev S26x100000x33 : Shape := ⟨3, ![26, 100000, 33]⟩
abbrev S_ : Shape := ⟨0, ![]⟩
abbrev S26x100352x33 : Shape := ⟨3, ![26, 100352, 33]⟩
abbrev S26x33x100352 : Shape := ⟨3, ![26, 33, 100352]⟩
abbrev S26x16384 : Shape := ⟨2, ![26, 16384]⟩
abbrev S26x1x16384 : Shape := ⟨3, ![26, 1, 16384]⟩
abbrev S26x33x16384 : Shape := ⟨3, ![26, 33, 16384]⟩
abbrev S1x33x1024 : Shape := ⟨3, ![1, 33, 1024]⟩
abbrev S1x1x4096 : Shape := ⟨3, ![1, 1, 4096]⟩
abbrev S1x33x4096 : Shape := ⟨3, ![1, 33, 4096]⟩
abbrev S33x4096 : Shape := ⟨2, ![33, 4096]⟩
abbrev S1x4096 : Shape := ⟨2, ![1, 4096]⟩
abbrev S1024x4096 : Shape := ⟨2, ![1024, 4096]⟩
abbrev S33x1024 : Shape := ⟨2, ![33, 1024]⟩
abbrev S13x1 : Shape := ⟨2, ![13, 1]⟩
abbrev S1x1 : Shape := ⟨2, ![1, 1]⟩
abbrev S1x416 : Shape := ⟨2, ![1, 416]⟩
abbrev S1248x512 : Shape := ⟨2, ![1248, 512]⟩
abbrev S512x256 : Shape := ⟨2, ![512, 256]⟩
abbrev S1x512 : Shape := ⟨2, ![1, 512]⟩
abbrev S16384x1 : Shape := ⟨2, ![16384, 1]⟩
abbrev S26x33x1024 : Shape := ⟨3, ![26, 33, 1024]⟩
abbrev S1024x13 : Shape := ⟨2, ![1024, 13]⟩
abbrev S1024x1 : Shape := ⟨2, ![1024, 1]⟩
abbrev S1024x832 : Shape := ⟨2, ![1024, 832]⟩
abbrev S1024x32 : Shape := ⟨2, ![1024, 32]⟩
abbrev S1024x33 : Shape := ⟨2, ![1024, 33]⟩
abbrev S1024 : Shape := ⟨1, ![1024]⟩
abbrev S1024x416 : Shape := ⟨2, ![1024, 416]⟩
abbrev S1024x1248 : Shape := ⟨2, ![1024, 1248]⟩
abbrev S1024x512 : Shape := ⟨2, ![1024, 512]⟩
abbrev S1024x256 : Shape := ⟨2, ![1024, 256]⟩

abbrev nBuf : Space → Nat
  | .hbm => 36
  | .vmem => 26
  | .smem => 0
  | _ => 0

abbrev bufTy : (tb : Table) → Fin (tcTables nBuf tb) → BufTy
  | .hbm, ⟨0, _⟩ => ⟨S16384x26, .i32⟩
  | .hbm, ⟨1, _⟩ => ⟨S16384x13, .f32⟩
  | .hbm, ⟨2, _⟩ => ⟨S26x100000, .f32⟩
  | .hbm, ⟨3, _⟩ => ⟨S1x13, .f32⟩
  | .hbm, ⟨4, _⟩ => ⟨S1, .f32⟩
  | .hbm, ⟨5, _⟩ => ⟨S26x100000x32, .f32⟩
  | .hbm, ⟨6, _⟩ => ⟨S13x32, .f32⟩
  | .hbm, ⟨7, _⟩ => ⟨S512x1248, .f32⟩
  | .hbm, ⟨8, _⟩ => ⟨S512, .f32⟩
  | .hbm, ⟨9, _⟩ => ⟨S256x512, .f32⟩
  | .hbm, ⟨10, _⟩ => ⟨S256, .f32⟩
  | .hbm, ⟨11, _⟩ => ⟨S1x256, .f32⟩
  | .hbm, ⟨12, _⟩ => ⟨S1, .f32⟩
  | .hbm, ⟨13, _⟩ => ⟨S26x100000x1, .f32⟩
  | .hbm, ⟨14, _⟩ => ⟨S26x100000x33, .f32⟩
  | .hbm, ⟨15, _⟩ => ⟨S_, .i32⟩
  | .hbm, ⟨16, _⟩ => ⟨S_, .f32⟩
  | .hbm, ⟨17, _⟩ => ⟨S26x100352x33, .f32⟩
  | .hbm, ⟨18, _⟩ => ⟨S26x100352x33, .bf16⟩
  | .hbm, ⟨19, _⟩ => ⟨S26x33x100352, .bf16⟩
  | .hbm, ⟨20, _⟩ => ⟨S26x16384, .i32⟩
  | .hbm, ⟨21, _⟩ => ⟨S26x1x16384, .i32⟩
  | .hbm, ⟨22, _⟩ => ⟨S26x33x16384, .f32⟩
  | .hbm, ⟨23, _⟩ => ⟨S13x1, .f32⟩
  | .hbm, ⟨24, _⟩ => ⟨S13x1, .bf16⟩
  | .hbm, ⟨25, _⟩ => ⟨S1x1, .f32⟩
  | .hbm, ⟨26, _⟩ => ⟨S1x416, .f32⟩
  | .hbm, ⟨27, _⟩ => ⟨S1x416, .bf16⟩
  | .hbm, ⟨28, _⟩ => ⟨S1248x512, .f32⟩
  | .hbm, ⟨29, _⟩ => ⟨S1248x512, .bf16⟩
  | .hbm, ⟨30, _⟩ => ⟨S512x256, .f32⟩
  | .hbm, ⟨31, _⟩ => ⟨S512x256, .bf16⟩
  | .hbm, ⟨32, _⟩ => ⟨S1x512, .f32⟩
  | .hbm, ⟨33, _⟩ => ⟨S1x256, .f32⟩
  | .hbm, ⟨34, _⟩ => ⟨S1x1, .f32⟩
  | .hbm, ⟨35, _⟩ => ⟨S16384x1, .f32⟩
  | .local _ .vmem, ⟨0, _⟩ => ⟨S1x33x1024, .bf16⟩
  | .local _ .vmem, ⟨1, _⟩ => ⟨S1x33x1024, .bf16⟩
  | .local _ .vmem, ⟨2, _⟩ => ⟨S1x1x4096, .i32⟩
  | .local _ .vmem, ⟨3, _⟩ => ⟨S1x1x4096, .i32⟩
  | .local _ .vmem, ⟨4, _⟩ => ⟨S1x33x4096, .f32⟩
  | .local _ .vmem, ⟨5, _⟩ => ⟨S1x33x4096, .f32⟩
  | .local _ .vmem, ⟨6, _⟩ => ⟨S26x33x1024, .f32⟩
  | .local _ .vmem, ⟨7, _⟩ => ⟨S26x33x1024, .f32⟩
  | .local _ .vmem, ⟨8, _⟩ => ⟨S1024x13, .f32⟩
  | .local _ .vmem, ⟨9, _⟩ => ⟨S1024x13, .f32⟩
  | .local _ .vmem, ⟨10, _⟩ => ⟨S13x1, .bf16⟩
  | .local _ .vmem, ⟨11, _⟩ => ⟨S1x1, .f32⟩
  | .local _ .vmem, ⟨12, _⟩ => ⟨S13x32, .f32⟩
  | .local _ .vmem, ⟨13, _⟩ => ⟨S1x416, .bf16⟩
  | .local _ .vmem, ⟨14, _⟩ => ⟨S1248x512, .bf16⟩
  | .local _ .vmem, ⟨15, _⟩ => ⟨S1x512, .f32⟩
  | .local _ .vmem, ⟨16, _⟩ => ⟨S512x256, .bf16⟩
  | .local _ .vmem, ⟨17, _⟩ => ⟨S1x256, .f32⟩
  | .local _ .vmem, ⟨18, _⟩ => ⟨S1x256, .f32⟩
  | .local _ .vmem, ⟨19, _⟩ => ⟨S1x1, .f32⟩
  | .local _ .vmem, ⟨20, _⟩ => ⟨S1024x1, .f32⟩
  | .local _ .vmem, ⟨21, _⟩ => ⟨S1024x1, .f32⟩
  | .local _ .vmem, ⟨22, _⟩ => ⟨S1024x832, .bf16⟩
  | .local _ .vmem, ⟨23, _⟩ => ⟨S1024x1, .f32⟩
  | .local _ .vmem, ⟨24, _⟩ => ⟨S1024x32, .f32⟩
  | .local _ .vmem, ⟨25, _⟩ => ⟨S1024x32, .f32⟩
  | _, _ => ⟨S16384x26, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_c : Ref sig .tc := ⟨.hbm, 15, rfl⟩
abbrev main_call0_v0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg9_0 : Ref sig .tc := ⟨.vmem, 17, rfl⟩
abbrev cc1_stg10_0 : Ref sig .tc := ⟨.vmem, 18, rfl⟩
abbrev cc1_stg11_0 : Ref sig .tc := ⟨.vmem, 19, rfl⟩
abbrev cc1_stg12_0 : Ref sig .tc := ⟨.vmem, 20, rfl⟩
abbrev cc1_stg12_1 : Ref sig .tc := ⟨.vmem, 21, rfl⟩
abbrev cc1_scratch0 : Ref sig .tc := ⟨.vmem, 22, rfl⟩
abbrev cc1_scratch1 : Ref sig .tc := ⟨.vmem, 23, rfl⟩
abbrev cc1_scratch2 : Ref sig .tc := ⟨.vmem, 24, rfl⟩
abbrev cc1_scratch3 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem9_0 : DmaSem sig := 17
abbrev cc1_sem10_0 : DmaSem sig := 18
abbrev cc1_sem11_0 : DmaSem sig := 19
abbrev cc1_sem12_0 : DmaSem sig := 20
abbrev cc1_sem12_1 : DmaSem sig := 21

abbrev nD : Nat := 1
abbrev τ : Topo := Topo.v7x

variable {F : FTy → Type} [FloatOps F]

abbrev grid0 : Pipeline.Grid := ⟨3, ![26, 4, 98], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x33x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x33x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S26x33x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x13 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S13x1 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S13x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x416 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1248x512 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S512x256 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x256 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x256 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x1 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 2 → Memref sig .tc .vmem S1024x1 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

class Facts₀ : Prop where
  bcast_S26x100000_S26x100000x1_0_1 : S26x100000.BroadcastsInDim S26x100000x1 (![0, 1] : Fin 2 → Fin S26x100000x1.rank)
  concatenates_S26x100000x32_S26x100000x1_S26x100000x33_d2 : Shape.Concatenates [S26x100000x32, S26x100000x1] S26x100000x33 2
  pads_S26x100000x33_S26x100352x33_000_03520_000 : S26x100000x33.Pads (![0, 0, 0] : Fin 3 → Nat) ![0, 352, 0] ![0, 0, 0] S26x100352x33
  h_S_ : 0 < S_.numel
  bitsLt_bf16_f32 : FTy.bits .bf16 < FTy.bits .f32
  transposes_S26x100352x33_S26x33x100352_0_2_1 : S26x100352x33.Transposes [0, 2, 1] S26x33x100352
  transposes_S16384x26_S26x16384_1_0 : S16384x26.Transposes [1, 0] S26x16384
  bcast_S26x16384_S26x1x16384_0_2 : S26x16384.BroadcastsInDim S26x1x16384 (![0, 2] : Fin 2 → Fin S26x1x16384.rank)
  inb_S1x33x4096_S1x33x4096_0_0_0 : ∀ a, (![0, 0, 0] : Fin 3 → Nat) a + S1x33x4096.size a ≤ S1x33x4096.size a
  h_S1x33x4096 : 0 < S1x33x4096.numel
  shapeCasts_S1x33x4096_S33x4096 : S1x33x4096.ShapeCasts S33x4096
  shapeCasts_S33x4096_S1x33x4096 : S33x4096.ShapeCasts S1x33x4096
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S1x4096 : S1x1x4096.ShapeCasts S1x4096
  iota_S1024x4096_d0_w32 : S1024x4096.Iotas .tc 32 [0]
  broadcasts_S1x4096_S1024x4096 : S1x4096.Broadcasts S1024x4096
  natLt_1_32 : 1 < 32
  inb_S1x33x1024_S1x33x1024_0_0_0 : ∀ a, (![0, 0, 0] : Fin 3 → Nat) a + S1x33x1024.size a ≤ S1x33x1024.size a
  h_S1x33x1024 : 0 < S1x33x1024.numel
  shapeCasts_S1x33x1024_S33x1024 : S1x33x1024.ShapeCasts S33x1024
  transposes_S1x13_S13x1_1_0 : S1x13.Transposes [1, 0] S13x1
  shapeCasts_S1_S1x1 : S1.ShapeCasts S1x1
  shapeCasts_S13x32_S1x416 : S13x32.ShapeCasts S1x416
  transposes_S512x1248_S1248x512_1_0 : S512x1248.Transposes [1, 0] S1248x512
  transposes_S256x512_S512x256_1_0 : S256x512.Transposes [1, 0] S512x256
  shapeCasts_S512_S1x512 : S512.ShapeCasts S1x512
  shapeCasts_S256_S1x256 : S256.ShapeCasts S1x256
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x32_S1024x32_0_0 : ∀ a, (![0, 0] : Fin 2 → Nat) a + S1024x32.size a ≤ S1024x32.size a
  h_S1024x32 : 0 < S1024x32.numel
  shapeCasts_S1024x32_S1024x32 : S1024x32.ShapeCasts S1024x32
  inb_S26x33x1024_S1x33x1024_0_0_0 : ∀ a, (![0, 0, 0] : Fin 3 → Nat) a + S1x33x1024.size a ≤ S26x33x1024.size a
  transposes_S33x1024_p1_0_S1024x33 : S33x1024.Transposes [1, 0] S1024x33
  slices_S1024x33_o0_0_S1024x32 : S1024x33.Slices ![0, 0] S1024x32
  slices_S1024x33_o0_32_S1024x1 : S1024x33.Slices ![0, 32] S1024x1
  inb_S1024x832_S1024x32_0_0 : ∀ a, (![0, 0] : Fin 2 → Nat) a + S1024x32.size a ≤ S1024x832.size a
  packedbf16_S1024x832_S1024x32_0_0 : (Rect.unit (s := S1024x832) ![0, 0] S1024x32.size inb_S1024x832_S1024x32_0_0).PackedRows (EltTy.packing .bf16)
  inb_S26x33x1024_S1x33x1024_1_0_0 : ∀ a, (![1, 0, 0] : Fin 3 → Nat) a + S1x33x1024.size a ≤ S26x33x1024.size a
  inb_S1024x832_S1024x32_0_32 : ∀ a, (![0, 32] : Fin 2 → Nat) a + S1024x32.size a ≤ S1024x832.size a
  packedbf16_S1024x832_S1024x32_0_32 : (Rect.unit (s := S1024x832) ![0, 32] S1024x32.size inb_S1024x832_S1024x32_0_32).PackedRows (EltTy.packing .bf16)
  inb_S26x33x1024_S1x33x1024_2_0_0 : ∀ a, (![2, 0, 0] : Fin 3 → Nat) a + S1x33x1024.size a ≤ S26x33x1024.size a
  inb_S1024x832_S1024x32_0_64 : ∀ a, (![0, 64] : Fin 2 → Nat) a + S1024x32.size a ≤ S1024x832.size a
  packedbf16_S1024x832_S1024x32_0_64 : (Rect.unit (s := S1024x832) ![0, 64] S1024x32.size inb_S1024x832_S1024x32_0_64).PackedRows (EltTy.packing .bf16)
  inb_S26x33x1024_S1x33x1024_3_0_0 : ∀ a, (![3, 0, 0] : Fin 3 → Nat) a + S1x33x1024.size a ≤ S26x33x1024.size a
  inb_S1024x832_S1024x32_0_96 : ∀ a, (![0, 96] : Fin 2 → Nat) a + S1024x32.size a ≤ S1024x832.size a
  packedbf16_S1024x832_S1024x32_0_96 : (Rect.unit (s := S1024x832) ![0, 96] S1024x32.size inb_S1024x832_S1024x32_0_96).PackedRows (EltTy.packing .bf16)
  inb_S26x33x1024_S1x33x1024_4_0_0 : ∀ a, (![4, 0, 0] : Fin 3 → Nat) a + S1x33x1024.size a ≤ S26x33x1024.size a
  inb_S1024x832_S1024x32_0_128 : ∀ a, (![0, 128] : Fin 2 → Nat) a + S1024x32.size a ≤ S1024x832.size a
  packedbf16_S1024x832_S1024x32_0_128 : (Rect.unit (s := S1024x832) ![0, 128] S1024x32.size inb_S1024x832_S1024x32_0_128).PackedRows (EltTy.packing .bf16)
  inb_S26x33x1024_S1x33x1024_5_0_0 : ∀ a, (![5, 0, 0] : Fin 3 → Nat) a + S1x33x1024.size a ≤ S26x33x1024.size a
  inb_S1024x832_S1024x32_0_160 : ∀ a, (![0, 160] : Fin 2 → Nat) a + S1024x32.size a ≤ S1024x832.size a
  packedbf16_S1024x832_S1024x32_0_160 : (Rect.unit (s := S1024x832) ![0, 160] S1024x32.size inb_S1024x832_S1024x32_0_160).PackedRows (EltTy.packing .bf16)
  inb_S26x33x1024_S1x33x1024_6_0_0 : ∀ a, (![6, 0, 0] : Fin 3 → Nat) a + S1x33x1024.size a ≤ S26x33x1024.size a
  inb_S1024x832_S1024x32_0_192 : ∀ a, (![0, 192] : Fin 2 → Nat) a + S1024x32.size a ≤ S1024x832.size a
  packedbf16_S1024x832_S1024x32_0_192 : (Rect.unit (s := S1024x832) ![0, 192] S1024x32.size inb_S1024x832_S1024x32_0_192).PackedRows (EltTy.packing .bf16)
  inb_S26x33x1024_S1x33x1024_7_0_0 : ∀ a, (![7, 0, 0] : Fin 3 → Nat) a + S1x33x1024.size a ≤ S26x33x1024.size a
  inb_S1024x832_S1024x32_0_224 : ∀ a, (![0, 224] : Fin 2 → Nat) a + S1024x32.size a ≤ S1024x832.size a
  packedbf16_S1024x832_S1024x32_0_224 : (Rect.unit (s := S1024x832) ![0, 224] S1024x32.size inb_S1024x832_S1024x32_0_224).PackedRows (EltTy.packing .bf16)
  inb_S26x33x1024_S1x33x1024_8_0_0 : ∀ a, (![8, 0, 0] : Fin 3 → Nat) a + S1x33x1024.size a ≤ S26x33x1024.size a
  inb_S1024x832_S1024x32_0_256 : ∀ a, (![0, 256] : Fin 2 → Nat) a + S1024x32.size a ≤ S1024x832.size a
  packedbf16_S1024x832_S1024x32_0_256 : (Rect.unit (s := S1024x832) ![0, 256] S1024x32.size inb_S1024x832_S1024x32_0_256).PackedRows (EltTy.packing .bf16)
  inb_S26x33x1024_S1x33x1024_9_0_0 : ∀ a, (![9, 0, 0] : Fin 3 → Nat) a + S1x33x1024.size a ≤ S26x33x1024.size a
  inb_S1024x832_S1024x32_0_288 : ∀ a, (![0, 288] : Fin 2 → Nat) a + S1024x32.size a ≤ S1024x832.size a
  packedbf16_S1024x832_S1024x32_0_288 : (Rect.unit (s := S1024x832) ![0, 288] S1024x32.size inb_S1024x832_S1024x32_0_288).PackedRows (EltTy.packing .bf16)
  inb_S26x33x1024_S1x33x1024_10_0_0 : ∀ a, (![10, 0, 0] : Fin 3 → Nat) a + S1x33x1024.size a ≤ S26x33x1024.size a
  inb_S1024x832_S1024x32_0_320 : ∀ a, (![0, 320] : Fin 2 → Nat) a + S1024x32.size a ≤ S1024x832.size a
  packedbf16_S1024x832_S1024x32_0_320 : (Rect.unit (s := S1024x832) ![0, 320] S1024x32.size inb_S1024x832_S1024x32_0_320).PackedRows (EltTy.packing .bf16)
  inb_S26x33x1024_S1x33x1024_11_0_0 : ∀ a, (![11, 0, 0] : Fin 3 → Nat) a + S1x33x1024.size a ≤ S26x33x1024.size a
  inb_S1024x832_S1024x32_0_352 : ∀ a, (![0, 352] : Fin 2 → Nat) a + S1024x32.size a ≤ S1024x832.size a
  packedbf16_S1024x832_S1024x32_0_352 : (Rect.unit (s := S1024x832) ![0, 352] S1024x32.size inb_S1024x832_S1024x32_0_352).PackedRows (EltTy.packing .bf16)
  inb_S26x33x1024_S1x33x1024_12_0_0 : ∀ a, (![12, 0, 0] : Fin 3 → Nat) a + S1x33x1024.size a ≤ S26x33x1024.size a
  inb_S1024x832_S1024x32_0_384 : ∀ a, (![0, 384] : Fin 2 → Nat) a + S1024x32.size a ≤ S1024x832.size a
  packedbf16_S1024x832_S1024x32_0_384 : (Rect.unit (s := S1024x832) ![0, 384] S1024x32.size inb_S1024x832_S1024x32_0_384).PackedRows (EltTy.packing .bf16)
  inb_S26x33x1024_S1x33x1024_13_0_0 : ∀ a, (![13, 0, 0] : Fin 3 → Nat) a + S1x33x1024.size a ≤ S26x33x1024.size a
  inb_S1024x832_S1024x32_0_416 : ∀ a, (![0, 416] : Fin 2 → Nat) a + S1024x32.size a ≤ S1024x832.size a
  packedbf16_S1024x832_S1024x32_0_416 : (Rect.unit (s := S1024x832) ![0, 416] S1024x32.size inb_S1024x832_S1024x32_0_416).PackedRows (EltTy.packing .bf16)
  inb_S26x33x1024_S1x33x1024_14_0_0 : ∀ a, (![14, 0, 0] : Fin 3 → Nat) a + S1x33x1024.size a ≤ S26x33x1024.size a
  inb_S1024x832_S1024x32_0_448 : ∀ a, (![0, 448] : Fin 2 → Nat) a + S1024x32.size a ≤ S1024x832.size a
  packedbf16_S1024x832_S1024x32_0_448 : (Rect.unit (s := S1024x832) ![0, 448] S1024x32.size inb_S1024x832_S1024x32_0_448).PackedRows (EltTy.packing .bf16)
  inb_S26x33x1024_S1x33x1024_15_0_0 : ∀ a, (![15, 0, 0] : Fin 3 → Nat) a + S1x33x1024.size a ≤ S26x33x1024.size a
  inb_S1024x832_S1024x32_0_480 : ∀ a, (![0, 480] : Fin 2 → Nat) a + S1024x32.size a ≤ S1024x832.size a
  packedbf16_S1024x832_S1024x32_0_480 : (Rect.unit (s := S1024x832) ![0, 480] S1024x32.size inb_S1024x832_S1024x32_0_480).PackedRows (EltTy.packing .bf16)
  inb_S26x33x1024_S1x33x1024_16_0_0 : ∀ a, (![16, 0, 0] : Fin 3 → Nat) a + S1x33x1024.size a ≤ S26x33x1024.size a
  inb_S1024x832_S1024x32_0_512 : ∀ a, (![0, 512] : Fin 2 → Nat) a + S1024x32.size a ≤ S1024x832.size a
  packedbf16_S1024x832_S1024x32_0_512 : (Rect.unit (s := S1024x832) ![0, 512] S1024x32.size inb_S1024x832_S1024x32_0_512).PackedRows (EltTy.packing .bf16)
  inb_S26x33x1024_S1x33x1024_17_0_0 : ∀ a, (![17, 0, 0] : Fin 3 → Nat) a + S1x33x1024.size a ≤ S26x33x1024.size a
  inb_S1024x832_S1024x32_0_544 : ∀ a, (![0, 544] : Fin 2 → Nat) a + S1024x32.size a ≤ S1024x832.size a
  packedbf16_S1024x832_S1024x32_0_544 : (Rect.unit (s := S1024x832) ![0, 544] S1024x32.size inb_S1024x832_S1024x32_0_544).PackedRows (EltTy.packing .bf16)
  inb_S26x33x1024_S1x33x1024_18_0_0 : ∀ a, (![18, 0, 0] : Fin 3 → Nat) a + S1x33x1024.size a ≤ S26x33x1024.size a
  inb_S1024x832_S1024x32_0_576 : ∀ a, (![0, 576] : Fin 2 → Nat) a + S1024x32.size a ≤ S1024x832.size a
  packedbf16_S1024x832_S1024x32_0_576 : (Rect.unit (s := S1024x832) ![0, 576] S1024x32.size inb_S1024x832_S1024x32_0_576).PackedRows (EltTy.packing .bf16)
  inb_S26x33x1024_S1x33x1024_19_0_0 : ∀ a, (![19, 0, 0] : Fin 3 → Nat) a + S1x33x1024.size a ≤ S26x33x1024.size a
  inb_S1024x832_S1024x32_0_608 : ∀ a, (![0, 608] : Fin 2 → Nat) a + S1024x32.size a ≤ S1024x832.size a
  packedbf16_S1024x832_S1024x32_0_608 : (Rect.unit (s := S1024x832) ![0, 608] S1024x32.size inb_S1024x832_S1024x32_0_608).PackedRows (EltTy.packing .bf16)
  inb_S26x33x1024_S1x33x1024_20_0_0 : ∀ a, (![20, 0, 0] : Fin 3 → Nat) a + S1x33x1024.size a ≤ S26x33x1024.size a
  inb_S1024x832_S1024x32_0_640 : ∀ a, (![0, 640] : Fin 2 → Nat) a + S1024x32.size a ≤ S1024x832.size a
  packedbf16_S1024x832_S1024x32_0_640 : (Rect.unit (s := S1024x832) ![0, 640] S1024x32.size inb_S1024x832_S1024x32_0_640).PackedRows (EltTy.packing .bf16)
  inb_S26x33x1024_S1x33x1024_21_0_0 : ∀ a, (![21, 0, 0] : Fin 3 → Nat) a + S1x33x1024.size a ≤ S26x33x1024.size a
  inb_S1024x832_S1024x32_0_672 : ∀ a, (![0, 672] : Fin 2 → Nat) a + S1024x32.size a ≤ S1024x832.size a
  packedbf16_S1024x832_S1024x32_0_672 : (Rect.unit (s := S1024x832) ![0, 672] S1024x32.size inb_S1024x832_S1024x32_0_672).PackedRows (EltTy.packing .bf16)
  inb_S26x33x1024_S1x33x1024_22_0_0 : ∀ a, (![22, 0, 0] : Fin 3 → Nat) a + S1x33x1024.size a ≤ S26x33x1024.size a
  inb_S1024x832_S1024x32_0_704 : ∀ a, (![0, 704] : Fin 2 → Nat) a + S1024x32.size a ≤ S1024x832.size a
  packedbf16_S1024x832_S1024x32_0_704 : (Rect.unit (s := S1024x832) ![0, 704] S1024x32.size inb_S1024x832_S1024x32_0_704).PackedRows (EltTy.packing .bf16)
  inb_S26x33x1024_S1x33x1024_23_0_0 : ∀ a, (![23, 0, 0] : Fin 3 → Nat) a + S1x33x1024.size a ≤ S26x33x1024.size a
  inb_S1024x832_S1024x32_0_736 : ∀ a, (![0, 736] : Fin 2 → Nat) a + S1024x32.size a ≤ S1024x832.size a
  packedbf16_S1024x832_S1024x32_0_736 : (Rect.unit (s := S1024x832) ![0, 736] S1024x32.size inb_S1024x832_S1024x32_0_736).PackedRows (EltTy.packing .bf16)
  inb_S26x33x1024_S1x33x1024_24_0_0 : ∀ a, (![24, 0, 0] : Fin 3 → Nat) a + S1x33x1024.size a ≤ S26x33x1024.size a
  inb_S1024x832_S1024x32_0_768 : ∀ a, (![0, 768] : Fin 2 → Nat) a + S1024x32.size a ≤ S1024x832.size a
  packedbf16_S1024x832_S1024x32_0_768 : (Rect.unit (s := S1024x832) ![0, 768] S1024x32.size inb_S1024x832_S1024x32_0_768).PackedRows (EltTy.packing .bf16)
  inb_S26x33x1024_S1x33x1024_25_0_0 : ∀ a, (![25, 0, 0] : Fin 3 → Nat) a + S1x33x1024.size a ≤ S26x33x1024.size a
  inb_S1024x832_S1024x32_0_800 : ∀ a, (![0, 800] : Fin 2 → Nat) a + S1024x32.size a ≤ S1024x832.size a
  packedbf16_S1024x832_S1024x32_0_800 : (Rect.unit (s := S1024x832) ![0, 800] S1024x32.size inb_S1024x832_S1024x32_0_800).PackedRows (EltTy.packing .bf16)
  inb_S1024x13_S1024x13_0_0 : ∀ a, (![0, 0] : Fin 2 → Nat) a + S1024x13.size a ≤ S1024x13.size a
  h_S1024x13 : 0 < S1024x13.numel
  inb_S13x32_S13x32_0_0 : ∀ a, (![0, 0] : Fin 2 → Nat) a + S13x32.size a ≤ S13x32.size a
  h_S13x32 : 0 < S13x32.numel
  reduces_S1024x32_S1024 : S1024x32.Reduces [1] S1024
  shapeCasts_S1024_S1024x1 : S1024.ShapeCasts S1024x1
  inb_S13x1_S13x1_0_0 : ∀ a, (![0, 0] : Fin 2 → Nat) a + S13x1.size a ≤ S13x1.size a
  h_S13x1 : 0 < S13x1.numel
  shapeCasts_S13x1_S13x1 : S13x1.ShapeCasts S13x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1024x1 : S1x1.Broadcasts S1024x1
  inb_S1x416_S1x416_0_0 : ∀ a, (![0, 0] : Fin 2 → Nat) a + S1x416.size a ≤ S1x416.size a
  h_S1x416 : 0 < S1x416.numel
  shapeCasts_S1x416_S1x416 : S1x416.ShapeCasts S1x416
  broadcasts_S1x416_S1024x416 : S1x416.Broadcasts S1024x416
  inb_S1024x832_S1024x832_0_0 : ∀ a, (![0, 0] : Fin 2 → Nat) a + S1024x832.size a ≤ S1024x832.size a
  h_S1024x832 : 0 < S1024x832.numel
  concatenates_S1024x832_S1024x416_S1024x1248_d1 : Shape.Concatenates [S1024x832, S1024x416] S1024x1248 1
  inb_S1248x512_S1248x512_0_0 : ∀ a, (![0, 0] : Fin 2 → Nat) a + S1248x512.size a ≤ S1248x512.size a
  h_S1248x512 : 0 < S1248x512.numel
  shapeCasts_S1248x512_S1248x512 : S1248x512.ShapeCasts S1248x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  reduces_S1024x256_S1024 : S1024x256.Reduces [1] S1024
  dot_S33x1024_S1024x4096_S33x4096_1_0_0_1_n_n_wf : DotDims.WF S33x1024 S1024x4096 S33x4096 [1] [0] [0] [1] [] []
  dot_S1024x13_S13x32_S1024x32_1_0_0_1_n_n_wf : DotDims.WF S1024x13 S13x32 S1024x32 [1] [0] [0] [1] [] []
  dot_S1024x13_S13x1_S1024x1_1_0_0_1_n_n_wf : DotDims.WF S1024x13 S13x1 S1024x1 [1] [0] [0] [1] [] []
  dot_S1024x1248_S1248x512_S1024x512_1_0_0_1_n_n_wf : DotDims.WF S1024x1248 S1248x512 S1024x512 [1] [0] [0] [1] [] []
  dot_S1024x512_S512x256_S1024x256_1_0_0_1_n_n_wf : DotDims.WF S1024x512 S512x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x33x1024.size a ≤ S26x33x100352.size a
  hwx0_0 : ∀ i : grid0.Coords, EltTy.bits .bf16 = 32 ∨ (Rect.block (s := S26x33x100352) S1x33x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x4096.size a ≤ S26x1x16384.size a
  hwx0_1 : ∀ i : grid0.Coords, EltTy.bits .i32 = 32 ∨ (Rect.block (s := S26x1x16384) S1x1x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x33x4096.size a ≤ S26x33x16384.size a
  hwx0_2 : ∀ i : grid0.Coords, EltTy.bits .f32 = 32 ∨ (Rect.block (s := S26x33x16384) S1x33x4096.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S26x33x1024.size a ≤ S26x33x16384.size a
  hwx1_0 : ∀ i : grid1.Coords, EltTy.bits .f32 = 32 ∨ (Rect.block (s := S26x33x16384) S26x33x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x13.size a ≤ S16384x13.size a
  hwx1_1 : ∀ i : grid1.Coords, EltTy.bits .f32 = 32 ∨ (Rect.block (s := S16384x13) S1024x13.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S13x1.size a ≤ S13x1.size a
  hwx1_2 : ∀ i : grid1.Coords, EltTy.bits .bf16 = 32 ∨ (Rect.block (s := S13x1) S13x1.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S13x32.size a ≤ S13x32.size a
  hwx1_4 : ∀ i : grid1.Coords, EltTy.bits .f32 = 32 ∨ (Rect.block (s := S13x32) S13x32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x416.size a ≤ S1x416.size a
  hwx1_5 : ∀ i : grid1.Coords, EltTy.bits .bf16 = 32 ∨ (Rect.block (s := S1x416) S1x416.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1248x512.size a ≤ S1248x512.size a
  hwx1_6 : ∀ i : grid1.Coords, EltTy.bits .bf16 = 32 ∨ (Rect.block (s := S1248x512) S1248x512.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x512.size a ≤ S1x512.size a
  hwx1_7 : ∀ i : grid1.Coords, EltTy.bits .f32 = 32 ∨ (Rect.block (s := S1x512) S1x512.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S512x256.size a ≤ S512x256.size a
  hwx1_8 : ∀ i : grid1.Coords, EltTy.bits .bf16 = 32 ∨ (Rect.block (s := S512x256) S512x256.size (cc1_transform_8 i) (hinb1_8 i)).WholeWords (EltTy.packing .bf16)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x256.size a ≤ S1x256.size a
  hwx1_9 : ∀ i : grid1.Coords, EltTy.bits .f32 = 32 ∨ (Rect.block (s := S1x256) S1x256.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x256.size a ≤ S1x256.size a
  hwx1_10 : ∀ i : grid1.Coords, EltTy.bits .f32 = 32 ∨ (Rect.block (s := S1x256) S1x256.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x1.size a ≤ S1x1.size a
  hwx1_11 : ∀ i : grid1.Coords, EltTy.bits .f32 = 32 ∨ (Rect.block (s := S1x1) S1x1.size (cc1_transform_11 i) (hinb1_11 i)).WholeWords (EltTy.packing .f32)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S1024x1.size a ≤ S16384x1.size a
  hwx1_12 : ∀ i : grid1.Coords, EltTy.bits .f32 = 32 ∨ (Rect.block (s := S16384x1) S1024x1.size (cc1_transform_12 i) (hinb1_12 i)).WholeWords (EltTy.packing .f32)

variable [Facts₀]

def dot_S33x1024_S1024x4096_S33x4096_1_0_0_1_n_n : DotDims S33x1024 S1024x4096 S33x4096 where
  lhsContracting := [1]
  rhsContracting := [0]
  lhsNonContracting := [0]
  rhsNonContracting := [1]
  lhsBatch := []
  rhsBatch := []
  wf := dot_S33x1024_S1024x4096_S33x4096_1_0_0_1_n_n_wf
def dot_S1024x13_S13x32_S1024x32_1_0_0_1_n_n : DotDims S1024x13 S13x32 S1024x32 where
  lhsContracting := [1]
  rhsContracting := [0]
  lhsNonContracting := [0]
  rhsNonContracting := [1]
  lhsBatch := []
  rhsBatch := []
  wf := dot_S1024x13_S13x32_S1024x32_1_0_0_1_n_n_wf
def dot_S1024x13_S13x1_S1024x1_1_0_0_1_n_n : DotDims S1024x13 S13x1 S1024x1 where
  lhsContracting := [1]
  rhsContracting := [0]
  lhsNonContracting := [0]
  rhsNonContracting := [1]
  lhsBatch := []
  rhsBatch := []
  wf := dot_S1024x13_S13x1_S1024x1_1_0_0_1_n_n_wf
def dot_S1024x1248_S1248x512_S1024x512_1_0_0_1_n_n : DotDims S1024x1248 S1248x512 S1024x512 where
  lhsContracting := [1]
  rhsContracting := [0]
  lhsNonContracting := [0]
  rhsNonContracting := [1]
  lhsBatch := []
  rhsBatch := []
  wf := dot_S1024x1248_S1248x512_S1024x512_1_0_0_1_n_n_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf

abbrev win0_0 : Pipeline.Window sig grid0 :=
  Pipeline.Window.ofSpec (Memref.whole main_v4) S1x33x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1x1x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x33x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v7) S26x33x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1024x13.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S13x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v10) S1x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S13x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v12) S1x416.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v14) S1248x512.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v17) S1x512.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v16) S512x256.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v18) S1x256.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_arg11) S1x256.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v19) S1x1.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v20) S1024x1.size cc1_transform_12 reads1_12 true false 2 stage1_12 sem1_12
    hrank1 hreads1_12 hinb1_12 nbuf1_12 (Memref.isWhole_whole _) hwx1_12 hstage1_12

abbrev win1 : Fin 13 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | ⟨_ + 13, h⟩ => absurd h (Nat.not_lt.2 (Nat.le_add_left _ _))
abbrev spec1 : Fin 13 → Pipeline.WinSpec sig grid1.rank := fun w => (win1 w).toWinSpec

class Facts : Prop extends Facts₀ where

variable [Facts]
-- ==== ReferenceIdeal.lean ====
abbrev S16384x26 : Shape := ⟨2, ![16384, 26]⟩
abbrev S16384x13 : Shape := ⟨2, ![16384, 13]⟩
abbrev S26x100000 : Shape := ⟨2, ![26, 100000]⟩
abbrev S1x13 : Shape := ⟨2, ![1, 13]⟩
abbrev S1 : Shape := ⟨1, ![1]⟩
abbrev S26x100000x32 : Shape := ⟨3, ![26, 100000, 32]⟩
abbrev S13x32 : Shape := ⟨2, ![13, 32]⟩
abbrev S512x1248 : Shape := ⟨2, ![512, 1248]⟩
abbrev S512 : Shape := ⟨1, ![512]⟩
abbrev S256x512 : Shape := ⟨2, ![256, 512]⟩
abbrev S256 : Shape := ⟨1, ![256]⟩
abbrev S1x256 : Shape := ⟨2, ![1, 256]⟩
abbrev S26 : Shape := ⟨1, ![26]⟩
abbrev S1x26 : Shape := ⟨2, ![1, 26]⟩
abbrev S_ : Shape := ⟨0, ![]⟩
abbrev S16384x26x1 : Shape := ⟨3, ![16384, 26, 1]⟩
abbrev S16384x26x2 : Shape := ⟨3, ![16384, 26, 2]⟩
abbrev S16384 : Shape := ⟨1, ![16384]⟩
abbrev S16384x1 : Shape := ⟨2, ![16384, 1]⟩
abbrev S13x1 : Shape := ⟨2, ![13, 1]⟩
abbrev S1x1 : Shape := ⟨2, ![1, 1]⟩
abbrev S16384x26x32 : Shape := ⟨3, ![16384, 26, 32]⟩
abbrev S1x13x32 : Shape := ⟨3, ![1, 13, 32]⟩
abbrev S16384x13x32 : Shape := ⟨3, ![16384, 13, 32]⟩
abbrev S16384x39x32 : Shape := ⟨3, ![16384, 39, 32]⟩
abbrev S16384x13x1 : Shape := ⟨3, ![16384, 13, 1]⟩
abbrev S16384x32 : Shape := ⟨2, ![16384, 32]⟩
abbrev S16384x1248 : Shape := ⟨2, ![16384, 1248]⟩
abbrev S1248x512 : Shape := ⟨2, ![1248, 512]⟩
abbrev S16384x512 : Shape := ⟨2, ![16384, 512]⟩
abbrev S1x512 : Shape := ⟨2, ![1, 512]⟩
abbrev S512x256 : Shape := ⟨2, ![512, 256]⟩
abbrev S16384x256 : Shape := ⟨2, ![16384, 256]⟩
abbrev S256x1 : Shape := ⟨2, ![256, 1]⟩

abbrev nBuf : Space → Nat
  | .hbm => 106
  | .vmem => 0
  | .smem => 0
  | _ => 0

abbrev bufTy : (tb : Table) → Fin (tcTables nBuf tb) → BufTy
  | .hbm, ⟨0, _⟩ => ⟨S16384x26, .i32⟩
  | .hbm, ⟨1, _⟩ => ⟨S16384x13, .f32⟩
  | .hbm, ⟨2, _⟩ => ⟨S26x100000, .f32⟩
  | .hbm, ⟨3, _⟩ => ⟨S1x13, .f32⟩
  | .hbm, ⟨4, _⟩ => ⟨S1, .f32⟩
  | .hbm, ⟨5, _⟩ => ⟨S26x100000x32, .f32⟩
  | .hbm, ⟨6, _⟩ => ⟨S13x32, .f32⟩
  | .hbm, ⟨7, _⟩ => ⟨S512x1248, .f32⟩
  | .hbm, ⟨8, _⟩ => ⟨S512, .f32⟩
  | .hbm, ⟨9, _⟩ => ⟨S256x512, .f32⟩
  | .hbm, ⟨10, _⟩ => ⟨S256, .f32⟩
  | .hbm, ⟨11, _⟩ => ⟨S1x256, .f32⟩
  | .hbm, ⟨12, _⟩ => ⟨S1, .f32⟩
  | .hbm, ⟨13, _⟩ => ⟨S26, .i32⟩
  | .hbm, ⟨14, _⟩ => ⟨S1x26, .i32⟩
  | .hbm, ⟨15, _⟩ => ⟨S_, .i32⟩
  | .hbm, ⟨16, _⟩ => ⟨S1x26, .i32⟩
  | .hbm, ⟨17, _⟩ => ⟨S1x26, .i1⟩
  | .hbm, ⟨18, _⟩ => ⟨S_, .i32⟩
  | .hbm, ⟨19, _⟩ => ⟨S1x26, .i32⟩
  | .hbm, ⟨20, _⟩ => ⟨S1x26, .i32⟩
  | .hbm, ⟨21, _⟩ => ⟨S1x26, .i32⟩
  | .hbm, ⟨22, _⟩ => ⟨S_, .i32⟩
  | .hbm, ⟨23, _⟩ => ⟨S16384x26, .i32⟩
  | .hbm, ⟨24, _⟩ => ⟨S16384x26, .i1⟩
  | .hbm, ⟨25, _⟩ => ⟨S_, .i32⟩
  | .hbm, ⟨26, _⟩ => ⟨S16384x26, .i32⟩
  | .hbm, ⟨27, _⟩ => ⟨S16384x26, .i32⟩
  | .hbm, ⟨28, _⟩ => ⟨S16384x26, .i32⟩
  | .hbm, ⟨29, _⟩ => ⟨S16384x26, .i32⟩
  | .hbm, ⟨30, _⟩ => ⟨S16384x26x1, .i32⟩
  | .hbm, ⟨31, _⟩ => ⟨S16384x26x1, .i32⟩
  | .hbm, ⟨32, _⟩ => ⟨S16384x26x2, .i32⟩
  | .hbm, ⟨33, _⟩ => ⟨S16384x26, .f32⟩
  | .hbm, ⟨34, _⟩ => ⟨S_, .f32⟩
  | .hbm, ⟨35, _⟩ => ⟨S16384, .f32⟩
  | .hbm, ⟨36, _⟩ => ⟨S16384x1, .f32⟩
  | .hbm, ⟨37, _⟩ => ⟨S13x1, .f32⟩
  | .hbm, ⟨38, _⟩ => ⟨S16384x1, .f32⟩
  | .hbm, ⟨39, _⟩ => ⟨S16384x1, .f32⟩
  | .hbm, ⟨40, _⟩ => ⟨S1x1, .f32⟩
  | .hbm, ⟨41, _⟩ => ⟨S16384x1, .f32⟩
  | .hbm, ⟨42, _⟩ => ⟨S16384x1, .f32⟩
  | .hbm, ⟨43, _⟩ => ⟨S_, .i32⟩
  | .hbm, ⟨44, _⟩ => ⟨S1x26, .i32⟩
  | .hbm, ⟨45, _⟩ => ⟨S1x26, .i1⟩
  | .hbm, ⟨46, _⟩ => ⟨S_, .i32⟩
  | .hbm, ⟨47, _⟩ => ⟨S1x26, .i32⟩
  | .hbm, ⟨48, _⟩ => ⟨S1x26, .i32⟩
  | .hbm, ⟨49, _⟩ => ⟨S1x26, .i32⟩
  | .hbm, ⟨50, _⟩ => ⟨S_, .i32⟩
  | .hbm, ⟨51, _⟩ => ⟨S16384x26, .i32⟩
  | .hbm, ⟨52, _⟩ => ⟨S16384x26, .i1⟩
  | .hbm, ⟨53, _⟩ => ⟨S_, .i32⟩
  | .hbm, ⟨54, _⟩ => ⟨S16384x26, .i32⟩
  | .hbm, ⟨55, _⟩ => ⟨S16384x26, .i32⟩
  | .hbm, ⟨56, _⟩ => ⟨S16384x26, .i32⟩
  | .hbm, ⟨57, _⟩ => ⟨S16384x26, .i32⟩
  | .hbm, ⟨58, _⟩ => ⟨S16384x26x1, .i32⟩
  | .hbm, ⟨59, _⟩ => ⟨S16384x26x1, .i32⟩
  | .hbm, ⟨60, _⟩ => ⟨S16384x26x2, .i32⟩
  | .hbm, ⟨61, _⟩ => ⟨S16384x26x32, .f32⟩
  | .hbm, ⟨62, _⟩ => ⟨S1x13x32, .f32⟩
  | .hbm, ⟨63, _⟩ => ⟨S16384x13x32, .f32⟩
  | .hbm, ⟨64, _⟩ => ⟨S16384x39x32, .f32⟩
  | .hbm, ⟨65, _⟩ => ⟨S16384x13x1, .f32⟩
  | .hbm, ⟨66, _⟩ => ⟨S16384x13x32, .f32⟩
  | .hbm, ⟨67, _⟩ => ⟨S16384x13x32, .f32⟩
  | .hbm, ⟨68, _⟩ => ⟨S16384x39x32, .f32⟩
  | .hbm, ⟨69, _⟩ => ⟨S_, .f32⟩
  | .hbm, ⟨70, _⟩ => ⟨S16384x32, .f32⟩
  | .hbm, ⟨71, _⟩ => ⟨S16384x32, .f32⟩
  | .hbm, ⟨72, _⟩ => ⟨S16384x39x32, .f32⟩
  | .hbm, ⟨73, _⟩ => ⟨S_, .f32⟩
  | .hbm, ⟨74, _⟩ => ⟨S16384x32, .f32⟩
  | .hbm, ⟨75, _⟩ => ⟨S16384x32, .f32⟩
  | .hbm, ⟨76, _⟩ => ⟨S_, .f32⟩
  | .hbm, ⟨77, _⟩ => ⟨S16384, .f32⟩
  | .hbm, ⟨78, _⟩ => ⟨S16384x1, .f32⟩
  | .hbm, ⟨79, _⟩ => ⟨S_, .f32⟩
  | .hbm, ⟨80, _⟩ => ⟨S16384x1, .f32⟩
  | .hbm, ⟨81, _⟩ => ⟨S16384x1, .f32⟩
  | .hbm, ⟨82, _⟩ => ⟨S16384x1248, .f32⟩
  | .hbm, ⟨83, _⟩ => ⟨S1248x512, .f32⟩
  | .hbm, ⟨84, _⟩ => ⟨S16384x512, .f32⟩
  | .hbm, ⟨85, _⟩ => ⟨S1x512, .f32⟩
  | .hbm, ⟨86, _⟩ => ⟨S16384x512, .f32⟩
  | .hbm, ⟨87, _⟩ => ⟨S16384x512, .f32⟩
  | .hbm, ⟨88, _⟩ => ⟨S_, .f32⟩
  | .hbm, ⟨89, _⟩ => ⟨S16384x512, .f32⟩
  | .hbm, ⟨90, _⟩ => ⟨S16384x512, .f32⟩
  | .hbm, ⟨91, _⟩ => ⟨S512x256, .f32⟩
  | .hbm, ⟨92, _⟩ => ⟨S16384x256, .f32⟩
  | .hbm, ⟨93, _⟩ => ⟨S1x256, .f32⟩
  | .hbm, ⟨94, _⟩ => ⟨S16384x256, .f32⟩
  | .hbm, ⟨95, _⟩ => ⟨S16384x256, .f32⟩
  | .hbm, ⟨96, _⟩ => ⟨S_, .f32⟩
  | .hbm, ⟨97, _⟩ => ⟨S16384x256, .f32⟩
  | .hbm, ⟨98, _⟩ => ⟨S16384x256, .f32⟩
  | .hbm, ⟨99, _⟩ => ⟨S256x1, .f32⟩
  | .hbm, ⟨100, _⟩ => ⟨S16384x1, .f32⟩
  | .hbm, ⟨101, _⟩ => ⟨S1x1, .f32⟩
  | .hbm, ⟨102, _⟩ => ⟨S16384x1, .f32⟩
  | .hbm, ⟨103, _⟩ => ⟨S16384x1, .f32⟩
  | .hbm, ⟨104, _⟩ => ⟨S16384x1, .f32⟩
  | .hbm, ⟨105, _⟩ => ⟨S16384x1, .f32⟩
  | _, _ => ⟨S16384x26, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_c : Ref sig .tc := ⟨.hbm, 15, rfl⟩
abbrev main_v2 : Ref sig .tc := ⟨.hbm, 16, rfl⟩
abbrev main_v3 : Ref sig .tc := ⟨.hbm, 17, rfl⟩
abbrev main_c_0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_c_1 : Ref sig .tc := ⟨.hbm, 22, rfl⟩
abbrev main_v7 : Ref sig .tc := ⟨.hbm, 23, rfl⟩
abbrev main_v8 : Ref sig .tc := ⟨.hbm, 24, rfl⟩
abbrev main_c_2 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_3 : Ref sig .tc := ⟨.hbm, 43, rfl⟩
abbrev main_v25 : Ref sig .tc := ⟨.hbm, 44, rfl⟩
abbrev main_v26 : Ref sig .tc := ⟨.hbm, 45, rfl⟩
abbrev main_c_4 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_c_5 : Ref sig .tc := ⟨.hbm, 50, rfl⟩
abbrev main_v30 : Ref sig .tc := ⟨.hbm, 51, rfl⟩
abbrev main_v31 : Ref sig .tc := ⟨.hbm, 52, rfl⟩
abbrev main_c_6 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_7 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_8 : Ref sig .tc := ⟨.hbm, 73, rfl⟩
abbrev main_v50 : Ref sig .tc := ⟨.hbm, 74, rfl⟩
abbrev main_v51 : Ref sig .tc := ⟨.hbm, 75, rfl⟩
abbrev main_cst_9 : Ref sig .tc := ⟨.hbm, 76, rfl⟩
abbrev main_v52 : Ref sig .tc := ⟨.hbm, 77, rfl⟩
abbrev main_v53 : Ref sig .tc := ⟨.hbm, 78, rfl⟩
abbrev main_cst_10 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_call0_cst : Ref sig .tc := ⟨.hbm, 88, rfl⟩
abbrev main_call0_v0 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_call1_cst : Ref sig .tc := ⟨.hbm, 96, rfl⟩
abbrev main_call1_v0 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩

abbrev nD : Nat := 1
abbrev τ : Topo := Topo.v7x

variable {F : FTy → Type} [FloatOps F]

class Facts₀ : Prop where
  bcast_S26_S1x26_1 : S26.BroadcastsInDim S1x26 (![1] : Fin 1 → Fin S1x26.rank)
  bcast_S_S1x26 : S_.BroadcastsInDim S1x26 (![] : Fin 0 → Fin S1x26.rank)
  bcast_S_S16384x26 : S_.BroadcastsInDim S16384x26 (![] : Fin 0 → Fin S16384x26.rank)
  bcast_S1x26_S16384x26_0_1 : S1x26.BroadcastsInDim S16384x26 (![0, 1] : Fin 2 → Fin S16384x26.rank)
  bcast_S16384x26_S16384x26x1_0_1 : S16384x26.BroadcastsInDim S16384x26x1 (![0, 1] : Fin 2 → Fin S16384x26x1.rank)
  concatenates_S16384x26x1_S16384x26x1_S16384x26x2_d2 : Shape.Concatenates [S16384x26x1, S16384x26x1] S16384x26x2 2
  reducesTo_S16384x26_S16384_d1 : S16384x26.ReducesTo [1] S16384
  h_S_ : 0 < S_.numel
  bcast_S16384_S16384x1_0 : S16384.BroadcastsInDim S16384x1 (![0] : Fin 1 → Fin S16384x1.rank)
  transposes_S1x13_S13x1_1_0 : S1x13.Transposes [1, 0] S13x1
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  bcast_S13x32_S1x13x32_1_2 : S13x32.BroadcastsInDim S1x13x32 (![1, 2] : Fin 2 → Fin S1x13x32.rank)
  bcast_S1x13x32_S16384x13x32_0_1_2 : S1x13x32.BroadcastsInDim S16384x13x32 (![0, 1, 2] : Fin 3 → Fin S16384x13x32.rank)
  concatenates_S16384x26x32_S16384x13x32_S16384x39x32_d1 : Shape.Concatenates [S16384x26x32, S16384x13x32] S16384x39x32 1
  bcast_S16384x13_S16384x13x1_0_1 : S16384x13.BroadcastsInDim S16384x13x1 (![0, 1] : Fin 2 → Fin S16384x13x1.rank)
  bcast_S16384x13x1_S16384x13x32_0_1_2 : S16384x13x1.BroadcastsInDim S16384x13x32 (![0, 1, 2] : Fin 3 → Fin S16384x13x32.rank)
  reducesTo_S16384x39x32_S16384x32_d1 : S16384x39x32.ReducesTo [1] S16384x32
  reducesTo_S16384x32_S16384_d1 : S16384x32.ReducesTo [1] S16384
  bcast_S_S16384x1 : S_.BroadcastsInDim S16384x1 (![] : Fin 0 → Fin S16384x1.rank)
  shapeCasts_S16384x39x32_S16384x1248 : S16384x39x32.ShapeCasts S16384x1248
  transposes_S512x1248_S1248x512_1_0 : S512x1248.Transposes [1, 0] S1248x512
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  bcast_S_S16384x512 : S_.BroadcastsInDim S16384x512 (![] : Fin 0 → Fin S16384x512.rank)
  transposes_S256x512_S512x256_1_0 : S256x512.Transposes [1, 0] S512x256
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  bcast_S_S16384x256 : S_.BroadcastsInDim S16384x256 (![] : Fin 0 → Fin S16384x256.rank)
  transposes_S1x256_S256x1_1_0 : S1x256.Transposes [1, 0] S256x1
  gather_S26x100000_S16384x26x2_S16384x26_n_01_n_n_01_2_11_wf : GatherDims.WF S26x100000 S16384x26x2 S16384x26 [] [0, 1] [] [0, 1] [] 2 ![1, 1]
  dot_S16384x13_S13x1_S16384x1_1_0_0_1_n_n_wf : DotDims.WF S16384x13 S13x1 S16384x1 [1] [0] [0] [1] [] []
  gather_S26x100000x32_S16384x26x2_S16384x26x32_2_01_n_n_01_2_1132_wf : GatherDims.WF S26x100000x32 S16384x26x2 S16384x26x32 [2] [0, 1] [] [0, 1] [] 2 ![1, 1, 32]
  dot_S16384x1248_S1248x512_S16384x512_1_0_0_1_n_n_wf : DotDims.WF S16384x1248 S1248x512 S16384x512 [1] [0] [0] [1] [] []
  dot_S16384x512_S512x256_S16384x256_1_0_0_1_n_n_wf : DotDims.WF S16384x512 S512x256 S16384x256 [1] [0] [0] [1] [] []
  dot_S16384x256_S256x1_S16384x1_1_0_0_1_n_n_wf : DotDims.WF S16384x256 S256x1 S16384x1 [1] [0] [0] [1] [] []

variable [Facts₀]

def gather_S26x100000_S16384x26x2_S16384x26_n_01_n_n_01_2_11 : GatherDims S26x100000 S16384x26x2 S16384x26 where
  offsetDims := []
  collapsedSliceDims := [0, 1]
  operandBatchingDims := []
  startIndicesBatchingDims := []
  startIndexMap := [0, 1]
  indexVectorDim := 2
  sliceSizes := ![1, 1]
  wf := gather_S26x100000_S16384x26x2_S16384x26_n_01_n_n_01_2_11_wf
def dot_S16384x13_S13x1_S16384x1_1_0_0_1_n_n : DotDims S16384x13 S13x1 S16384x1 where
  lhsContracting := [1]
  rhsContracting := [0]
  lhsNonContracting := [0]
  rhsNonContracting := [1]
  lhsBatch := []
  rhsBatch := []
  wf := dot_S16384x13_S13x1_S16384x1_1_0_0_1_n_n_wf
def gather_S26x100000x32_S16384x26x2_S16384x26x32_2_01_n_n_01_2_1132 : GatherDims S26x100000x32 S16384x26x2 S16384x26x32 where
  offsetDims := [2]
  collapsedSliceDims := [0, 1]
  operandBatchingDims := []
  startIndicesBatchingDims := []
  startIndexMap := [0, 1]
  indexVectorDim := 2
  sliceSizes := ![1, 1, 32]
  wf := gather_S26x100000x32_S16384x26x2_S16384x26x32_2_01_n_n_01_2_1132_wf
def dot_S16384x1248_S1248x512_S16384x512_1_0_0_1_n_n : DotDims S16384x1248 S1248x512 S16384x512 where
  lhsContracting := [1]
  rhsContracting := [0]
  lhsNonContracting := [0]
  rhsNonContracting := [1]
  lhsBatch := []
  rhsBatch := []
  wf := dot_S16384x1248_S1248x512_S16384x512_1_0_0_1_n_n_wf
def dot_S16384x512_S512x256_S16384x256_1_0_0_1_n_n : DotDims S16384x512 S512x256 S16384x256 where
  lhsContracting := [1]
  rhsContracting := [0]
  lhsNonContracting := [0]
  rhsNonContracting := [1]
  lhsBatch := []
  rhsBatch := []
  wf := dot_S16384x512_S512x256_S16384x256_1_0_0_1_n_n_wf
def dot_S16384x256_S256x1_S16384x1_1_0_0_1_n_n : DotDims S16384x256 S256x1 S16384x1 where
  lhsContracting := [1]
  rhsContracting := [0]
  lhsNonContracting := [0]
  rhsNonContracting := [1]
  lhsBatch := []
  rhsBatch := []
  wf := dot_S16384x256_S256x1_S16384x1_1_0_0_1_n_n_wf

class Facts : Prop extends Facts₀ where

variable [Facts]
-- ==== Proof.Spec.lean ====
import Idealize.ShloMosaic.PureOps.Ideal
import Idealize.ShloMosaic.Lib.ValueIdx

/-!
# The DeepFM forward pass as one function of its arrays, over the extended reals

Everything here is pure mathematics over literal shapes; no program is imported.

For a batch row `b` the model output is `lin b + fm b + deep b`:

* `lin b`  : the first-order term, the 26 looked-up linear weights summed, plus the
  numeric features against their linear weights, plus the bias;
* `fm b`   : the second-order factorisation-machine term
  `½ · Σ_e ((Σ_v v_e)² − Σ_v v_e²)` over the 39 field vectors `v` (26 looked-up
  embeddings and 13 numeric embeddings scaled by their feature);
* `deep b` : a 1248 → 512 → 256 → 1 perceptron with `max(·, 0)` activations on
  the 39 field embeddings laid side by side.

The looked-up rows enter through one array `g` indexed `(field, column, row of the batch)`
whose columns `0 … 31` are the embedding and column `32` the linear weight: `gath` below
is that array as a function of the stacked table and of the integer indices.
-/

noncomputable section

open scoped BigOperators

namespace Cert.Spec

open Idealize.ShloMosaic Idealize.ShloMosaic.ValueIdx

/-- An array of extended reals over a literal shape. -/
abbrev Arr (s : Shape) : Type := s.Idx → EReal

/-- One half, as the single-precision word both programs carry. -/
def half : EReal := Ideal.ofBits .f32 0x3F000000#32

section Fused

variable {B : Nat} (g : Arr ⟨3, ![26, 33, B]⟩) (nx : Arr ⟨2, ![B, 13]⟩) (lw : Arr ⟨2, ![13, 1]⟩)
  (lb : Arr ⟨2, ![1, 1]⟩) (fn : Arr ⟨2, ![13, 32]⟩) (ff : Arr ⟨2, ![1, 416]⟩)
  (w1 : Arr ⟨2, ![1248, 512]⟩) (b1 : Arr ⟨2, ![1, 512]⟩) (w2 : Arr ⟨2, ![512, 256]⟩)
  (b2 : Arr ⟨2, ![1, 256]⟩) (wo : Arr ⟨2, ![1, 256]⟩) (bo : Arr ⟨2, ![1, 1]⟩)

/-- First-order term of row `b` (the batch extent `B` is a parameter: the same formula reads a whole batch or one tile of it). -/
def lin (b : Fin B) : EReal :=
  ((∑ f : Fin 26, g (ix3 f (32 : Fin 33) b)) + ∑ j : Fin 13, nx (ix2 b j) * lw (ix2 j (0 : Fin 1)))
    + lb (ix2 (0 : Fin 1) (0 : Fin 1))

/-- Column `e` of the sum of the 39 field vectors of row `b`. -/
def sT (b : Fin B) (e : Fin 32) : EReal :=
  (∑ f : Fin 26, g (ix3 f (Fin.castLE (by decide) e : Fin 33) b)) + ∑ j : Fin 13, nx (ix2 b j) * fn (ix2 j e)

/-- Column `e` of the sum of the squares of the 39 field vectors of row `b`. -/
def qT (b : Fin B) (e : Fin 32) : EReal :=
  (∑ f : Fin 26, g (ix3 f (Fin.castLE (by decide) e : Fin 33) b) * g (ix3 f (Fin.castLE (by decide) e : Fin 33) b))
    + ∑ j : Fin 13, (nx (ix2 b j) * nx (ix2 b j)) * (fn (ix2 j e) * fn (ix2 j e))

/-- Second-order term of row `b`. -/
def fm (b : Fin B) : EReal :=
  half * ∑ e : Fin 32, (sT g nx fn b e * sT g nx fn b e - qT g nx fn b e)

/-- Entry `k` of the perceptron's input row `b`: the 26 looked-up embeddings, then the 13 numeric ones. -/
def xin (b : Fin B) (k : Fin 1248) : EReal :=
  if h : k.val < 832 then
    g (ix3 (⟨k.val / 32, by omega⟩ : Fin 26) (⟨k.val % 32, by omega⟩ : Fin 33) b)
  else ff (ix2 (0 : Fin 1) (⟨k.val - 832, by omega⟩ : Fin 416))

/-- First hidden layer. -/
def h1 (b : Fin B) (h : Fin 512) : EReal :=
  max ((∑ k : Fin 1248, xin g ff b k * w1 (ix2 k h)) + b1 (ix2 (0 : Fin 1) h)) 0

/-- Second hidden layer. -/
def h2 (b : Fin B) (o : Fin 256) : EReal :=
  max ((∑ h : Fin 512, h1 g ff w1 b1 b h * w2 (ix2 h o)) + b2 (ix2 (0 : Fin 1) o)) 0

/-- The perceptron's output for row `b`. -/
def deep (b : Fin B) : EReal :=
  (∑ o : Fin 256, h2 g ff w1 b1 w2 b2 b o * wo (ix2 (0 : Fin 1) o)) + bo (ix2 (0 : Fin 1) (0 : Fin 1))

/-- THE MODEL OUTPUT for row `b`. -/
def fused (b : Fin B) : EReal :=
  (lin g nx lw lb b + fm g nx fn b) + deep g ff w1 b1 w2 b2 wo bo b

end Fused

/-- The stacked lookup table `(field, column, category)`: columns `0 … 31` the embedding table, column `32` the
    linear-weight table, categories from 100000 on (the padding up to a multiple of the tile) zero. -/
def table (fmc : Arr ⟨3, ![26, 100000, 32]⟩) (lc : Arr ⟨2, ![26, 100000]⟩) : Arr ⟨3, ![26, 33, 100352]⟩ :=
  fun j =>
    if hk : (j 2).val < 100000 then
      if he : (j 1).val < 32 then fmc (ix3 (j 0) (⟨(j 2).val, hk⟩ : Fin 100000) (⟨(j 1).val, he⟩ : Fin 32))
      else lc (ix2 (j 0) (⟨(j 2).val, hk⟩ : Fin 100000))
    else 0

/-- The looked-up array `(field, column, row of the batch)`: the table's row at the category the index array names
    (an index past the table reads the last padded row, which only matters outside the indices' range). -/
def gath (tbl : Arr ⟨3, ![26, 33, 100352]⟩) (cx : (⟨2, ![16384, 26]⟩ : Shape).Idx → BitVec 32) : Arr ⟨3, ![26, 33, 16384]⟩ :=
  fun j => tbl (ix3 (j 0) (j 1) (⟨min (cx (ix2 (j 2) (j 0))).toNat 100351, by omega⟩ : Fin 100352))

/-- THE MODEL OUTPUT as a function of the thirteen arrays the two programs take, in their order: integer categories
    `cx`, numeric features `nx`, linear-weight table `lc`, numeric linear weights `lnw`, linear bias `lbias`, embedding
    table `fmc`, numeric embeddings `fn`, and the perceptron's `W1 b1 W2 b2 Wo bo` (weights stored output-major, so
    each is read transposed). -/
def model (cx : (⟨2, ![16384, 26]⟩ : Shape).Idx → BitVec 32) (nx : Arr ⟨2, ![16384, 13]⟩) (lc : Arr ⟨2, ![26, 100000]⟩)
    (lnw : Arr ⟨2, ![1, 13]⟩) (lbias : Arr ⟨1, ![1]⟩) (fmc : Arr ⟨3, ![26, 100000, 32]⟩) (fn : Arr ⟨2, ![13, 32]⟩)
    (W1 : Arr ⟨2, ![512, 1248]⟩) (b1 : Arr ⟨1, ![512]⟩) (W2 : Arr ⟨2, ![256, 512]⟩) (b2 : Arr ⟨1, ![256]⟩)
    (Wo : Arr ⟨2, ![1, 256]⟩) (bo : Arr ⟨1, ![1]⟩) (b : Fin 16384) : EReal :=
  fused (gath (table fmc lc) cx) nx (fun j => lnw (ix2 (0 : Fin 1) (j 0))) (fun _ => lbias (ix1 (0 : Fin 1))) fn
    (fun j => fn (ix2 (⟨(j 1).val / 32, by have := idx2_lt1 j; omega⟩ : Fin 13) (⟨(j 1).val % 32, by omega⟩ : Fin 32)))
    (fun j => W1 (ix2 (j 1) (j 0))) (fun j => b1 (ix1 (j 1)))
    (fun j => W2 (ix2 (j 1) (j 0))) (fun j => b2 (ix1 (j 1))) Wo (fun _ => bo (ix1 (0 : Fin 1))) b

end Cert.Spec

end
-- ==== Proof.DotReads.lean ====
import proofs.«404604_j83769042141642_2_alg».proof.Proof.Gen.KernelIdeal
import Idealize.ShloMosaic.Lib.ValueIdx
import Idealize.ShloMosaic.PureOps.Ideal.Laws

noncomputable section

namespace Cert.KernelIdeal.DotReads

open Cert.KernelIdeal Cert.KernelIdeal.Gen Idealize.ShloMosaic Idealize.ShloMosaic.ValueIdx Idealize.ShloMosaic.TcCoe Idealize.SL.Sem

variable [Facts]

/-! The kernels' five matrix products into a zero accumulator and their two lane sums, each read at an index as a plain
    finite sum over the contracted coordinate. -/

/-! ### The numeric features against their linear weights: a 1024×13 by 13×1 product -/

/-- Row coordinate of the left operand's index: the output's row. -/
theorem lhs_lin_0 (i : S1024x1.Idx) (q : dot_S1024x13_S13x1_S1024x1_1_0_0_1_n_n.contr.Idx) :
    (dot_S1024x13_S13x1_S1024x1_1_0_0_1_n_n.lhsIdx i q 0).val = (i 0).val := by
  unfold DotDims.lhsIdx
  rw [dif_neg (show ¬(0 : Fin S1024x13.rank) ∈ dot_S1024x13_S13x1_S1024x1_1_0_0_1_n_n.lhsBatch by decide), dif_pos (show (0 : Fin S1024x13.rank) ∈ dot_S1024x13_S13x1_S1024x1_1_0_0_1_n_n.lhsNonContracting by decide)]
  rfl
/-- Column coordinate of the left operand's index: the contracted coordinate. -/
theorem lhs_lin_1 (i : S1024x1.Idx) (q : dot_S1024x13_S13x1_S1024x1_1_0_0_1_n_n.contr.Idx) :
    (dot_S1024x13_S13x1_S1024x1_1_0_0_1_n_n.lhsIdx i q 1).val = (q ⟨0, by decide⟩).val :=
  dot_S1024x13_S13x1_S1024x1_1_0_0_1_n_n.lhsIdx_val_of_single rfl i q
/-- Row coordinate of the right operand's index: the contracted coordinate. -/
theorem rhs_lin_0 (i : S1024x1.Idx) (q : dot_S1024x13_S13x1_S1024x1_1_0_0_1_n_n.contr.Idx) :
    (dot_S1024x13_S13x1_S1024x1_1_0_0_1_n_n.rhsIdx i q 0).val = (q ⟨0, by decide⟩).val :=
  dot_S1024x13_S13x1_S1024x1_1_0_0_1_n_n.rhsIdx_val_of_single rfl i q
/-- Column coordinate of the right operand's index: the output's column. -/
theorem rhs_lin_1 (i : S1024x1.Idx) (q : dot_S1024x13_S13x1_S1024x1_1_0_0_1_n_n.contr.Idx) :
    (dot_S1024x13_S13x1_S1024x1_1_0_0_1_n_n.rhsIdx i q 1).val = (i 1).val := by
  unfold DotDims.rhsIdx
  rw [dif_neg (show ¬(1 : Fin S13x1.rank) ∈ dot_S1024x13_S13x1_S1024x1_1_0_0_1_n_n.rhsBatch by decide), dif_pos (show (1 : Fin S13x1.rank) ∈ dot_S1024x13_S13x1_S1024x1_1_0_0_1_n_n.rhsNonContracting by decide)]
  rfl

theorem dot_lin (a : FVec Ideal S1024x13 .bf16) (w : FVec Ideal S13x1 .bf16) (r : Fin 1024) :
    matmul dot_S1024x13_S13x1_S1024x1_1_0_0_1_n_n none a w (constant S1024x1 .f32 0x00000000#32) (ix2 r (0 : Fin 1))
      = ∑ j : Fin 13, a (ix2 r j) * w (ix2 j (0 : Fin 1)) := by
  simp only [matmul]
  rw [Ideal.matmul_constant_zero_apply, ← Equiv.sum_comp (contrEquiv1 dot_S1024x13_S13x1_S1024x1_1_0_0_1_n_n 13 rfl rfl).symm]
  refine Finset.sum_congr rfl fun k _ => ?_
  have hk := contrEquiv1_symm_val dot_S1024x13_S13x1_S1024x1_1_0_0_1_n_n 13 rfl rfl k
  have el : dot_S1024x13_S13x1_S1024x1_1_0_0_1_n_n.lhsIdx (ix2 r (0 : Fin 1)) ((contrEquiv1 dot_S1024x13_S13x1_S1024x1_1_0_0_1_n_n 13 rfl rfl).symm k) = ix2 r k := funext fun c => Fin.ext (by
    match c with
    | ⟨0, _⟩ => exact lhs_lin_0 _ _
    | ⟨1, _⟩ => exact (lhs_lin_1 _ _).trans hk)
  have er : dot_S1024x13_S13x1_S1024x1_1_0_0_1_n_n.rhsIdx (ix2 r (0 : Fin 1)) ((contrEquiv1 dot_S1024x13_S13x1_S1024x1_1_0_0_1_n_n 13 rfl rfl).symm k) = ix2 k (0 : Fin 1) := funext fun c => Fin.ext (by
    match c with
    | ⟨0, _⟩ => exact (rhs_lin_0 _ _).trans hk
    | ⟨1, _⟩ => exact rhs_lin_1 _ _)
  rw [el, er]

/-! ### The numeric features against their embeddings: a 1024×13 by 13×32 product -/

/-- Row coordinate of the left operand's index: the output's row. -/
theorem lhs_num_0 (i : S1024x32.Idx) (q : dot_S1024x13_S13x32_S1024x32_1_0_0_1_n_n.contr.Idx) :
    (dot_S1024x13_S13x32_S1024x32_1_0_0_1_n_n.lhsIdx i q 0).val = (i 0).val := by
  unfold DotDims.lhsIdx
  rw [dif_neg (show ¬(0 : Fin S1024x13.rank) ∈ dot_S1024x13_S13x32_S1024x32_1_0_0_1_n_n.lhsBatch by decide), dif_pos (show (0 : Fin S1024x13.rank) ∈ dot_S1024x13_S13x32_S1024x32_1_0_0_1_n_n.lhsNonContracting by decide)]
  rfl
/-- Column coordinate of the left operand's index: the contracted coordinate. -/
theorem lhs_num_1 (i : S1024x32.Idx) (q : dot_S1024x13_S13x32_S1024x32_1_0_0_1_n_n.contr.Idx) :
    (dot_S1024x13_S13x32_S1024x32_1_0_0_1_n_n.lhsIdx i q 1).val = (q ⟨0, by decide⟩).val :=
  dot_S1024x13_S13x32_S1024x32_1_0_0_1_n_n.lhsIdx_val_of_single rfl i q
/-- Row coordinate of the right operand's index: the contracted coordinate. -/
theorem rhs_num_0 (i : S1024x32.Idx) (q : dot_S1024x13_S13x32_S1024x32_1_0_0_1_n_n.contr.Idx) :
    (dot_S1024x13_S13x32_S1024x32_1_0_0_1_n_n.rhsIdx i q 0).val = (q ⟨0, by decide⟩).val :=
  dot_S1024x13_S13x32_S1024x32_1_0_0_1_n_n.rhsIdx_val_of_single rfl i q
/-- Column coordinate of the right operand's index: the output's column. -/
theorem rhs_num_1 (i : S1024x32.Idx) (q : dot_S1024x13_S13x32_S1024x32_1_0_0_1_n_n.contr.Idx) :
    (dot_S1024x13_S13x32_S1024x32_1_0_0_1_n_n.rhsIdx i q 1).val = (i 1).val := by
  unfold DotDims.rhsIdx
  rw [dif_neg (show ¬(1 : Fin S13x32.rank) ∈ dot_S1024x13_S13x32_S1024x32_1_0_0_1_n_n.rhsBatch by decide), dif_pos (show (1 : Fin S13x32.rank) ∈ dot_S1024x13_S13x32_S1024x32_1_0_0_1_n_n.rhsNonContracting by decide)]
  rfl

theorem dot_num (a : FVec Ideal S1024x13 .bf16) (w : FVec Ideal S13x32 .bf16) (r : Fin 1024) (e : Fin 32) :
    matmul dot_S1024x13_S13x32_S1024x32_1_0_0_1_n_n none a w (constant S1024x32 .f32 0x00000000#32) (ix2 r e)
      = ∑ j : Fin 13, a (ix2 r j) * w (ix2 j e) := by
  simp only [matmul]
  rw [Ideal.matmul_constant_zero_apply, ← Equiv.sum_comp (contrEquiv1 dot_S1024x13_S13x32_S1024x32_1_0_0_1_n_n 13 rfl rfl).symm]
  refine Finset.sum_congr rfl fun k _ => ?_
  have hk := contrEquiv1_symm_val dot_S1024x13_S13x32_S1024x32_1_0_0_1_n_n 13 rfl rfl k
  have el : dot_S1024x13_S13x32_S1024x32_1_0_0_1_n_n.lhsIdx (ix2 r e) ((contrEquiv1 dot_S1024x13_S13x32_S1024x32_1_0_0_1_n_n 13 rfl rfl).symm k) = ix2 r k := funext fun c => Fin.ext (by
    match c with
    | ⟨0, _⟩ => exact lhs_num_0 _ _
    | ⟨1, _⟩ => exact (lhs_num_1 _ _).trans hk)
  have er : dot_S1024x13_S13x32_S1024x32_1_0_0_1_n_n.rhsIdx (ix2 r e) ((contrEquiv1 dot_S1024x13_S13x32_S1024x32_1_0_0_1_n_n 13 rfl rfl).symm k) = ix2 k e := funext fun c => Fin.ext (by
    match c with
    | ⟨0, _⟩ => exact (rhs_num_0 _ _).trans hk
    | ⟨1, _⟩ => exact rhs_num_1 _ _)
  rw [el, er]

/-! ### The one-hot product of the lookup: a 33×1024 by 1024×4096 product -/

/-- Row coordinate of the left operand's index: the output's row. -/
theorem lhs_gather_0 (i : S33x4096.Idx) (q : dot_S33x1024_S1024x4096_S33x4096_1_0_0_1_n_n.contr.Idx) :
    (dot_S33x1024_S1024x4096_S33x4096_1_0_0_1_n_n.lhsIdx i q 0).val = (i 0).val := by
  unfold DotDims.lhsIdx
  rw [dif_neg (show ¬(0 : Fin S33x1024.rank) ∈ dot_S33x1024_S1024x4096_S33x4096_1_0_0_1_n_n.lhsBatch by decide), dif_pos (show (0 : Fin S33x1024.rank) ∈ dot_S33x1024_S1024x4096_S33x4096_1_0_0_1_n_n.lhsNonContracting by decide)]
  rfl
/-- Column coordinate of the left operand's index: the contracted coordinate. -/
theorem lhs_gather_1 (i : S33x4096.Idx) (q : dot_S33x1024_S1024x4096_S33x4096_1_0_0_1_n_n.contr.Idx) :
    (dot_S33x1024_S1024x4096_S33x4096_1_0_0_1_n_n.lhsIdx i q 1).val = (q ⟨0, by decide⟩).val :=
  dot_S33x1024_S1024x4096_S33x4096_1_0_0_1_n_n.lhsIdx_val_of_single rfl i q
/-- Row coordinate of the right operand's index: the contracted coordinate. -/
theorem rhs_gather_0 (i : S33x4096.Idx) (q : dot_S33x1024_S1024x4096_S33x4096_1_0_0_1_n_n.contr.Idx) :
    (dot_S33x1024_S1024x4096_S33x4096_1_0_0_1_n_n.rhsIdx i q 0).val = (q ⟨0, by decide⟩).val :=
  dot_S33x1024_S1024x4096_S33x4096_1_0_0_1_n_n.rhsIdx_val_of_single rfl i q
/-- Column coordinate of the right operand's index: the output's column. -/
theorem rhs_gather_1 (i : S33x4096.Idx) (q : dot_S33x1024_S1024x4096_S33x4096_1_0_0_1_n_n.contr.Idx) :
    (dot_S33x1024_S1024x4096_S33x4096_1_0_0_1_n_n.rhsIdx i q 1).val = (i 1).val := by
  unfold DotDims.rhsIdx
  rw [dif_neg (show ¬(1 : Fin S1024x4096.rank) ∈ dot_S33x1024_S1024x4096_S33x4096_1_0_0_1_n_n.rhsBatch by decide), dif_pos (show (1 : Fin S1024x4096.rank) ∈ dot_S33x1024_S1024x4096_S33x4096_1_0_0_1_n_n.rhsNonContracting by decide)]
  rfl

theorem dot_gather (a : FVec Ideal S33x1024 .bf16) (w : FVec Ideal S1024x4096 .bf16) (e : Fin 33) (r : Fin 4096) :
    matmul dot_S33x1024_S1024x4096_S33x4096_1_0_0_1_n_n none a w (constant S33x4096 .f32 0x00000000#32) (ix2 e r)
      = ∑ q : Fin 1024, a (ix2 e q) * w (ix2 q r) := by
  simp only [matmul]
  rw [Ideal.matmul_constant_zero_apply, ← Equiv.sum_comp (contrEquiv1 dot_S33x1024_S1024x4096_S33x4096_1_0_0_1_n_n 1024 rfl rfl).symm]
  refine Finset.sum_congr rfl fun k _ => ?_
  have hk := contrEquiv1_symm_val dot_S33x1024_S1024x4096_S33x4096_1_0_0_1_n_n 1024 rfl rfl k
  have el : dot_S33x1024_S1024x4096_S33x4096_1_0_0_1_n_n.lhsIdx (ix2 e r) ((contrEquiv1 dot_S33x1024_S1024x4096_S33x4096_1_0_0_1_n_n 1024 rfl rfl).symm k) = ix2 e k := funext fun c => Fin.ext (by
    match c with
    | ⟨0, _⟩ => exact lhs_gather_0 _ _
    | ⟨1, _⟩ => exact (lhs_gather_1 _ _).trans hk)
  have er : dot_S33x1024_S1024x4096_S33x4096_1_0_0_1_n_n.rhsIdx (ix2 e r) ((contrEquiv1 dot_S33x1024_S1024x4096_S33x4096_1_0_0_1_n_n 1024 rfl rfl).symm k) = ix2 k r := funext fun c => Fin.ext (by
    match c with
    | ⟨0, _⟩ => exact (rhs_gather_0 _ _).trans hk
    | ⟨1, _⟩ => exact rhs_gather_1 _ _)
  rw [el, er]

/-! ### The perceptron's first layer: a 1024×1248 by 1248×512 product -/

/-- Row coordinate of the left operand's index: the output's row. -/
theorem lhs_h1_0 (i : S1024x512.Idx) (q : dot_S1024x1248_S1248x512_S1024x512_1_0_0_1_n_n.contr.Idx) :
    (dot_S1024x1248_S1248x512_S1024x512_1_0_0_1_n_n.lhsIdx i q 0).val = (i 0).val := by
  unfold DotDims.lhsIdx
  rw [dif_neg (show ¬(0 : Fin S1024x1248.rank) ∈ dot_S1024x1248_S1248x512_S1024x512_1_0_0_1_n_n.lhsBatch by decide), dif_pos (show (0 : Fin S1024x1248.rank) ∈ dot_S1024x1248_S1248x512_S1024x512_1_0_0_1_n_n.lhsNonContracting by decide)]
  rfl
/-- Column coordinate of the left operand's index: the contracted coordinate. -/
theorem lhs_h1_1 (i : S1024x512.Idx) (q : dot_S1024x1248_S1248x512_S1024x512_1_0_0_1_n_n.contr.Idx) :
    (dot_S1024x1248_S1248x512_S1024x512_1_0_0_1_n_n.lhsIdx i q 1).val = (q ⟨0, by decide⟩).val :=
  dot_S1024x1248_S1248x512_S1024x512_1_0_0_1_n_n.lhsIdx_val_of_single rfl i q
/-- Row coordinate of the right operand's index: the contracted coordinate. -/
theorem rhs_h1_0 (i : S1024x512.Idx) (q : dot_S1024x1248_S1248x512_S1024x512_1_0_0_1_n_n.contr.Idx) :
    (dot_S1024x1248_S1248x512_S1024x512_1_0_0_1_n_n.rhsIdx i q 0).val = (q ⟨0, by decide⟩).val :=
  dot_S1024x1248_S1248x512_S1024x512_1_0_0_1_n_n.rhsIdx_val_of_single rfl i q
/-- Column coordinate of the right operand's index: the output's column. -/
theorem rhs_h1_1 (i : S1024x512.Idx) (q : dot_S1024x1248_S1248x512_S1024x512_1_0_0_1_n_n.contr.Idx) :
    (dot_S1024x1248_S1248x512_S1024x512_1_0_0_1_n_n.rhsIdx i q 1).val = (i 1).val := by
  unfold DotDims.rhsIdx
  rw [dif_neg (show ¬(1 : Fin S1248x512.rank) ∈ dot_S1024x1248_S1248x512_S1024x512_1_0_0_1_n_n.rhsBatch by decide), dif_pos (show (1 : Fin S1248x512.rank) ∈ dot_S1024x1248_S1248x512_S1024x512_1_0_0_1_n_n.rhsNonContracting by decide)]
  rfl

theorem dot_h1 (a : FVec Ideal S1024x1248 .bf16) (w : FVec Ideal S1248x512 .bf16) (r : Fin 1024) (h : Fin 512) :
    matmul dot_S1024x1248_S1248x512_S1024x512_1_0_0_1_n_n none a w (constant S1024x512 .f32 0x00000000#32) (ix2 r h)
      = ∑ k : Fin 1248, a (ix2 r k) * w (ix2 k h) := by
  simp only [matmul]
  rw [Ideal.matmul_constant_zero_apply, ← Equiv.sum_comp (contrEquiv1 dot_S1024x1248_S1248x512_S1024x512_1_0_0_1_n_n 1248 rfl rfl).symm]
  refine Finset.sum_congr rfl fun k _ => ?_
  have hk := contrEquiv1_symm_val dot_S1024x1248_S1248x512_S1024x512_1_0_0_1_n_n 1248 rfl rfl k
  have el : dot_S1024x1248_S1248x512_S1024x512_1_0_0_1_n_n.lhsIdx (ix2 r h) ((contrEquiv1 dot_S1024x1248_S1248x512_S1024x512_1_0_0_1_n_n 1248 rfl rfl).symm k) = ix2 r k := funext fun c => Fin.ext (by
    match c with
    | ⟨0, _⟩ => exact lhs_h1_0 _ _
    | ⟨1, _⟩ => exact (lhs_h1_1 _ _).trans hk)
  have er : dot_S1024x1248_S1248x512_S1024x512_1_0_0_1_n_n.rhsIdx (ix2 r h) ((contrEquiv1 dot_S1024x1248_S1248x512_S1024x512_1_0_0_1_n_n 1248 rfl rfl).symm k) = ix2 k h := funext fun c => Fin.ext (by
    match c with
    | ⟨0, _⟩ => exact (rhs_h1_0 _ _).trans hk
    | ⟨1, _⟩ => exact rhs_h1_1 _ _)
  rw [el, er]

/-! ### The perceptron's second layer: a 1024×512 by 512×256 product -/

/-- Row coordinate of the left operand's index: the output's row. -/
theorem lhs_h2_0 (i : S1024x256.Idx) (q : dot_S1024x512_S512x256_S1024x256_1_0_0_1_n_n.contr.Idx) :
    (dot_S1024x512_S512x256_S1024x256_1_0_0_1_n_n.lhsIdx i q 0).val = (i 0).val := by
  unfold DotDims.lhsIdx
  rw [dif_neg (show ¬(0 : Fin S1024x512.rank) ∈ dot_S1024x512_S512x256_S1024x256_1_0_0_1_n_n.lhsBatch by decide), dif_pos (show (0 : Fin S1024x512.rank) ∈ dot_S1024x512_S512x256_S1024x256_1_0_0_1_n_n.lhsNonContracting by decide)]
  rfl
/-- Column coordinate of the left operand's index: the contracted coordinate. -/
theorem lhs_h2_1 (i : S1024x256.Idx) (q : dot_S1024x512_S512x256_S1024x256_1_0_0_1_n_n.contr.Idx) :
    (dot_S1024x512_S512x256_S1024x256_1_0_0_1_n_n.lhsIdx i q 1).val = (q ⟨0, by decide⟩).val :=
  dot_S1024x512_S512x256_S1024x256_1_0_0_1_n_n.lhsIdx_val_of_single rfl i q
/-- Row coordinate of the right operand's index: the contracted coordinate. -/
theorem rhs_h2_0 (i : S1024x256.Idx) (q : dot_S1024x512_S512x256_S1024x256_1_0_0_1_n_n.contr.Idx) :
    (dot_S1024x512_S512x256_S1024x256_1_0_0_1_n_n.rhsIdx i q 0).val = (q ⟨0, by decide⟩).val :=
  dot_S1024x512_S512x256_S1024x256_1_0_0_1_n_n.rhsIdx_val_of_single rfl i q
/-- Column coordinate of the right operand's index: the output's column. -/
theorem rhs_h2_1 (i : S1024x256.Idx) (q : dot_S1024x512_S512x256_S1024x256_1_0_0_1_n_n.contr.Idx) :
    (dot_S1024x512_S512x256_S1024x256_1_0_0_1_n_n.rhsIdx i q 1).val = (i 1).val := by
  unfold DotDims.rhsIdx
  rw [dif_neg (show ¬(1 : Fin S512x256.rank) ∈ dot_S1024x512_S512x256_S1024x256_1_0_0_1_n_n.rhsBatch by decide), dif_pos (show (1 : Fin S512x256.rank) ∈ dot_S1024x512_S512x256_S1024x256_1_0_0_1_n_n.rhsNonContracting by decide)]
  rfl

theorem dot_h2 (a : FVec Ideal S1024x512 .bf16) (w : FVec Ideal S512x256 .bf16) (r : Fin 1024) (o : Fin 256) :
    matmul dot_S1024x512_S512x256_S1024x256_1_0_0_1_n_n none a w (constant S1024x256 .f32 0x00000000#32) (ix2 r o)
      = ∑ h : Fin 512, a (ix2 r h) * w (ix2 h o) := by
  simp only [matmul]
  rw [Ideal.matmul_constant_zero_apply, ← Equiv.sum_comp (contrEquiv1 dot_S1024x512_S512x256_S1024x256_1_0_0_1_n_n 512 rfl rfl).symm]
  refine Finset.sum_congr rfl fun k _ => ?_
  have hk := contrEquiv1_symm_val dot_S1024x512_S512x256_S1024x256_1_0_0_1_n_n 512 rfl rfl k
  have el : dot_S1024x512_S512x256_S1024x256_1_0_0_1_n_n.lhsIdx (ix2 r o) ((contrEquiv1 dot_S1024x512_S512x256_S1024x256_1_0_0_1_n_n 512 rfl rfl).symm k) = ix2 r k := funext fun c => Fin.ext (by
    match c with
    | ⟨0, _⟩ => exact lhs_h2_0 _ _
    | ⟨1, _⟩ => exact (lhs_h2_1 _ _).trans hk)
  have er : dot_S1024x512_S512x256_S1024x256_1_0_0_1_n_n.rhsIdx (ix2 r o) ((contrEquiv1 dot_S1024x512_S512x256_S1024x256_1_0_0_1_n_n 512 rfl rfl).symm k) = ix2 k o := funext fun c => Fin.ext (by
    match c with
    | ⟨0, _⟩ => exact (rhs_h2_0 _ _).trans hk
    | ⟨1, _⟩ => exact rhs_h2_1 _ _)
  rw [el, er]

/-! ### The two lane sums: a row's entries added over the columns -/

/-- The sum over the 32 columns of row `r`: the reduced index with column `e` put back is `(r, e)`. -/
theorem red32 (v : FVec Ideal S1024x32 .f32) (r : Fin 1024) :
    multiReduction .add [1] S1024 v 0x00000000#32 reduces_S1024x32_S1024 (.inl rfl) rfl (ix1 r)
      = ∑ e : Fin 32, v (ix2 r e) := by
  refine (Ideal.multiReduction_add_single v 0x00000000#32 reduces_S1024x32_S1024 (.inl rfl) rfl (ix1 r)).trans ?_
  refine Finset.sum_congr rfl fun k _ => congrArg v (funext fun c => Fin.ext ?_)
  match c with
  | ⟨0, _⟩ => rfl
  | ⟨1, _⟩ => rfl

/-- The sum over the 256 columns of row `r`: the reduced index with column `o` put back is `(r, o)`. -/
theorem red256 (v : FVec Ideal S1024x256 .f32) (r : Fin 1024) :
    multiReduction .add [1] S1024 v 0x00000000#32 reduces_S1024x256_S1024 (.inl rfl) rfl (ix1 r)
      = ∑ o : Fin 256, v (ix2 r o) := by
  refine (Ideal.multiReduction_add_single v 0x00000000#32 reduces_S1024x256_S1024 (.inl rfl) rfl (ix1 r)).trans ?_
  refine Finset.sum_congr rfl fun k _ => congrArg v (funext fun c => Fin.ext ?_)
  match c with
  | ⟨0, _⟩ => rfl
  | ⟨1, _⟩ => rfl

end Cert.KernelIdeal.DotReads

end
-- ==== Proof.GatherValuePieces.lean ====
import proofs.«404604_j83769042141642_2_alg».proof.Proof.Gen.KernelIdeal.Frame
import Idealize.ShloMosaic.Lib.Pipeline.Value
import Idealize.ShloMosaic.Lib.Tactic

set_option maxRecDepth 16384

noncomputable section

namespace Cert.KernelIdeal.GatherValue

open Cert.KernelIdeal Cert.KernelIdeal.Gen Idealize.ShloMosaic Idealize.ShloMosaic.TcCoe Idealize.SL.Sem

variable {F : FTy → Type} [FloatOps F]

/-- The three zero offsets of a whole block, as the constant function. -/
theorem zeros3 : (![0, 0, 0] : Fin 3 → Nat) = fun _ => 0 := funext fun a => by fin_cases a <;> rfl

/-- A LATER TILE (the category tile is not the first): the output block, holding `xo` from the tile before, is left at
    the accumulating store's value of the index block `x1`, the table block `x0` and `xo`. -/
theorem out_B (c : Dev nD) (i : grid0.Coords) (a3 : Memref sig .tc .vmem S1x33x1024 .bf16) (h3 : a3.IsWhole)
    (a4 : Memref sig .tc .vmem S1x1x4096 .i32) (h4 : a4.IsWhole) (a5 : Memref sig .tc .vmem S1x33x4096 .f32)
    (h5 : a5.IsWhole) (hc : ¬cond0_0 i) (x0 : Vec F S1x33x1024 .bf16) (x1 : Vec F S1x1x4096 .i32)
    (xo : Vec F S1x33x4096 .f32) :
    out0_B_2 c i a3 h3 a4 h4 a5 h5 hc x0 x1 xo = k0_pay2 i x1 x0 xo := by
  unfold out0_B_2
  rw [View.read_writes_eq_canon _ _ _ (cover0_B_2 c i a3 h3 a4 h4 a5 h5 hc x0 x1 xo)]
  unfold kernelRun0_B
  dsimp only
  sl_unfold_words
  rw [View.canon_unit_zero zeros3]
  simp only [View.readAt_eq_ld, h3.read_unread, h4.read_unread, h5.read_unread,
    View.ld_unit_zero (S := S1x33x1024) zeros3, View.ld_unit_zero (S := S1x1x4096) zeros3,
    View.ld_unit_zero (S := S1x33x4096) zeros3]

/-- THE FIRST TILE: the output block is first set to the zero block, read back, and then left at the accumulating
    store's value of the index block, the table block and that zero block. -/
theorem out_A (c : Dev nD) (i : grid0.Coords) (a3 : Memref sig .tc .vmem S1x33x1024 .bf16) (h3 : a3.IsWhole)
    (a4 : Memref sig .tc .vmem S1x1x4096 .i32) (h4 : a4.IsWhole) (a5 : Memref sig .tc .vmem S1x33x4096 .f32)
    (h5 : a5.IsWhole) (hc : cond0_0 i) (x0 : Vec F S1x33x1024 .bf16) (x1 : Vec F S1x1x4096 .i32) :
    out0_A_2 c i a3 h3 a4 h4 a5 h5 hc x0 x1 = k0_pay2 i x1 x0 (k0_pay1 (F := F)) := by
  unfold out0_A_2
  rw [View.read_writes_eq_canon _ _ _ (cover0_A_2 c i a3 h3 a4 h4 a5 h5 hc x0 x1)]
  unfold kernelRun0_A
  dsimp only
  sl_unfold_words
  rw [View.canon_cons_unit_zero (S := S1x33x4096) zeros3]
  simp only [View.readAt_eq_ld, h3.read_unread, h4.read_unread,
    View.readCov_unit_zero (S := S1x33x4096) _ zeros3,
    View.ld_unit_zero (S := S1x33x1024) zeros3, View.ld_unit_zero (S := S1x1x4096) zeros3,
    View.ld_unit_zero (S := S1x33x4096) zeros3]

end Cert.KernelIdeal.GatherValue

end
-- ==== Proof.GatherValuePay.lean ====
import proofs.«404604_j83769042141642_2_alg».proof.Proof.Gen.KernelIdeal.Skeleton
import proofs.«404604_j83769042141642_2_alg».proof.Proof.DotReads
import Idealize.ShloMosaic.Lib.Pipeline.Value
import Idealize.ShloMosaic.Lib.ValueIdx
import Idealize.ShloMosaic.PureOps.Ideal.Laws

noncomputable section

open scoped BigOperators

namespace Cert.KernelIdeal.GatherValue

open Cert.KernelIdeal Cert.KernelIdeal.Gen Idealize.ShloMosaic Idealize.ShloMosaic.ValueIdx Idealize.ShloMosaic.TcCoe Idealize.SL.Sem

/-! ## A block with a leading axis of extent one, read as the matrix under it and back -/

/-- Dropping the leading unit axis: entry `(a, b)` of the matrix is entry `(0, a, b)` of the block. -/
theorem dropUnit3 {α : Type} {n1 n2 : Nat} (v : (⟨3, ![1, n1, n2]⟩ : Shape).Idx → α)
    (h : (⟨3, ![1, n1, n2]⟩ : Shape).ShapeCasts ⟨2, ![n1, n2]⟩) (a : Fin n1) (b : Fin n2) :
    shapeCast ⟨2, ![n1, n2]⟩ v h (ix2 a b) = v (ix3 (0 : Fin 1) a b) :=
  (shapeCast_dropUnit_apply ![n1, n2] v h (ix2 a b)).trans
    (congrArg v (funext fun d => by match d with | ⟨0, _⟩ => rfl | ⟨1, _⟩ => rfl | ⟨2, _⟩ => rfl))

/-- Adding the leading unit axis: entry `(0, a, b)` of the block is entry `(a, b)` of the matrix. -/
theorem addUnit3 {α : Type} {n1 n2 : Nat} (v : (⟨2, ![n1, n2]⟩ : Shape).Idx → α)
    (h : (⟨2, ![n1, n2]⟩ : Shape).ShapeCasts ⟨3, ![1, n1, n2]⟩) (a : Fin n1) (b : Fin n2) :
    shapeCast ⟨3, ![1, n1, n2]⟩ v h (ix3 (0 : Fin 1) a b) = v (ix2 a b) :=
  (shapeCast_addUnit_apply ![n1, n2] v h (ix3 (0 : Fin 1) a b)).trans
    (congrArg v (funext fun d => by match d with | ⟨0, _⟩ => rfl | ⟨1, _⟩ => rfl))

/-! ## The one-hot selector -/

/-- A one-bit word widened to 32 bits and read signed is 1 for the bit one and 0 for the bit zero. -/
theorem bit_toInt : ∀ b : BitVec 1, (b.setWidth 32).toInt = if b = 1#1 then 1 else 0 := by decide

/-- Equality of two 32-bit words, converted to a number: 1 when they are equal, 0 when not. -/
theorem eq_word_value (x y : BitVec 32) :
    (FloatOps.sitofp (F := Ideal) .f32 ((IntOp.cmpi .eq x y).setWidth 32) : EReal) = if x = y then 1 else 0 := by
  show ((((IntOp.cmpi .eq x y).setWidth 32).toInt : ℝ) : EReal) = _
  rw [bit_toInt]
  by_cases h : x = y
  · have hb : IntOp.cmpi .eq x y = 1#1 := by subst h; simp [IntOp.cmpi]
    rw [if_pos hb, if_pos h]; simp
  · have hxy : (x == y) = false := beq_eq_false_iff_ne.mpr h
    have hb : ¬IntOp.cmpi .eq x y = 1#1 := by
      show ¬BitVec.ofBool (x == y) = 1#1
      rw [hxy]; decide
    rw [if_neg hb, if_neg h]; simp

/-- The selector of one category tile against the row of indices: entry `(q, r)` is 1 when category `base + q` is the
    one that row `r` of the batch tile names, and 0 otherwise; the comparison is of 32-bit words. -/
def onehot (base : BitVec 32) (idx : IVec S1x4096 32) : FVec Ideal S1024x4096 .bf16 :=
  truncf .bf16 (sitofp .f32 (extui 32 (cmpi .eq (addi (broadcast S1024x4096 base)
      (iota .tc S1024x4096 32 [0] iota_S1024x4096_d0_w32))
    (broadcastTo S1024x4096 idx broadcasts_S1x4096_S1024x4096)) natLt_1_32)) bitsLt_bf16_f32

theorem onehot_apply (base : BitVec 32) (idx : IVec S1x4096 32) (q : Fin 1024) (r : Fin 4096) :
    onehot base idx (ix2 q r) = if base + BitVec.ofNat 32 q.val = idx (ix2 (0 : Fin 1) r) then 1 else 0 := by
  have hi : iota .tc S1024x4096 32 [0] iota_S1024x4096_d0_w32 (ix2 q r) = BitVec.ofNat 32 q.val :=
    iota_single_apply .tc S1024x4096 32 0 iota_S1024x4096_d0_w32 (ix2 q r)
  have hb : broadcastTo S1024x4096 idx broadcasts_S1x4096_S1024x4096 (ix2 q r) = idx (ix2 (0 : Fin 1) r) :=
    broadcastTo_apply idx broadcasts_S1x4096_S1024x4096 (ix2 q r) (ix2 (0 : Fin 1) r)
      (fun a => by match a with | ⟨0, _⟩ => rfl | ⟨1, _⟩ => rfl)
  show (FloatOps.sitofp (F := Ideal) .f32 ((IntOp.cmpi .eq
      (IntOp.addi base (iota .tc S1024x4096 32 [0] iota_S1024x4096_d0_w32 (ix2 q r)))
      (broadcastTo S1024x4096 idx broadcasts_S1x4096_S1024x4096 (ix2 q r))).setWidth 32) : EReal) = _
  rw [eq_word_value, hi, hb]
  rfl

/-! ## The two stored values, read at an entry -/

/-- The reset stores the zero block. -/
theorem pay1_apply (e : Fin 33) (r : Fin 4096) :
    (k0_pay1 (F := Ideal) : Vec Ideal S1x33x4096 .f32) (ix3 (0 : Fin 1) e r) = 0 := by
  unfold k0_pay1
  refine (addUnit3 _ _ e r).trans ?_
  show Ideal.ofBits .f32 0x00000000#32 = 0
  exact Ideal.ofBits_zero_f32

/-- The accumulating store is the old block plus the table block times the selector, all under the unit axis. -/
theorem pay2_eq (i : grid0.Coords) (v4 : Vec Ideal S1x1x4096 .i32) (v14 : Vec Ideal S1x33x1024 .bf16)
    (v16 : Vec Ideal S1x33x4096 .f32) :
    k0_pay2 (F := Ideal) i v4 v14 v16
      = shapeCast S1x33x4096 (addf (shapeCast S33x4096 v16 shapeCasts_S1x33x4096_S33x4096 : FVec Ideal S33x4096 .f32)
          (matmul dot_S33x1024_S1024x4096_S33x4096_1_0_0_1_n_n none
            (shapeCast S33x1024 v14 shapeCasts_S1x33x1024_S33x1024 : FVec Ideal S33x1024 .bf16)
            (onehot (Scalar.muli (BitVec.ofNat 32 (i 2).val) 1024#32) (shapeCast S1x4096 v4 shapeCasts_S1x1x4096_S1x4096))
            (constant S33x4096 .f32 0x00000000#32))) shapeCasts_S33x4096_S1x33x4096 := rfl

/-- Entry `(0, e, r)` of the accumulating store: the old entry plus, over the 1024 categories `q` of the tile, the
    table block's entry `(0, e, q)` where category `ct·1024 + q` is the one row `r` names, and nothing where not. -/
theorem pay2_apply (i : grid0.Coords) (v4 : Vec Ideal S1x1x4096 .i32) (v14 : Vec Ideal S1x33x1024 .bf16)
    (v16 : Vec Ideal S1x33x4096 .f32) (e : Fin 33) (r : Fin 4096) :
    (k0_pay2 (F := Ideal) i v4 v14 v16 : Vec Ideal S1x33x4096 .f32) (ix3 (0 : Fin 1) e r)
      = v16 (ix3 (0 : Fin 1) e r) + ∑ q : Fin 1024, v14 (ix3 (0 : Fin 1) e q)
          * (if BitVec.ofNat 32 (i 2).val * 1024#32 + BitVec.ofNat 32 q.val
                = v4 (ix3 (0 : Fin 1) (0 : Fin 1) r) then 1 else 0) := by
  rw [pay2_eq]
  refine (addUnit3 _ _ e r).trans ?_
  rw [addf_apply, DotReads.dot_gather, dropUnit3 v16 shapeCasts_S1x33x4096_S33x4096 e r]
  refine congrArg (fun s : EReal => v16 (ix3 (0 : Fin 1) e r) + s) (Finset.sum_congr rfl fun q _ => ?_)
  rw [dropUnit3 v14 shapeCasts_S1x33x1024_S33x1024 e q, onehot_apply,
    dropUnit3 v4 shapeCasts_S1x1x4096_S1x4096 (0 : Fin 1) r]
  rfl

/-! ## One grid point's update, as arithmetic on one entry -/

/-- Category `ct·1024 + q` of tile `ct` (at most 97) computed in 32-bit words does not wrap: it equals a word exactly
    when its number is that word's. -/
theorem word_eq (ct : ℕ) (hct : ct < 98) (q : Fin 1024) (w : BitVec 32) :
    BitVec.ofNat 32 ct * 1024#32 + BitVec.ofNat 32 q.val = w ↔ ct * 1024 + q.val = w.toNat := by
  have hq := q.isLt
  have key : (BitVec.ofNat 32 ct * 1024#32 + BitVec.ofNat 32 q.val).toNat = ct * 1024 + q.val := by
    rw [BitVec.toNat_add, BitVec.toNat_mul, BitVec.toNat_ofNat, BitVec.toNat_ofNat, BitVec.toNat_ofNat]
    norm_num
    omega
  constructor
  · intro h; rw [← h, key]
  · intro h; exact BitVec.eq_of_toNat_eq (key.trans h)

/-- Entry `(f, e, K)` of the stacked table for ANY natural `K`: zero from the table's last category on. -/
def rowAt (tbl : Vec Ideal S26x33x100352 .bf16) (f : Fin 26) (e : Fin 33) (K : ℕ) : EReal :=
  if h : K < 100352 then tbl (ix3 f e ⟨K, h⟩) else 0

theorem rowAt_of_lt (tbl : Vec Ideal S26x33x100352 .bf16) (f : Fin 26) (e : Fin 33) (K : ℕ) (h : K < 100352) :
    rowAt tbl f e K = tbl (ix3 f e ⟨K, h⟩) := dif_pos h

/-- THE STEP. If before tile `ct` the entry holds the table's row `K` when `K` lies in the tiles before `ct` and zero
    when not, then adding the tile's 1024 rows against the selector leaves the same with `ct + 1` in place of `ct`:
    at most one category of the tile is `K`; `x·1 = x`, `x·0 = 0`, `0 + x = x`, `x + 0 = x`. -/
theorem step (tbl : Vec Ideal S26x33x100352 .bf16) (f : Fin 26) (e : Fin 33) (ct : ℕ) (hct : ct < 98) (w : BitVec 32)
    (old : EReal) (blk : Fin 1024 → EReal)
    (hold : old = if w.toNat < ct * 1024 then rowAt tbl f e w.toNat else 0)
    (hblk : ∀ q : Fin 1024, blk q = rowAt tbl f e (ct * 1024 + q.val)) :
    old + ∑ q : Fin 1024, blk q * (if BitVec.ofNat 32 ct * 1024#32 + BitVec.ofNat 32 q.val = w then 1 else 0)
      = if w.toNat < (ct + 1) * 1024 then rowAt tbl f e w.toNat else 0 := by
  have hterm : ∀ q : Fin 1024,
      blk q * (if BitVec.ofNat 32 ct * 1024#32 + BitVec.ofNat 32 q.val = w then (1 : EReal) else 0)
        = if ct * 1024 + q.val = w.toNat then rowAt tbl f e w.toNat else 0 := by
    intro q
    by_cases hq : ct * 1024 + q.val = w.toNat
    · rw [if_pos ((word_eq ct hct q w).mpr hq), if_pos hq, mul_one, hblk q, hq]
    · rw [if_neg (fun h => hq ((word_eq ct hct q w).mp h)), if_neg hq, mul_zero]
  rw [hold, Finset.sum_congr rfl fun q _ => hterm q]
  by_cases h1 : w.toNat < ct * 1024
  · have hz : (∑ q : Fin 1024, if ct * 1024 + q.val = w.toNat then rowAt tbl f e w.toNat else 0) = 0 :=
      Finset.sum_eq_zero fun q _ => if_neg (by omega)
    have h1' : w.toNat < (ct + 1) * 1024 := by omega
    rw [if_pos h1, if_pos h1', hz, add_zero]
  · rw [if_neg h1, zero_add]
    by_cases h2 : w.toNat < (ct + 1) * 1024
    · have hlt : w.toNat - ct * 1024 < 1024 := by omega
      have hs : (∑ q : Fin 1024, if ct * 1024 + q.val = w.toNat then rowAt tbl f e w.toNat else 0)
          = if ct * 1024 + (⟨w.toNat - ct * 1024, hlt⟩ : Fin 1024).val = w.toNat then rowAt tbl f e w.toNat else 0 :=
        Finset.sum_eq_single (⟨w.toNat - ct * 1024, hlt⟩ : Fin 1024)
          (fun q _ hq => if_neg fun h => hq (Fin.ext (by show q.val = w.toNat - ct * 1024; omega)))
          (fun h => absurd (Finset.mem_univ _) h)
      have hq0 : ct * 1024 + (⟨w.toNat - ct * 1024, hlt⟩ : Fin 1024).val = w.toNat := by
        show ct * 1024 + (w.toNat - ct * 1024) = w.toNat; omega
      rw [if_pos h2, hs, if_pos hq0]
    · have hz : (∑ q : Fin 1024, if ct * 1024 + q.val = w.toNat then rowAt tbl f e w.toNat else 0) = 0 :=
        Finset.sum_eq_zero fun q _ => if_neg (by have := q.isLt; omega)
      rw [if_neg h2, hz]

end Cert.KernelIdeal.GatherValue

end
-- ==== Proof.GatherValue.lean ====
import proofs.«404604_j83769042141642_2_alg».proof.Proof.Gen.KernelIdeal.Frame
import proofs.«404604_j83769042141642_2_alg».proof.Proof.DotReads
import proofs.«404604_j83769042141642_2_alg».proof.Proof.Spec
import proofs.«404604_j83769042141642_2_alg».proof.Proof.GatherValuePieces
import proofs.«404604_j83769042141642_2_alg».proof.Proof.GatherValuePay
import Idealize.ShloMosaic.Lib.Pipeline.Value
import Idealize.ShloMosaic.Lib.ValueIdx

noncomputable section

open scoped BigOperators

namespace Cert.KernelIdeal.GatherValue

open Cert.KernelIdeal Cert.KernelIdeal.Gen Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

/-! ## The arrays and the blocks, by their literal types -/

/-- The stacked table and the index array as the first kernel finds them. -/
abbrev tblArr (c : Dev nD) : Vec Ideal S26x33x100352 .bf16 := V c main_v4
abbrev idxArr (c : Dev nD) : Vec Ideal S26x1x16384 .i32 := V c main_v6
/-- The table's and the index array's blocks at a grid point. -/
abbrev tblBlk (c : Dev nD) (t : Fin cfg0.N) : Vec Ideal S1x33x1024 .bf16 := iblk0 V c 0 t
abbrev idxBlk (c : Dev nD) (t : Fin cfg0.N) : Vec Ideal S1x1x4096 .i32 := iblk0 V c 1 t

/-- A number below the grid's size is its own 32-bit word's value. -/
theorem small_word (n : ℕ) (hn : n < 10192) : (BitVec.ofNat 32 n).toNat = n := by
  rw [BitVec.toNat_ofNat]; exact Nat.mod_eq_of_lt (by norm_num; omega)

/-- The grid runs field-major, then batch tile, then category tile: point number `t` is field `t / 392`, batch tile
    `t / 98 % 4`, category tile `t % 98`; the table's block moves with (field, category tile), the index block and the
    output block with (field, batch tile). The block indices are those coordinates as 32-bit words, which do not wrap. -/
theorem point_facts (t : Fin cfg0.N) :
    win0_0.index t (0 : Fin 3) = t.val / 392 ∧ win0_0.index t (1 : Fin 3) = 0 ∧ win0_0.index t (2 : Fin 3) = t.val % 98
    ∧ win0_1.index t (0 : Fin 3) = t.val / 392 ∧ win0_1.index t (1 : Fin 3) = 0 ∧ win0_1.index t (2 : Fin 3) = t.val / 98 % 4
    ∧ win0_2.index t (0 : Fin 3) = t.val / 392 ∧ win0_2.index t (1 : Fin 3) = 0 ∧ win0_2.index t (2 : Fin 3) = t.val / 98 % 4
    ∧ ((grid0.coords t) 2).val = t.val % 98 := by
  have hN : t.val < 10192 := lt_of_lt_of_eq t.isLt (show cfg0.N = 10192 from N_0)
  have s0 : grid0.stride 0 = 392 := by decide
  have s1 : grid0.stride 1 = 98 := by decide
  have s2 : grid0.stride 2 = 1 := by decide
  have c0 : ((grid0.coords t) 0).val = t.val / 392 := by
    show t.val / grid0.stride 0 % 26 = _; rw [s0]; omega
  have c1 : ((grid0.coords t) 1).val = t.val / 98 % 4 := by
    show t.val / grid0.stride 1 % 4 = _; rw [s1]
  have c2 : ((grid0.coords t) 2).val = t.val % 98 := by
    show t.val / grid0.stride 2 % 98 = _; rw [s2]; omega
  have w0 : (BitVec.ofNat 32 ((grid0.coords t) 0).val).toNat = t.val / 392 := by rw [c0]; exact small_word _ (by omega)
  have w1 : (BitVec.ofNat 32 ((grid0.coords t) 1).val).toNat = t.val / 98 % 4 := by rw [c1]; exact small_word _ (by omega)
  have w2 : (BitVec.ofNat 32 ((grid0.coords t) 2).val).toNat = t.val % 98 := by rw [c2]; exact small_word _ (by omega)
  exact ⟨w0, rfl, w2, w0, rfl, w1, w0, rfl, w1, c2⟩

/-- The table block at category tile `ct` of field `f`: its entry `(0, e, q)` is the table's `(f, e, ct·1024 + q)`. -/
theorem tblBlk_at (c : Dev nD) (t : Fin cfg0.N) (f : Fin 26) (bt : Fin 4) (ct : ℕ) (hct : ct < 98)
    (ht : t.val = (f.val * 4 + bt.val) * 98 + ct) (e : Fin 33) (q : Fin 1024) :
    tblBlk V c t (ix3 (0 : Fin 1) e q)
      = tblArr V c (ix3 f e (⟨ct * 1024 + q.val, by have := q.isLt; omega⟩ : Fin 100352)) := by
  have hf := f.isLt; have hb := bt.isLt; have hq := q.isLt
  obtain ⟨e0, e1, e2, -⟩ := point_facts t
  show V c main_v4 (((cfg0.win 0).blk t).view.emb (ix3 (0 : Fin 1) e q)) = V c main_v4 _
  refine congrArg (V c main_v4) (funext fun a => Fin.ext ?_)
  match a with
  | ⟨0, _⟩ => show win0_0.index t (0 : Fin 3) * 1 + 1 * 0 = f.val; rw [e0, ht]; omega
  | ⟨1, _⟩ => show win0_0.index t (1 : Fin 3) * 33 + 1 * e.val = e.val; rw [e1]; omega
  | ⟨2, _⟩ => show win0_0.index t (2 : Fin 3) * 1024 + 1 * q.val = ct * 1024 + q.val; rw [e2, ht]; omega

/-- The index block at batch tile `bt` of field `f`: its entry `(0, 0, r)` is the index array's `(f, 0, bt·4096 + r)`. -/
theorem idxBlk_at (c : Dev nD) (t : Fin cfg0.N) (f : Fin 26) (bt : Fin 4) (ct : ℕ) (hct : ct < 98)
    (ht : t.val = (f.val * 4 + bt.val) * 98 + ct) (r : Fin 4096) :
    idxBlk V c t (ix3 (0 : Fin 1) (0 : Fin 1) r)
      = idxArr V c (ix3 f (0 : Fin 1) (⟨bt.val * 4096 + r.val, by have := bt.isLt; have := r.isLt; omega⟩ : Fin 16384)) := by
  have hf := f.isLt; have hb := bt.isLt; have hr := r.isLt
  obtain ⟨-, -, -, e0, e1, e2, -⟩ := point_facts t
  show V c main_v6 (((cfg0.win 1).blk t).view.emb (ix3 (0 : Fin 1) (0 : Fin 1) r)) = V c main_v6 _
  refine congrArg (V c main_v6) (funext fun a => Fin.ext ?_)
  match a with
  | ⟨0, _⟩ => show win0_1.index t (0 : Fin 3) * 1 + 1 * 0 = f.val; rw [e0, ht]; omega
  | ⟨1, _⟩ => show win0_1.index t (1 : Fin 3) * 1 + 1 * 0 = 0; rw [e1]
  | ⟨2, _⟩ => show win0_1.index t (2 : Fin 3) * 4096 + 1 * r.val = bt.val * 4096 + r.val; rw [e2, ht]; omega

/-! ## The invariant of the run of 98 category tiles over one output block -/

/-- The category that row `r` of batch tile `bt` names for field `f`, as a natural number (any 32-bit word). -/
def catOf (c : Dev nD) (f : Fin 26) (bt : Fin 4) (r : Fin 4096) : ℕ :=
  (idxArr V c (ix3 f (0 : Fin 1) (⟨bt.val * 4096 + r.val, by have := bt.isLt; have := r.isLt; omega⟩ : Fin 16384))).toNat

/-- ONE POINT. At category tile `ct` of the run for (field `f`, batch tile `bt`), if the block holds at `(0, e, r)` the
    table's row of the named category when that category lies in the tiles before `ct` and zero when not, the
    accumulating store leaves the same with `ct + 1` in place of `ct`. -/
theorem point_update (c : Dev nD) (t : Fin cfg0.N) (f : Fin 26) (bt : Fin 4) (ct : ℕ) (hct : ct < 98)
    (ht : t.val = (f.val * 4 + bt.val) * 98 + ct) (e : Fin 33) (r : Fin 4096) (old : Vec Ideal S1x33x4096 .f32)
    (hold : old (ix3 (0 : Fin 1) e r)
      = if catOf V c f bt r < ct * 1024 then rowAt (tblArr V c) f e (catOf V c f bt r) else 0) :
    (k0_pay2 (F := Ideal) (grid0.coords t) (idxBlk V c t) (tblBlk V c t) old : Vec Ideal S1x33x4096 .f32)
        (ix3 (0 : Fin 1) e r)
      = if catOf V c f bt r < (ct + 1) * 1024 then rowAt (tblArr V c) f e (catOf V c f bt r) else 0 := by
  have hf := f.isLt; have hb := bt.isLt
  have hc2 : ((grid0.coords t) 2).val = ct := by rw [(point_facts t).2.2.2.2.2.2.2.2.2, ht]; omega
  refine (pay2_apply (grid0.coords t) (idxBlk V c t) (tblBlk V c t) old e r).trans ?_
  rw [hc2, idxBlk_at V c t f bt ct hct ht r]
  exact step (tblArr V c) f e ct hct _ (old (ix3 (0 : Fin 1) e r)) (fun q => tblBlk V c t (ix3 (0 : Fin 1) e q)) hold
    (fun q => (tblBlk_at V c t f bt ct hct ht e q).trans (rowAt_of_lt _ _ _ _ _).symm)

/-- THE INVARIANT, by induction on the category tile: after tile `ct` of the run for (`f`, `bt`) the output block holds
    at `(0, e, r)` the table's row of the category row `r` names when that category is below `(ct + 1)·1024`, else zero.
    The first tile starts from the zero block; every later tile starts from what the tile before left. -/
theorem acc_eq (c : Dev nD) (f : Fin 26) (bt : Fin 4) (e : Fin 33) (r : Fin 4096) :
    ∀ (ct : ℕ) (t : Fin cfg0.N), ct < 98 → t.val = (f.val * 4 + bt.val) * 98 + ct →
      (outsAt0 V c t.val t.isLt : Vec Ideal S1x33x4096 .f32) (ix3 (0 : Fin 1) e r)
        = if catOf V c f bt r < (ct + 1) * 1024 then rowAt (tblArr V c) f e (catOf V c f bt r) else 0 := by
  intro ct
  induction ct with
  | zero =>
    intro t hct ht
    have h0 : t.val % 98 = 0 := by omega
    rw [outsAt0_A V c t h0]
    refine (congrFun (out_A (F := Ideal) c (grid0.coords t) (ms0_0 t) (hs0_0 t) (ms0_1 t) (hs0_1 t) (ms0_2 t) (hs0_2 t)
      ((hcond0_0 t).mpr h0) (iblk0 V c 0 t) (iblk0 V c 1 t)) (ix3 (0 : Fin 1) e r)).trans ?_
    exact point_update V c t f bt 0 hct ht e r (k0_pay1 (F := Ideal))
      ((pay1_apply e r).trans (if_neg (by omega)).symm)
  | succ ct ih =>
    intro t hct ht
    have hN : t.val < 10192 := lt_of_lt_of_eq t.isLt (show cfg0.N = 10192 from N_0)
    have h0 : ¬t.val % 98 = 0 := by omega
    rw [outsAt0_B V c t h0]
    refine (congrFun (out_B (F := Ideal) c (grid0.coords t) (ms0_0 t) (hs0_0 t) (ms0_1 t) (hs0_1 t) (ms0_2 t) (hs0_2 t)
      (fun h => h0 ((hcond0_0 t).mp h)) (iblk0 V c 0 t) (iblk0 V c 1 t)
      (outsAt0 V c (t.val - 1) (Nat.lt_of_le_of_lt (Nat.sub_le _ _) t.isLt))) (ix3 (0 : Fin 1) e r)).trans ?_
    exact point_update V c t f bt (ct + 1) hct ht e r _
      (ih ⟨t.val - 1, Nat.lt_of_le_of_lt (Nat.sub_le _ _) t.isLt⟩ (by omega) (by show t.val - 1 = _; omega))

/-! ## From the blocks to the array -/

/-- The looked-up array: entry `(f, e, b)` is the table's row `(f, e, ·)` at the category the index array names for field
    `f` and batch row `b` (zero for a word past the table). -/
def gathered (tbl : Vec Ideal S26x33x100352 .bf16) (idx : Vec Ideal S26x1x16384 .i32) : Vec Ideal S26x33x16384 .f32 :=
  fun i => rowAt tbl (i 0) (i 1) (idx (ix3 (i 0) (0 : Fin 1) (i 2))).toNat

/-- The looked-up array at an index known by its coordinates. -/
theorem gathered_of_coords (tbl : Vec Ideal S26x33x100352 .bf16) (idx : Vec Ideal S26x1x16384 .i32)
    (i : S26x33x16384.Idx) (f : Fin 26) (e : Fin 33) (b : Fin 16384)
    (h0 : (i 0).val = f.val) (h1 : (i 1).val = e.val) (h2 : (i 2).val = b.val) :
    gathered tbl idx i = rowAt tbl f e (idx (ix3 f (0 : Fin 1) b)).toNat := by
  have hi : i = ix3 f e b := funext fun a => Fin.ext (by
    match a with
    | ⟨0, _⟩ => exact h0
    | ⟨1, _⟩ => exact h1
    | ⟨2, _⟩ => exact h2)
  subst hi
  rfl

/-- A row of the table below the last tile's end is the row (both are zero from the table's end on). -/
theorem rowAt_full (tbl : Vec Ideal S26x33x100352 .bf16) (f : Fin 26) (e : Fin 33) (K : ℕ) :
    (if K < (97 + 1) * 1024 then rowAt tbl f e K else 0) = rowAt tbl f e K := by
  by_cases h : K < (97 + 1) * 1024
  · rw [if_pos h]
  · have h' : ¬K < 100352 := by omega
    rw [if_neg h]; unfold rowAt; rw [dif_neg h']

/-- WHAT IS WRITTEN BACK after the last category tile of a run is that run's block of the looked-up array. -/
theorem flushed_eq (c : Dev nD) (t : Fin cfg0.N) (hfl : (cfg0.win 2).flush t = true) :
    (dat0 (F := Ideal) V c).flushed 2 t
      = ((cfg0.win 2).blk t).view.read (Elt Ideal) (gathered (tblArr V c) (idxArr V c)) := by
  have hN : t.val < 10192 := lt_of_lt_of_eq t.isLt (show cfg0.N = 10192 from N_0)
  have h97 : t.val % 98 = 97 := (flush0_2 t).mp hfl
  obtain ⟨-, -, -, -, -, -, e0, e1, e2, -⟩ := point_facts t
  show (cfg0.win 2).cut (grid0.coords t) ((dat0 (F := Ideal) V c).after 2 t) = _
  rw [after0_2]
  funext y
  obtain ⟨z, e, r, rfl⟩ : ∃ (z : Fin 1) (e : Fin 33) (r : Fin 4096), y = ix3 z e r := ⟨y 0, y 1, y 2, eq_ix3 y⟩
  obtain rfl : z = 0 := Subsingleton.elim _ _
  have hr := r.isLt
  show (outsAt0 V c t.val t.isLt : Vec Ideal S1x33x4096 .f32) (ix3 (0 : Fin 1) e r)
    = gathered (tblArr V c) (idxArr V c) (((cfg0.win 2).blk t).view.emb (ix3 (0 : Fin 1) e r))
  rw [acc_eq V c (⟨t.val / 392, by omega⟩ : Fin 26) (⟨t.val / 98 % 4, by omega⟩ : Fin 4) e r 97 t (by omega)
    (by show t.val = (t.val / 392 * 4 + t.val / 98 % 4) * 98 + 97; omega), rowAt_full]
  exact (gathered_of_coords (tblArr V c) (idxArr V c) _ (⟨t.val / 392, by omega⟩ : Fin 26) e
    (⟨t.val / 98 % 4 * 4096 + r.val, by omega⟩ : Fin 16384)
    (by show win0_2.index t (0 : Fin 3) * 1 + 1 * 0 = t.val / 392; rw [e0]; omega)
    (by show win0_2.index t (1 : Fin 3) * 33 + 1 * e.val = e.val; rw [e1]; omega)
    (by show win0_2.index t (2 : Fin 3) * 4096 + 1 * r.val = t.val / 98 % 4 * 4096 + r.val; rw [e2]; omega)).symm

/-- Every entry of the output array lies in the block written back after the last category tile of its run. -/
theorem covered (i : S26x33x16384.Idx) :
    ∃ t : Fin cfg0.N, (cfg0.win 2).flush t = true ∧ i ∈ ((cfg0.win 2).blk t).view.set := by
  have h0 : (i 0).val < 26 := (i 0).isLt
  have h1 : (i 1).val < 33 := (i 1).isLt
  have h2 : (i 2).val < 16384 := (i 2).isLt
  obtain ⟨t, htv⟩ : ∃ t : Fin cfg0.N, t.val = ((i 0).val * 4 + (i 2).val / 4096) * 98 + 97 :=
    ⟨⟨((i 0).val * 4 + (i 2).val / 4096) * 98 + 97, lt_of_lt_of_eq (by omega) (show 10192 = cfg0.N from N_0.symm)⟩, rfl⟩
  obtain ⟨-, -, -, -, -, -, e0, e1, e2, -⟩ := point_facts t
  refine ⟨t, (flush0_2 t).mpr (by omega), ?_⟩
  show i ∈ ((View.whole main_v7).slice (win0_2.rect t)).set
  rw [View.set_slice_whole, Rect.mem_set_unit]
  intro a
  match a with
  | ⟨0, _⟩ =>
    show win0_2.index t (0 : Fin 3) * 1 ≤ (i 0).val ∧ (i 0).val < win0_2.index t (0 : Fin 3) * 1 + 1
    rw [e0, htv]; omega
  | ⟨1, _⟩ =>
    show win0_2.index t (1 : Fin 3) * 33 ≤ (i 1).val ∧ (i 1).val < win0_2.index t (1 : Fin 3) * 33 + 33
    rw [e1]; omega
  | ⟨2, _⟩ =>
    show win0_2.index t (2 : Fin 3) * 4096 ≤ (i 2).val ∧ (i 2).val < win0_2.index t (2 : Fin 3) * 4096 + 4096
    rw [e2, htv]; omega

/-- So after all its grid points the first kernel's output array is the looked-up array. -/
theorem gathered_final (c : Dev nD) :
    (dat0 (F := Ideal) V c).arrAt 2 cfg0.N = gathered (tblArr V c) (idxArr V c) :=
  (dat0 (F := Ideal) V c).arrAt_eq_of_cover 2 (gathered (tblArr V c) (idxArr V c)) (flushed_eq V c) covered

/-- The first kernel's output array after all its grid points: entry `(f, e, b)` is the table's entry `(f, e, k)` at the
    category `k` that the index array names for field `f` and batch row `b`. -/
theorem gathered_at (c : Dev nD) (f : Fin 26) (e : Fin 33) (b : Fin 16384) (k : Fin 100352)
    (hk : (V c main_v6 : Vec Ideal S26x1x16384 .i32) (ix3 f (0 : Fin 1) b) = BitVec.ofNat 32 k.val) :
    ((dat0 (F := Ideal) V c).arrAt 2 cfg0.N : Vec Ideal S26x33x16384 .f32) (ix3 f e b)
      = (V c main_v4 : Vec Ideal S26x33x100352 .bf16) (ix3 f e k) := by
  have hkl := k.isLt
  refine (congrFun (gathered_final V c) (ix3 f e b)).trans ?_
  show rowAt (V c main_v4) f e ((V c main_v6 : Vec Ideal S26x1x16384 .i32) (ix3 f (0 : Fin 1) b)).toNat = _
  rw [hk, BitVec.toNat_ofNat, Nat.mod_eq_of_lt (by norm_num; omega), rowAt_of_lt _ _ _ _ k.isLt]

end Cert.KernelIdeal.GatherValue

end
-- ==== Proof.FusedBodyReads.lean ====
import proofs.«404604_j83769042141642_2_alg».proof.Proof.Gen.KernelIdeal
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.FusedBody

open Cert.KernelIdeal Cert.KernelIdeal.Gen Idealize.ShloMosaic Idealize.ShloMosaic.ValueIdx Idealize.ShloMosaic.TcCoe Idealize.SL.Sem

/-! ## A left-nested chain of 26 additions from zero is the sum over the 26 fields -/

/-- The accumulation `((0 + c 0) + c 1) + … + c 25` is `∑ f, c f` (additions re-bracketed only). -/
theorem chain26 (c : Fin 26 → EReal) :
    (((((((((((((((((((((((((((0 : EReal) + c 0) + c 1) + c 2) + c 3) + c 4) + c 5) + c 6) + c 7) + c 8) + c 9) + c 10) + c 11) + c 12)
      + c 13) + c 14) + c 15) + c 16) + c 17) + c 18) + c 19) + c 20) + c 21) + c 22) + c 23) + c 24) + c 25)
      = ∑ f : Fin 26, c f := by
  simp only [Fin.sum_univ_castSucc, Fin.sum_univ_zero]
  rfl

/-! ## One field's block of the looked-up array, read at an index -/

variable {α : Type}

/-- The load of field `n`'s `1 × 33 × 1024` slab of the looked-up array reads the array at `(n, c, r)`. -/
theorem ld_field (X : Vec Ideal S26x33x1024 .f32) (n : Nat) (inb : ∀ a, (![n, 0, 0] : Fin 3 → Nat) a + S1x33x1024.size a ≤ S26x33x1024.size a)
    (u : Fin 1) (c : Fin 33) (r : Fin 1024) :
    View.ld X (Rect.unit (s := S26x33x1024) ![n, 0, 0] S1x33x1024.size inb) (ix3 u c r)
      = X (ix3 (⟨n, Nat.lt_of_succ_le (show n + 1 ≤ 26 from inb 0)⟩ : Fin 26) c r) := by
  show X _ = X _
  refine congrArg X (funext fun a => Fin.ext ?_)
  match a with
  | ⟨0, _⟩ => show n + 1 * u.val = n; omega
  | ⟨1, _⟩ => show 0 + 1 * c.val = c.val; omega
  | ⟨2, _⟩ => show 0 + 1 * r.val = r.val; omega

/-- Columns `0 … 31` of a slab turned `1024 × 33`: the embedding entry `(r, e)` is the slab at `(0, e, r)`. -/
theorem slab_emb (v : S1x33x1024.Idx → α) (h1 : S1x33x1024.ShapeCasts S33x1024) (h2 : S33x1024.Transposes [1, 0] S1024x33)
    (h3 : S1024x33.Slices ![0, 0] S1024x32) (r : Fin 1024) (e : Fin 32) :
    extractStridedSlice S1024x32 ![0, 0] (transpose S1024x33 [1, 0] (shapeCast S33x1024 v h1) h2) h3 (ix2 r e)
      = v (ix3 (0 : Fin 1) (Fin.castLE (by decide) e : Fin 33) r) := by
  rw [slice2_axis1_apply 0 _ h3 r e (Fin.castLE (by decide) e : Fin 33) (Nat.zero_add _).symm,
    transpose_ix2_apply, shapeCast_1ab_ab_apply]

/-- Column `32` of a slab turned `1024 × 33`: the linear weight of row `r` is the slab at `(0, 32, r)`. -/
theorem slab_lin (v : S1x33x1024.Idx → α) (h1 : S1x33x1024.ShapeCasts S33x1024) (h2 : S33x1024.Transposes [1, 0] S1024x33)
    (h3 : S1024x33.Slices ![0, 32] S1024x1) (r : Fin 1024) (u : Fin 1) :
    extractStridedSlice S1024x1 ![0, 32] (transpose S1024x33 [1, 0] (shapeCast S33x1024 v h1) h2) h3 (ix2 r u)
      = v (ix3 (0 : Fin 1) (32 : Fin 33) r) := by
  rw [slice2_axis1_apply 32 _ h3 r u (32 : Fin 33) (by have := u.isLt; show 32 = 32 + u.val; omega),
    transpose_ix2_apply, shapeCast_1ab_ab_apply]

/-- The embedding entry `(r, e)` of field `n`: the looked-up array at `(n, e, r)`. -/
theorem field_emb (X : Vec Ideal S26x33x1024 .f32) (n : Nat) (inb : ∀ a, (![n, 0, 0] : Fin 3 → Nat) a + S1x33x1024.size a ≤ S26x33x1024.size a)
    (h1 : S1x33x1024.ShapeCasts S33x1024) (h2 : S33x1024.Transposes [1, 0] S1024x33) (h3 : S1024x33.Slices ![0, 0] S1024x32)
    (r : Fin 1024) (e : Fin 32) :
    extractStridedSlice S1024x32 ![0, 0] (transpose S1024x33 [1, 0]
        (shapeCast S33x1024 (View.ld X (Rect.unit (s := S26x33x1024) ![n, 0, 0] S1x33x1024.size inb)) h1) h2) h3 (ix2 r e)
      = X (ix3 (⟨n, Nat.lt_of_succ_le (show n + 1 ≤ 26 from inb 0)⟩ : Fin 26) (Fin.castLE (by decide) e : Fin 33) r) :=
  (slab_emb _ h1 h2 h3 r e).trans (ld_field X n inb 0 _ r)

/-- The linear weight of row `r` in field `n`: the looked-up array at `(n, 32, r)`. -/
theorem field_lin (X : Vec Ideal S26x33x1024 .f32) (n : Nat) (inb : ∀ a, (![n, 0, 0] : Fin 3 → Nat) a + S1x33x1024.size a ≤ S26x33x1024.size a)
    (h1 : S1x33x1024.ShapeCasts S33x1024) (h2 : S33x1024.Transposes [1, 0] S1024x33) (h3 : S1024x33.Slices ![0, 32] S1024x1)
    (r : Fin 1024) (u : Fin 1) :
    extractStridedSlice S1024x1 ![0, 32] (transpose S1024x33 [1, 0]
        (shapeCast S33x1024 (View.ld X (Rect.unit (s := S26x33x1024) ![n, 0, 0] S1x33x1024.size inb)) h1) h2) h3 (ix2 r u)
      = X (ix3 (⟨n, Nat.lt_of_succ_le (show n + 1 ≤ 26 from inb 0)⟩ : Fin 26) (32 : Fin 33) r) :=
  (slab_lin _ h1 h2 h3 r u).trans (ld_field X n inb 0 _ r)

/-! ## The stored embeddings: 26 column blocks written one by one, read back as one array -/

/-- Entry `y` of the `1024 × 832` array of embeddings laid side by side, as a function of the looked-up array: column
    `y 1` is column `y 1 % 32` of field `y 1 / 32`. -/
def xcatG (x0 : Vec Ideal S26x33x1024 .f32) (y : S1024x832.Idx) : Elt Ideal .bf16 :=
  x0 (ix3 (⟨(y 1).val / 32, by have := idx2_lt1 y; omega⟩ : Fin 26) (⟨(y 1).val % 32, by omega⟩ : Fin 33) (⟨(y 0).val, idx2_lt0 y⟩ : Fin 1024))

/-- A `1024 × 32` block `w` stored at column offset `o`, a multiple of 32, whose entry `(a, b)` is the looked-up array at
    `(o / 32, b, a)`, is that block of the side-by-side array. -/
theorem xcat_piece (x0 : Vec Ideal S26x33x1024 .f32) (o : ℕ) (ho : o % 32 = 0) (ho' : o < 832)
    (inbS : ∀ a, (![0, o] : Fin 2 → Nat) a + S1024x32.size a ≤ S1024x832.size a) (w : S1024x32.Idx → Elt Ideal .bf16)
    (hw : ∀ (a : Fin 1024) (b : Fin 32), w (ix2 a b) = x0 (ix3 (⟨o / 32, by omega⟩ : Fin 26) (Fin.castLE (by decide) b : Fin 33) a))
    (x : (Rect.unit (s := S1024x832) ![0, o] S1024x32.size inbS).shape.Idx) :
    w x = xcatG x0 ((Rect.unit (s := S1024x832) ![0, o] S1024x32.size inbS).emb x) := by
  obtain ⟨a, b, rfl⟩ : ∃ (a : Fin 1024) (b : Fin 32), x = ix2 a b := ⟨x 0, x 1, eq_ix2 x⟩
  rw [hw a b]
  show x0 _ = x0 _
  refine congrArg x0 (funext fun c => Fin.ext ?_)
  have hb := b.isLt
  match c with
  | ⟨0, _⟩ => show o / 32 = (o + 1 * b.val) / 32; omega
  | ⟨1, _⟩ => show b.val = (o + 1 * b.val) % 32; omega
  | ⟨2, _⟩ => show a.val = 0 + 1 * a.val; omega

/-- What one load of the whole `1024 × 832` array reads after stores that are each a block of the side-by-side array
    and together cover it: at `(r, k)` the looked-up array at `(k / 32, k % 32, r)`. -/
theorem xcat_read {sg : RefSig} {κ : Kind} {sp : Space} (v : View sg κ sp S1024x832 .bf16) (x0 : Vec Ideal S26x33x1024 .f32)
    (L : List (View.Piece (Elt Ideal) S1024x832 .bf16))
    (hp : ∀ p ∈ L, ∀ x : p.1.shape.Idx, p.2 x = xcatG x0 (p.1.emb x))
    (hc : ∀ y : S1024x832.Idx, ∃ p ∈ L, y ∈ p.1.set)
    (inb : ∀ a, (![0, 0] : Fin 2 → Nat) a + S1024x832.size a ≤ S1024x832.size a) (r : Fin 1024) (k : Fin 1248) (h : k.val < 832) :
    v.readCov L (Rect.unit (s := S1024x832) ![0, 0] S1024x832.size inb).toLoadRect (ix2 r (⟨k.val, h⟩ : Fin 832))
      = x0 (ix3 (⟨k.val / 32, by omega⟩ : Fin 26) (⟨k.val % 32, by omega⟩ : Fin 33) r) := by
  rw [View.readCov_eq_canon']
  show View.canon L _ = _
  rw [View.canon_apply_of_pieces (xcatG x0) L hp _ (hc _)]
  show x0 _ = x0 _
  refine congrArg x0 (funext fun a => Fin.ext ?_)
  match a with
  | ⟨0, _⟩ => show (0 + 1 * k.val) / 32 = k.val / 32; omega
  | ⟨1, _⟩ => show (0 + 1 * k.val) % 32 = k.val % 32; omega
  | ⟨2, _⟩ => show 0 + 1 * r.val = r.val; omega

/-- The zero offsets of a rank-2 load or store of a whole block. -/
theorem hz2 : (![0, 0] : Fin 2 → Nat) = fun _ => 0 := funext fun a => by fin_cases a <;> rfl

/-- The zero word both accumulations start from is the extended real `0`. -/
theorem zero_word : (Scalar.ofBits .f32 0x00000000#32 : Ideal .f32) = 0 := Ideal.ofBits_zero_f32

end Cert.KernelIdeal.FusedBody

end
-- ==== Proof.FusedBodyTail.lean ====
import proofs.«404604_j83769042141642_2_alg».proof.Proof.Gen.KernelIdeal.Skeleton
import proofs.«404604_j83769042141642_2_alg».proof.Proof.DotReads
import proofs.«404604_j83769042141642_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.FusedBody

open Cert.KernelIdeal Cert.KernelIdeal.Gen Cert.KernelIdeal.DotReads Idealize.ShloMosaic Idealize.ShloMosaic.ValueIdx Idealize.ShloMosaic.TcCoe Idealize.SL.Sem

variable [Facts]

/-! ## A lane sum kept as a column -/

/-- An `[a]` array cast to `[a, 1]` reads, at `(i, u)`, the operand at `i`, whatever the unit coordinate `u`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## The last store's value: first-order term plus second-order term, plus the perceptron's output with its bias -/

/-- The stored column at row `r` is `(lin + fm) + (deep + bo)`. -/
theorem out_at (fm lin deep : FVec Ideal S1024x1 .f32) (x11 : Vec Ideal S1x1 .f32) (r : Fin 1024) :
    k1_pay1 (F := Ideal) fm lin deep x11 (ix2 r (0 : Fin 1))
      = (lin (ix2 r (0 : Fin 1)) + fm (ix2 r (0 : Fin 1))) + (deep (ix2 r (0 : Fin 1)) + x11 (ix2 (0 : Fin 1) (0 : Fin 1))) := by
  delta k1_pay1
  rw [addf_apply, addf_apply, addf_apply, broadcastTo_1b_ab_apply, shapeCast_self]

/-! ## The second-order term -/

/-- The factorisation-machine column at row `r`, from the two accumulated `1024 × 32` arrays `s` (sum of the looked-up
    embeddings) and `q` (sum of their squares) and the numeric features against their embeddings. -/
theorem fm_at (x1 : Vec Ideal S1024x13 .f32) (x4 : Vec Ideal S13x32 .f32) (s q : Vec Ideal S1024x32 .f32) (r : Fin 1024) :
    k1_pay178 (F := Ideal) x1 x4 s q (ix2 r (0 : Fin 1))
      = Cert.Spec.half * ∑ e : Fin 32,
          ((s (ix2 r e) + ∑ j : Fin 13, x1 (ix2 r j) * x4 (ix2 j e)) * (s (ix2 r e) + ∑ j : Fin 13, x1 (ix2 r j) * x4 (ix2 j e))
            - (q (ix2 r e) + ∑ j : Fin 13, (x1 (ix2 r j) * x1 (ix2 r j)) * (x4 (ix2 j e) * x4 (ix2 j e)))) := by
  delta k1_pay178 k1_pay177
  dsimp only
  rw [mulf_apply, shapeCast_a_a1_apply, red32]
  refine congrArg₂ (· * ·) rfl (Finset.sum_congr rfl fun e _ => ?_)
  rw [subf_apply, mulf_apply, addf_apply, addf_apply, dot_num, dot_num]
  rfl

/-! ## The first-order term -/

/-- The first-order column at row `r`: the accumulated linear weights, the numeric features against theirs, the bias. -/
theorem lin_at (x1 : Vec Ideal S1024x13 .f32) (x2 : Vec Ideal S13x1 .bf16) (l : Vec Ideal S1024x1 .f32) (x3 : Vec Ideal S1x1 .f32) (r : Fin 1024) :
    k1_pay180 (F := Ideal) (k1_pay179 (F := Ideal) x1 x2) l x3 (ix2 r (0 : Fin 1))
      = (l (ix2 r (0 : Fin 1)) + ∑ j : Fin 13, x1 (ix2 r j) * x2 (ix2 j (0 : Fin 1))) + x3 (ix2 (0 : Fin 1) (0 : Fin 1)) := by
  delta k1_pay180 k1_pay179 k1_pay177
  dsimp only
  simp only [shapeCast_self]
  rw [addf_apply, addf_apply, broadcastTo_1b_ab_apply, dot_lin]
  rfl

/-! ## The perceptron -/

/-- The perceptron's input row: the stored embeddings' `832` columns, then the `416` numeric-embedding columns of the one
    broadcast row. -/
theorem cat_at (x5 : Vec Ideal S1x416 .bf16) (xc : Vec Ideal S1024x832 .bf16) (h1 : S1x416.Broadcasts S1024x416)
    (h2 : Shape.Concatenates [S1024x832, S1024x416] S1024x1248 1) (r : Fin 1024) (k : Fin 1248) :
    concatenate S1024x1248 1 [⟨S1024x832, xc⟩, ⟨S1024x416, broadcastTo S1024x416 x5 h1⟩] h2 (ix2 r k)
      = if h : k.val < 832 then xc (ix2 r (⟨k.val, h⟩ : Fin 832)) else x5 (ix2 (0 : Fin 1) (⟨k.val - 832, by omega⟩ : Fin 416)) := by
  split
  · next h =>
    refine concatenate_pair_apply_left (1 : Fin 2) xc (broadcastTo S1024x416 x5 h1) h2 (ix2 r k) rfl (ix2 r (⟨k.val, h⟩ : Fin 832)) fun b => ?_
    match b with
    | ⟨0, _⟩ => rfl
    | ⟨1, _⟩ => rfl
  · next h =>
    refine (concatenate_pair_apply_right (1 : Fin 2) xc (broadcastTo S1024x416 x5 h1) h2 (ix2 r k) rfl rfl (ix2 r (⟨k.val - 832, by omega⟩ : Fin 416)) (fun b hb => ?_) ?_).trans ?_
    · match b with
      | ⟨0, _⟩ => rfl
      | ⟨1, _⟩ => exact absurd rfl hb
    · show (k.val - 832) + 832 = k.val
      omega
    · exact broadcastTo_1b_ab_apply x5 h1 r _

/-- The perceptron's column at row `r`, before its output bias, over ANY stored-embedding array `xc` whose row `r` is
    the first `832` entries of the model's input row. -/
theorem deep_at (x0 : Vec Ideal S26x33x1024 .f32) (x5 : Vec Ideal S1x416 .bf16) (xc : Vec Ideal S1024x832 .bf16) (x6 : Vec Ideal S1248x512 .bf16) (x7 : Vec Ideal S1x512 .f32)
    (x8 : Vec Ideal S512x256 .bf16) (x9 : Vec Ideal S1x256 .f32) (x10 : Vec Ideal S1x256 .f32) (r : Fin 1024)
    (hxc : ∀ (k : Fin 1248) (h : k.val < 832), xc (ix2 r (⟨k.val, h⟩ : Fin 832))
      = x0 (ix3 (⟨k.val / 32, by omega⟩ : Fin 26) (⟨k.val % 32, by omega⟩ : Fin 33) r)) :
    k1_pay181 (F := Ideal) x5 xc x6 x7 x8 x9 x10 (ix2 r (0 : Fin 1))
      = ∑ o : Fin 256, Cert.Spec.h2 (B := 1024) x0 x5 x6 x7 x8 x9 r o * x10 (ix2 (0 : Fin 1) o) := by
  delta k1_pay181
  dsimp only
  simp only [shapeCast_self]
  rw [shapeCast_a_a1_apply, red256]
  refine Finset.sum_congr rfl fun o _ => ?_
  rw [mulf_apply, broadcastTo_1b_ab_apply]
  refine congrArg₂ (· * ·) ?_ rfl
  delta Cert.Spec.h2
  rw [maximumf_apply, addf_apply, broadcastTo_1b_ab_apply, dot_h2]
  refine congrArg₂ max (congrArg₂ (· + ·) (Finset.sum_congr rfl fun h _ => congrArg₂ (· * ·) ?_ rfl) rfl) Ideal.ofBits_zero_f32
  delta Cert.Spec.h1
  rw [truncf_apply, maximumf_apply, addf_apply, broadcastTo_1b_ab_apply, dot_h1]
  refine congrArg₂ max (congrArg₂ (· + ·) (Finset.sum_congr rfl fun k _ => congrArg₂ (· * ·) ?_ rfl) rfl) Ideal.ofBits_zero_f32
  rw [cat_at]
  delta Cert.Spec.xin
  by_cases hk : k.val < 832
  · rw [dif_pos hk, dif_pos hk]
    exact hxc k hk
  · rw [dif_neg hk, dif_neg hk, shapeCast_self, shapeCast_self]

/-! ## The stored column is the model output -/

/-- From what the four scratch arrays hold at row `r` when the body reads them back — `l` the 26 looked-up linear weights
    summed, `s` and `q` the looked-up embeddings and their squares summed column by column, `xc` the embeddings side by
    side — the stored column at row `r` is the model output of that row: the two sides are the same bracketing of the
    same terms. -/
theorem stored_eq_fused (x0 : Vec Ideal S26x33x1024 .f32) (x1 : Vec Ideal S1024x13 .f32) (x2 : Vec Ideal S13x1 .bf16) (x3 : Vec Ideal S1x1 .f32)
    (x4 : Vec Ideal S13x32 .f32) (x5 : Vec Ideal S1x416 .bf16) (x6 : Vec Ideal S1248x512 .bf16) (x7 : Vec Ideal S1x512 .f32)
    (x8 : Vec Ideal S512x256 .bf16) (x9 : Vec Ideal S1x256 .f32) (x10 : Vec Ideal S1x256 .f32) (x11 : Vec Ideal S1x1 .f32)
    (l : Vec Ideal S1024x1 .f32) (s q : Vec Ideal S1024x32 .f32) (xc : Vec Ideal S1024x832 .bf16) (r : Fin 1024)
    (hl : l (ix2 r (0 : Fin 1)) = ∑ f : Fin 26, x0 (ix3 f (32 : Fin 33) r))
    (hs : ∀ e : Fin 32, s (ix2 r e) = ∑ f : Fin 26, x0 (ix3 f (Fin.castLE (by decide) e : Fin 33) r))
    (hq : ∀ e : Fin 32, q (ix2 r e)
      = ∑ f : Fin 26, x0 (ix3 f (Fin.castLE (by decide) e : Fin 33) r) * x0 (ix3 f (Fin.castLE (by decide) e : Fin 33) r))
    (hxc : ∀ (k : Fin 1248) (h : k.val < 832), xc (ix2 r (⟨k.val, h⟩ : Fin 832))
      = x0 (ix3 (⟨k.val / 32, by omega⟩ : Fin 26) (⟨k.val % 32, by omega⟩ : Fin 33) r)) :
    k1_pay1 (F := Ideal) (k1_pay178 (F := Ideal) x1 x4 s q) (k1_pay180 (F := Ideal) (k1_pay179 (F := Ideal) x1 x2) l x3)
        (k1_pay181 (F := Ideal) x5 xc x6 x7 x8 x9 x10) x11 (ix2 r (0 : Fin 1))
      = Cert.Spec.fused (B := 1024) x0 x1 x2 x3 x4 x5 x6 x7 x8 x9 x10 x11 r := by
  rw [out_at, fm_at, lin_at, deep_at x0 x5 xc x6 x7 x8 x9 x10 r hxc, hl]
  delta Cert.Spec.fused Cert.Spec.lin Cert.Spec.fm Cert.Spec.deep Cert.Spec.sT Cert.Spec.qT
  refine congrArg₂ (· + ·) (congrArg₂ (· + ·) rfl (congrArg₂ (· * ·) rfl (Finset.sum_congr rfl fun e _ => ?_))) rfl
  rw [hs e, hq e]

end Cert.KernelIdeal.FusedBody

end
-- ==== Proof.FusedBodyAcc.lean ====
import proofs.«404604_j83769042141642_2_alg».proof.Proof.Gen.KernelIdeal.Frame
import proofs.«404604_j83769042141642_2_alg».proof.Proof.FusedBodyReads
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.FusedBody

open Cert.KernelIdeal Cert.KernelIdeal.Gen Idealize.ShloMosaic Idealize.ShloMosaic.ValueIdx Idealize.ShloMosaic.TcCoe Idealize.SL.Sem

/-! ## The three accumulations read back

Each of the three accumulators is zeroed, then for every field read, added to and stored again; the value the body
reads back at the end is therefore the chain `((0 + c 0) + c 1) + … + c 25` of the 26 fields' contributions `c f`,
which is `∑ f, c f`. -/

/-- The accumulated linear weights, read back at row `r`: `∑ f, g (f, 32, r)`. -/
theorem lin_read (c : Dev nD) (arg1 : Memref sig .tc .vmem S26x33x1024 .f32) (harg1 : arg1.IsWhole) (arg15 : Memref sig .tc .vmem S1024x1 .f32)
    (x0 : Vec Ideal S26x33x1024 .f32) (r : Fin 1024) :
    kernelRun1_A.sl.v685 (F := Ideal) c arg1 harg1 arg15 x0 (ix2 r (0 : Fin 1)) = ∑ f : Fin 26, x0 (ix3 f (32 : Fin 33) r) := by
  sl_unfold_run_names
  simp only [View.readCov_cons_toLoadRect]
  delta k1_pay2 k1_pay8 k1_pay14 k1_pay20 k1_pay25 k1_pay27 k1_pay33 k1_pay40 k1_pay46 k1_pay51 k1_pay54 k1_pay60
    k1_pay66 k1_pay73 k1_pay78 k1_pay81 k1_pay87 k1_pay88 k1_pay94 k1_pay100 k1_pay107 k1_pay113 k1_pay114
    k1_pay120 k1_pay127 k1_pay133 k1_pay138 k1_pay140 k1_pay146 k1_pay153 k1_pay160 k1_pay165 k1_pay168 k1_pay174
    k1_pay5 k1_pay11 k1_pay17 k1_pay23 k1_pay30 k1_pay37 k1_pay43 k1_pay49 k1_pay57 k1_pay63 k1_pay70 k1_pay76
    k1_pay84 k1_pay91 k1_pay97 k1_pay104 k1_pay110 k1_pay117 k1_pay124 k1_pay130 k1_pay136 k1_pay143 k1_pay150
    k1_pay157 k1_pay163 k1_pay171 k1_pay103
  simp only [View.readAt_eq_ld, harg1.read_unread, addf_apply, shapeCast_self, broadcast_apply, zero_word]
  repeat rw [field_lin]
  exact chain26 fun f => x0 (ix3 f (32 : Fin 33) r)

/-- The accumulated embeddings, read back at `(r, e)`: `∑ f, g (f, e, r)`. -/
theorem sum_read (c : Dev nD) (arg1 : Memref sig .tc .vmem S26x33x1024 .f32) (harg1 : arg1.IsWhole) (arg16 : Memref sig .tc .vmem S1024x32 .f32)
    (x0 : Vec Ideal S26x33x1024 .f32) (r : Fin 1024) (e : Fin 32) :
    kernelRun1_A.sl.v672 (F := Ideal) c arg1 harg1 arg16 x0 (ix2 r e) = ∑ f : Fin 26, x0 (ix3 f (Fin.castLE (by decide) e : Fin 33) r) := by
  sl_unfold_run_names
  simp only [View.readCov_cons_toLoadRect]
  delta k1_pay3 k1_pay4 k1_pay6 k1_pay9 k1_pay10 k1_pay12 k1_pay15 k1_pay16 k1_pay18 k1_pay21 k1_pay22 k1_pay24
    k1_pay28 k1_pay29 k1_pay31 k1_pay34 k1_pay35 k1_pay36 k1_pay38 k1_pay41 k1_pay42 k1_pay44 k1_pay47 k1_pay48
    k1_pay50 k1_pay55 k1_pay56 k1_pay58 k1_pay61 k1_pay62 k1_pay64 k1_pay67 k1_pay68 k1_pay69 k1_pay71 k1_pay74
    k1_pay75 k1_pay77 k1_pay82 k1_pay83 k1_pay85 k1_pay89 k1_pay90 k1_pay92 k1_pay95 k1_pay96 k1_pay98 k1_pay101
    k1_pay102 k1_pay105 k1_pay108 k1_pay109 k1_pay111 k1_pay115 k1_pay116 k1_pay118 k1_pay121 k1_pay122 k1_pay123
    k1_pay125 k1_pay128 k1_pay129 k1_pay131 k1_pay134 k1_pay135 k1_pay137 k1_pay141 k1_pay142 k1_pay144 k1_pay147
    k1_pay148 k1_pay149 k1_pay151 k1_pay154 k1_pay155 k1_pay156 k1_pay158 k1_pay161 k1_pay162 k1_pay164 k1_pay169
    k1_pay170 k1_pay172 k1_pay175 k1_pay176 k1_pay5 k1_pay11 k1_pay17 k1_pay23 k1_pay30 k1_pay37 k1_pay43 k1_pay49
    k1_pay57 k1_pay63 k1_pay70 k1_pay76 k1_pay84 k1_pay91 k1_pay97 k1_pay104 k1_pay110 k1_pay117 k1_pay124
    k1_pay130 k1_pay136 k1_pay143 k1_pay150 k1_pay157 k1_pay163 k1_pay171 k1_pay103
  simp only [View.readAt_eq_ld, harg1.read_unread, addf_apply, shapeCast_self, broadcast_apply, zero_word]
  repeat rw [field_emb]
  exact chain26 fun f => x0 (ix3 f (Fin.castLE (by decide) e : Fin 33) r)

/-- The accumulated squares of the embeddings, read back at `(r, e)`: `∑ f, g (f, e, r) * g (f, e, r)`. -/
theorem sq_read (c : Dev nD) (arg1 : Memref sig .tc .vmem S26x33x1024 .f32) (harg1 : arg1.IsWhole) (arg17 : Memref sig .tc .vmem S1024x32 .f32)
    (x0 : Vec Ideal S26x33x1024 .f32) (r : Fin 1024) (e : Fin 32) :
    kernelRun1_A.sl.v674 (F := Ideal) c arg1 harg1 arg17 x0 (ix2 r e)
      = ∑ f : Fin 26, x0 (ix3 f (Fin.castLE (by decide) e : Fin 33) r) * x0 (ix3 f (Fin.castLE (by decide) e : Fin 33) r) := by
  sl_unfold_run_names
  simp only [View.readCov_cons_toLoadRect]
  delta k1_pay3 k1_pay4 k1_pay6 k1_pay9 k1_pay10 k1_pay12 k1_pay15 k1_pay16 k1_pay18 k1_pay21 k1_pay22 k1_pay24
    k1_pay28 k1_pay29 k1_pay31 k1_pay34 k1_pay35 k1_pay36 k1_pay38 k1_pay41 k1_pay42 k1_pay44 k1_pay47 k1_pay48
    k1_pay50 k1_pay55 k1_pay56 k1_pay58 k1_pay61 k1_pay62 k1_pay64 k1_pay67 k1_pay68 k1_pay69 k1_pay71 k1_pay74
    k1_pay75 k1_pay77 k1_pay82 k1_pay83 k1_pay85 k1_pay89 k1_pay90 k1_pay92 k1_pay95 k1_pay96 k1_pay98 k1_pay101
    k1_pay102 k1_pay105 k1_pay108 k1_pay109 k1_pay111 k1_pay115 k1_pay116 k1_pay118 k1_pay121 k1_pay122 k1_pay123
    k1_pay125 k1_pay128 k1_pay129 k1_pay131 k1_pay134 k1_pay135 k1_pay137 k1_pay141 k1_pay142 k1_pay144 k1_pay147
    k1_pay148 k1_pay149 k1_pay151 k1_pay154 k1_pay155 k1_pay156 k1_pay158 k1_pay161 k1_pay162 k1_pay164 k1_pay169
    k1_pay170 k1_pay172 k1_pay175 k1_pay176 k1_pay5 k1_pay11 k1_pay17 k1_pay23 k1_pay30 k1_pay37 k1_pay43 k1_pay49
    k1_pay57 k1_pay63 k1_pay70 k1_pay76 k1_pay84 k1_pay91 k1_pay97 k1_pay104 k1_pay110 k1_pay117 k1_pay124
    k1_pay130 k1_pay136 k1_pay143 k1_pay150 k1_pay157 k1_pay163 k1_pay171 k1_pay103
  simp only [View.readAt_eq_ld, harg1.read_unread, addf_apply, mulf_apply, shapeCast_self, broadcast_apply, zero_word]
  repeat rw [field_emb]
  exact chain26 fun f => x0 (ix3 f (Fin.castLE (by decide) e : Fin 33) r) * x0 (ix3 f (Fin.castLE (by decide) e : Fin 33) r)

end Cert.KernelIdeal.FusedBody

end
-- ==== Proof.FusedBodyCat.lean ====
import proofs.«404604_j83769042141642_2_alg».proof.Proof.Gen.KernelIdeal.Frame
import proofs.«404604_j83769042141642_2_alg».proof.Proof.FusedBodyReads
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.FusedBody

open Cert.KernelIdeal Cert.KernelIdeal.Gen Idealize.ShloMosaic Idealize.ShloMosaic.ValueIdx Idealize.ShloMosaic.TcCoe Idealize.SL.Sem

/-- The stored embeddings read back by one load: entry `(r, k)`, `k < 832`, is the looked-up array at
    `(k / 32, k % 32, r)`. Each of the 26 stores writes one field's embedding as a block of 32 columns, and the
    blocks tile the array. -/
theorem cat_read (c : Dev nD) (arg1 : Memref sig .tc .vmem S26x33x1024 .f32) (harg1 : arg1.IsWhole) (arg14 : Memref sig .tc .vmem S1024x832 .bf16)
    (x0 : Vec Ideal S26x33x1024 .f32) (r : Fin 1024) (k : Fin 1248) (h : k.val < 832) :
    kernelRun1_A.sl.v695 (F := Ideal) c arg1 harg1 arg14 x0 (ix2 r (⟨k.val, h⟩ : Fin 832))
      = x0 (ix3 (⟨k.val / 32, by omega⟩ : Fin 26) (⟨k.val % 32, by omega⟩ : Fin 33) r) := by
  delta kernelRun1_A.sl.v695
  refine xcat_read _ x0 _ ?_ ?_ _ r k h
  · sl_unfold_run_names
    intro p hp
    simp only [List.mem_cons, List.mem_nil_iff, or_false] at hp
    rcases hp with rfl | rfl | rfl | rfl | rfl | rfl | rfl | rfl | rfl | rfl | rfl | rfl | rfl | rfl | rfl | rfl | rfl | rfl | rfl | rfl | rfl | rfl | rfl | rfl | rfl | rfl
    all_goals
      dsimp only
      intro x
      refine xcat_piece x0 _ (by decide) (by decide) _ _ (fun a b => ?_) x
      delta k1_pay7 k1_pay13 k1_pay19 k1_pay26 k1_pay32 k1_pay39 k1_pay45 k1_pay52 k1_pay53 k1_pay59 k1_pay65 k1_pay72
          k1_pay79 k1_pay80 k1_pay86 k1_pay93 k1_pay99 k1_pay106 k1_pay112 k1_pay119 k1_pay126 k1_pay132 k1_pay139
          k1_pay145 k1_pay152 k1_pay159 k1_pay166 k1_pay167 k1_pay173 k1_pay3 k1_pay4 k1_pay6 k1_pay9 k1_pay10 k1_pay12
          k1_pay15 k1_pay16 k1_pay18 k1_pay21 k1_pay22 k1_pay24 k1_pay28 k1_pay29 k1_pay31 k1_pay34 k1_pay35 k1_pay36
          k1_pay38 k1_pay41 k1_pay42 k1_pay44 k1_pay47 k1_pay48 k1_pay50 k1_pay55 k1_pay56 k1_pay58 k1_pay61 k1_pay62
          k1_pay64 k1_pay67 k1_pay68 k1_pay69 k1_pay71 k1_pay74 k1_pay75 k1_pay77 k1_pay82 k1_pay83 k1_pay85 k1_pay89
          k1_pay90 k1_pay92 k1_pay95 k1_pay96 k1_pay98 k1_pay101 k1_pay102 k1_pay105 k1_pay108 k1_pay109 k1_pay111
          k1_pay115 k1_pay116 k1_pay118 k1_pay121 k1_pay122 k1_pay123 k1_pay125 k1_pay128 k1_pay129 k1_pay131 k1_pay134
          k1_pay135 k1_pay137 k1_pay141 k1_pay142 k1_pay144 k1_pay147 k1_pay148 k1_pay149 k1_pay151 k1_pay154 k1_pay155
          k1_pay156 k1_pay158 k1_pay161 k1_pay162 k1_pay164 k1_pay169 k1_pay170 k1_pay172 k1_pay175 k1_pay176 k1_pay5
          k1_pay11 k1_pay17 k1_pay23 k1_pay30 k1_pay37 k1_pay43 k1_pay49 k1_pay57 k1_pay63 k1_pay70 k1_pay76 k1_pay84
          k1_pay91 k1_pay97 k1_pay104 k1_pay110 k1_pay117 k1_pay124 k1_pay130 k1_pay136 k1_pay143 k1_pay150 k1_pay157
          k1_pay163 k1_pay171 k1_pay103
      simp only [View.readAt_eq_ld, harg1.read_unread, shapeCast_self, truncf_apply]
      refine (field_emb x0 _ _ _ _ _ a b).trans ?_
      rfl
  · exact View.cover_of_tiledL _ S1024x32.size (by sl_kernel_rfl)

end Cert.KernelIdeal.FusedBody

end
-- ==== Proof.FusedBody.lean ====
import proofs.«404604_j83769042141642_2_alg».proof.Proof.Gen.KernelIdeal.Frame
import proofs.«404604_j83769042141642_2_alg».proof.Proof.DotReads
import proofs.«404604_j83769042141642_2_alg».proof.Proof.Spec
import proofs.«404604_j83769042141642_2_alg».proof.Proof.FusedBodyReads
import proofs.«404604_j83769042141642_2_alg».proof.Proof.FusedBodyTail
import proofs.«404604_j83769042141642_2_alg».proof.Proof.FusedBodyAcc
import proofs.«404604_j83769042141642_2_alg».proof.Proof.FusedBodyCat
import Idealize.ShloMosaic.Lib.ValueIdx
import Idealize.ShloMosaic.Lib.Pipeline.Value
import Idealize.ShloMosaic.PureOps.Ideal.Laws

noncomputable section

namespace Cert.KernelIdeal.FusedBody

open Cert.KernelIdeal Cert.KernelIdeal.Gen Idealize.ShloMosaic Idealize.ShloMosaic.ValueIdx Idealize.ShloMosaic.TcCoe Idealize.SL.Sem

/-- What the second kernel's body leaves in its output block, read at row `r`: the model output of that row as a
    function of the twelve input blocks (the batch extent is the tile's, 1024). The four scratch arrays are zeroed,
    accumulated over the 26 fields and read back inside the body, so the result does not depend on what they held. -/
theorem body_at (c : Dev nD) (i : grid1.Coords) (arg1 : Memref sig .tc .vmem S26x33x1024 .f32) (harg1 : arg1.IsWhole) (arg2 : Memref sig .tc .vmem S1024x13 .f32) (harg2 : arg2.IsWhole) (arg3 : Memref sig .tc .vmem S13x1 .bf16) (harg3 : arg3.IsWhole) (arg4 : Memref sig .tc .vmem S1x1 .f32) (harg4 : arg4.IsWhole) (arg5 : Memref sig .tc .vmem S13x32 .f32) (harg5 : arg5.IsWhole) (arg6 : Memref sig .tc .vmem S1x416 .bf16) (harg6 : arg6.IsWhole) (arg7 : Memref sig .tc .vmem S1248x512 .bf16) (harg7 : arg7.IsWhole) (arg8 : Memref sig .tc .vmem S1x512 .f32) (harg8 : arg8.IsWhole) (arg9 : Memref sig .tc .vmem S512x256 .bf16) (harg9 : arg9.IsWhole) (arg10 : Memref sig .tc .vmem S1x256 .f32) (harg10 : arg10.IsWhole) (arg11 : Memref sig .tc .vmem S1x256 .f32) (harg11 : arg11.IsWhole) (arg12 : Memref sig .tc .vmem S1x1 .f32) (harg12 : arg12.IsWhole) (arg13 : Memref sig .tc .vmem S1024x1 .f32) (harg13 : arg13.IsWhole) (arg14 : Memref sig .tc .vmem S1024x832 .bf16) (harg14 : arg14.IsWhole) (arg15 : Memref sig .tc .vmem S1024x1 .f32) (harg15 : arg15.IsWhole) (arg16 : Memref sig .tc .vmem S1024x32 .f32) (harg16 : arg16.IsWhole) (arg17 : Memref sig .tc .vmem S1024x32 .f32) (harg17 : arg17.IsWhole)
    (x0 : Vec Ideal S26x33x1024 .f32) (x1 : Vec Ideal S1024x13 .f32) (x2 : Vec Ideal S13x1 .bf16) (x3 : Vec Ideal S1x1 .f32) (x4 : Vec Ideal S13x32 .f32) (x5 : Vec Ideal S1x416 .bf16) (x6 : Vec Ideal S1248x512 .bf16) (x7 : Vec Ideal S1x512 .f32) (x8 : Vec Ideal S512x256 .bf16) (x9 : Vec Ideal S1x256 .f32) (x10 : Vec Ideal S1x256 .f32) (x11 : Vec Ideal S1x1 .f32) (r : Fin 1024) :
    out1_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 (ix2 r (0 : Fin 1))
      = Cert.Spec.fused (B := 1024) x0 x1 x2 x3 x4 x5 x6 x7 x8 x9 x10 x11 r := by
  unfold out1_A_12
  rw [View.read_writes_eq_canon _ _ _ (cover1_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11)]
  unfold kernelRun1_A
  dsimp only
  rw [View.canon_unit_zero hz2]
  delta kernelRun1_A.sl.r_31 kernelRun1_A.sl.r_32 kernelRun1_A.sl.r_33 kernelRun1_A.sl.r_34
  simp only [View.readAt_eq_ld, harg2.read_unread, harg3.read_unread, harg4.read_unread, harg5.read_unread, harg6.read_unread,
    harg7.read_unread, harg8.read_unread, harg9.read_unread, harg10.read_unread, harg11.read_unread, harg12.read_unread,
    View.ld_unit_zero (S := S1024x13) hz2, View.ld_unit_zero (S := S13x1) hz2, View.ld_unit_zero (S := S1x1) hz2,
    View.ld_unit_zero (S := S13x32) hz2, View.ld_unit_zero (S := S1x416) hz2, View.ld_unit_zero (S := S1248x512) hz2,
    View.ld_unit_zero (S := S1x512) hz2, View.ld_unit_zero (S := S512x256) hz2, View.ld_unit_zero (S := S1x256) hz2]
  exact stored_eq_fused x0 x1 x2 x3 x4 x5 x6 x7 x8 x9 x10 x11 _ _ _ _ r (lin_read c arg1 harg1 arg15 x0 r)
    (sum_read c arg1 harg1 arg16 x0 r) (sq_read c arg1 harg1 arg17 x0 r) (cat_read c arg1 harg1 arg14 x0 r)

end Cert.KernelIdeal.FusedBody

end
-- ==== Proof.FusedValue.lean ====
import proofs.«404604_j83769042141642_2_alg».proof.Proof.Gen.KernelIdeal.Frame
import proofs.«404604_j83769042141642_2_alg».proof.Proof.FusedBody
import proofs.«404604_j83769042141642_2_alg».proof.Proof.Spec
import Idealize.ShloMosaic.Lib.Pipeline.Value
import Idealize.ShloMosaic.Lib.ValueIdx

noncomputable section

namespace Cert.KernelIdeal.FusedValue

open Cert.KernelIdeal Cert.KernelIdeal.Gen Idealize.ShloMosaic Idealize.ShloMosaic.ValueIdx Idealize.ShloMosaic.TcCoe Idealize.SL.Sem

variable (V : (c : Dev nD) → (b : Ref sig .tc) → Buf (Elt Ideal) ((c : Thread nD τ).loc b))

/-! ## The model output reads the two batch-indexed arrays through one row only -/

section Rows

open Cert.Spec

/-- If two pairs of batch-indexed arrays (of any two batch extents) agree on one row each — the looked-up array
    in every field and column, the numeric features in every column — and the ten arrays without a batch axis
    are equal, the model outputs of the two rows are equal: every sum in the definition runs over fields,
    columns or hidden units, never over rows, so the summands match one by one. -/
theorem fused_of_rows {B' B : Nat}
    (g' : Arr ⟨3, ![26, 33, B']⟩) (g : Arr ⟨3, ![26, 33, B]⟩) (nx' : Arr ⟨2, ![B', 13]⟩) (nx : Arr ⟨2, ![B, 13]⟩)
    (lw' lw : Arr ⟨2, ![13, 1]⟩) (lb' lb : Arr ⟨2, ![1, 1]⟩) (fn' fn : Arr ⟨2, ![13, 32]⟩) (ff' ff : Arr ⟨2, ![1, 416]⟩)
    (w1' w1 : Arr ⟨2, ![1248, 512]⟩) (b1' b1 : Arr ⟨2, ![1, 512]⟩) (w2' w2 : Arr ⟨2, ![512, 256]⟩)
    (b2' b2 : Arr ⟨2, ![1, 256]⟩) (wo' wo : Arr ⟨2, ![1, 256]⟩) (bo' bo : Arr ⟨2, ![1, 1]⟩)
    (r : Fin B') (b : Fin B)
    (hg : ∀ (f : Fin 26) (e : Fin 33), g' (ix3 f e r) = g (ix3 f e b))
    (hnx : ∀ j : Fin 13, nx' (ix2 r j) = nx (ix2 b j))
    (hlw : lw' = lw) (hlb : lb' = lb) (hfn : fn' = fn) (hff : ff' = ff) (hw1 : w1' = w1) (hb1 : b1' = b1)
    (hw2 : w2' = w2) (hb2 : b2' = b2) (hwo : wo' = wo) (hbo : bo' = bo) :
    fused g' nx' lw' lb' fn' ff' w1' b1' w2' b2' wo' bo' r = fused g nx lw lb fn ff w1 b1 w2 b2 wo bo b := by
  subst hlw hlb hfn hff hw1 hb1 hw2 hb2 hwo hbo
  -- the perceptron's input row
  have hx : ∀ k, xin g' ff' r k = xin g ff' b k := fun k => by
    unfold xin
    by_cases h : k.val < 832
    · rw [dif_pos h, dif_pos h]; exact hg _ _
    · rw [dif_neg h, dif_neg h]
  -- the two hidden layers, unit by unit
  have hh1 : ∀ h, h1 g' ff' w1' b1' r h = h1 g ff' w1' b1' b h := fun h => by
    unfold h1; simp only [hx]
  have hh2 : ∀ o, h2 g' ff' w1' b1' w2' b2' r o = h2 g ff' w1' b1' w2' b2' b o := fun o => by
    unfold h2; simp only [hh1]
  -- the first- and second-order terms and the output layer
  unfold fused lin fm deep sT qT
  simp only [hg, hnx, hh2]

end Rows

/-! ## The blocks of the second kernel's windows, read off their arrays -/

/-- The printed index maps over the sixteen grid points: the looked-up array moves along its batch axis, the
    numeric features and the output along their rows, each by one block per point. -/
theorem idx_facts : ∀ t : Fin cfg1.N,
    (win1_0.index t (0 : Fin 3) = 0 ∧ win1_0.index t (1 : Fin 3) = 0 ∧ win1_0.index t (2 : Fin 3) = t.val)
    ∧ (win1_1.index t (0 : Fin 2) = t.val ∧ win1_1.index t (1 : Fin 2) = 0)
    ∧ (win1_12.index t (0 : Fin 2) = t.val ∧ win1_12.index t (1 : Fin 2) = 0) :=
  (by decide +kernel : ∀ t : Fin grid1.N, _)

/-- The looked-up block at point `t` is batch rows `1024 t … 1024 t + 1023` of the looked-up array, every field and column. -/
theorem g_blk (c : Dev nD) (t : Fin cfg1.N) (x : S26x33x1024.Idx) (k : S26x33x16384.Idx)
    (h0 : (k 0).val = (x 0).val) (h1 : (k 1).val = (x 1).val) (h2 : (k 2).val = t.val * 1024 + (x 2).val) :
    (iblk1 V c 0 t : Vec Ideal S26x33x1024 .f32) x = (V c main_v7 : S26x33x16384.Idx → EReal) k := by
  obtain ⟨⟨e0, e1, e2⟩, -, -⟩ := idx_facts t
  unfold iblk1
  rw [View.read_apply]
  show V c main_v7 _ = V c main_v7 k
  congr 1
  funext a
  apply Fin.ext
  match a with
  | ⟨0, _⟩ => show win1_0.index t 0 * 26 + 1 * (x 0).val = (k 0).val; omega
  | ⟨1, _⟩ => show win1_0.index t 1 * 33 + 1 * (x 1).val = (k 1).val; omega
  | ⟨2, _⟩ => show win1_0.index t 2 * 1024 + 1 * (x 2).val = (k 2).val; omega

/-- The numeric-feature block at point `t` is rows `1024 t … 1024 t + 1023` of the numeric features. -/
theorem nx_blk (c : Dev nD) (t : Fin cfg1.N) (x : S1024x13.Idx) (k : S16384x13.Idx)
    (h0 : (k 0).val = t.val * 1024 + (x 0).val) (h1 : (k 1).val = (x 1).val) :
    (iblk1 V c 1 t : Vec Ideal S1024x13 .f32) x = (V c main_arg1 : S16384x13.Idx → EReal) k := by
  obtain ⟨-, ⟨e0, e1⟩, -⟩ := idx_facts t
  unfold iblk1
  rw [View.read_apply]
  show V c main_arg1 _ = V c main_arg1 k
  congr 1
  funext a
  apply Fin.ext
  match a with
  | ⟨0, _⟩ => show win1_1.index t 0 * 1024 + 1 * (x 0).val = (k 0).val; omega
  | ⟨1, _⟩ => show win1_1.index t 1 * 13 + 1 * (x 1).val = (k 1).val; omega

/-- The window of the numeric features' linear weights stays at block (0, 0) at every point … -/
theorem lw_idx : ∀ t : Fin cfg1.N, win1_2.index t (0 : Fin 2) = 0 ∧ win1_2.index t (1 : Fin 2) = 0 :=
  (by decide +kernel : ∀ t : Fin grid1.N, _)

/-- … so its block at every point is the whole array. -/
theorem lw_blk (c : Dev nD) (t : Fin cfg1.N) :
    (iblk1 V c 2 t : Vec Ideal S13x1 .bf16) = (V c main_v9 : S13x1.Idx → EReal) := by
  obtain ⟨e0, e1⟩ := lw_idx t
  funext y
  unfold iblk1
  rw [View.read_apply]
  show V c main_v9 _ = V c main_v9 y
  congr 1
  funext a
  apply Fin.ext
  match a with
  | ⟨0, _⟩ => show win1_2.index t 0 * 13 + 1 * (y 0).val = (y 0).val; omega
  | ⟨1, _⟩ => show win1_2.index t 1 * 1 + 1 * (y 1).val = (y 1).val; omega

/-- The window of the linear bias stays at block (0, 0) at every point … -/
theorem lb_idx : ∀ t : Fin cfg1.N, win1_3.index t (0 : Fin 2) = 0 ∧ win1_3.index t (1 : Fin 2) = 0 :=
  (by decide +kernel : ∀ t : Fin grid1.N, _)

/-- … so its block at every point is the whole array. -/
theorem lb_blk (c : Dev nD) (t : Fin cfg1.N) :
    (iblk1 V c 3 t : Vec Ideal S1x1 .f32) = (V c main_v10 : S1x1.Idx → EReal) := by
  obtain ⟨e0, e1⟩ := lb_idx t
  funext y
  unfold iblk1
  rw [View.read_apply]
  show V c main_v10 _ = V c main_v10 y
  congr 1
  funext a
  apply Fin.ext
  match a with
  | ⟨0, _⟩ => show win1_3.index t 0 * 1 + 1 * (y 0).val = (y 0).val; omega
  | ⟨1, _⟩ => show win1_3.index t 1 * 1 + 1 * (y 1).val = (y 1).val; omega

/-- The window of the numeric embeddings stays at block (0, 0) at every point … -/
theorem fn_idx : ∀ t : Fin cfg1.N, win1_4.index t (0 : Fin 2) = 0 ∧ win1_4.index t (1 : Fin 2) = 0 :=
  (by decide +kernel : ∀ t : Fin grid1.N, _)

/-- … so its block at every point is the whole array. -/
theorem fn_blk (c : Dev nD) (t : Fin cfg1.N) :
    (iblk1 V c 4 t : Vec Ideal S13x32 .f32) = (V c main_arg6 : S13x32.Idx → EReal) := by
  obtain ⟨e0, e1⟩ := fn_idx t
  funext y
  unfold iblk1
  rw [View.read_apply]
  show V c main_arg6 _ = V c main_arg6 y
  congr 1
  funext a
  apply Fin.ext
  match a with
  | ⟨0, _⟩ => show win1_4.index t 0 * 13 + 1 * (y 0).val = (y 0).val; omega
  | ⟨1, _⟩ => show win1_4.index t 1 * 32 + 1 * (y 1).val = (y 1).val; omega

/-- The window of the numeric embeddings laid side by side stays at block (0, 0) at every point … -/
theorem ff_idx : ∀ t : Fin cfg1.N, win1_5.index t (0 : Fin 2) = 0 ∧ win1_5.index t (1 : Fin 2) = 0 :=
  (by decide +kernel : ∀ t : Fin grid1.N, _)

/-- … so its block at every point is the whole array. -/
theorem ff_blk (c : Dev nD) (t : Fin cfg1.N) :
    (iblk1 V c 5 t : Vec Ideal S1x416 .bf16) = (V c main_v12 : S1x416.Idx → EReal) := by
  obtain ⟨e0, e1⟩ := ff_idx t
  funext y
  unfold iblk1
  rw [View.read_apply]
  show V c main_v12 _ = V c main_v12 y
  congr 1
  funext a
  apply Fin.ext
  match a with
  | ⟨0, _⟩ => show win1_5.index t 0 * 1 + 1 * (y 0).val = (y 0).val; omega
  | ⟨1, _⟩ => show win1_5.index t 1 * 416 + 1 * (y 1).val = (y 1).val; omega

/-- The window of the first layer's weights stays at block (0, 0) at every point … -/
theorem w1_idx : ∀ t : Fin cfg1.N, win1_6.index t (0 : Fin 2) = 0 ∧ win1_6.index t (1 : Fin 2) = 0 :=
  (by decide +kernel : ∀ t : Fin grid1.N, _)

/-- … so its block at every point is the whole array. -/
theorem w1_blk (c : Dev nD) (t : Fin cfg1.N) :
    (iblk1 V c 6 t : Vec Ideal S1248x512 .bf16) = (V c main_v14 : S1248x512.Idx → EReal) := by
  obtain ⟨e0, e1⟩ := w1_idx t
  funext y
  unfold iblk1
  rw [View.read_apply]
  show V c main_v14 _ = V c main_v14 y
  congr 1
  funext a
  apply Fin.ext
  match a with
  | ⟨0, _⟩ => show win1_6.index t 0 * 1248 + 1 * (y 0).val = (y 0).val; omega
  | ⟨1, _⟩ => show win1_6.index t 1 * 512 + 1 * (y 1).val = (y 1).val; omega

/-- The window of the first layer's bias stays at block (0, 0) at every point … -/
theorem b1_idx : ∀ t : Fin cfg1.N, win1_7.index t (0 : Fin 2) = 0 ∧ win1_7.index t (1 : Fin 2) = 0 :=
  (by decide +kernel : ∀ t : Fin grid1.N, _)

/-- … so its block at every point is the whole array. -/
theorem b1_blk (c : Dev nD) (t : Fin cfg1.N) :
    (iblk1 V c 7 t : Vec Ideal S1x512 .f32) = (V c main_v17 : S1x512.Idx → EReal) := by
  obtain ⟨e0, e1⟩ := b1_idx t
  funext y
  unfold iblk1
  rw [View.read_apply]
  show V c main_v17 _ = V c main_v17 y
  congr 1
  funext a
  apply Fin.ext
  match a with
  | ⟨0, _⟩ => show win1_7.index t 0 * 1 + 1 * (y 0).val = (y 0).val; omega
  | ⟨1, _⟩ => show win1_7.index t 1 * 512 + 1 * (y 1).val = (y 1).val; omega

/-- The window of the second layer's weights stays at block (0, 0) at every point … -/
theorem w2_idx : ∀ t : Fin cfg1.N, win1_8.index t (0 : Fin 2) = 0 ∧ win1_8.index t (1 : Fin 2) = 0 :=
  (by decide +kernel : ∀ t : Fin grid1.N, _)

/-- … so its block at every point is the whole array. -/
theorem w2_blk (c : Dev nD) (t : Fin cfg1.N) :
    (iblk1 V c 8 t : Vec Ideal S512x256 .bf16) = (V c main_v16 : S512x256.Idx → EReal) := by
  obtain ⟨e0, e1⟩ := w2_idx t
  funext y
  unfold iblk1
  rw [View.read_apply]
  show V c main_v16 _ = V c main_v16 y
  congr 1
  funext a
  apply Fin.ext
  match a with
  | ⟨0, _⟩ => show win1_8.index t 0 * 512 + 1 * (y 0).val = (y 0).val; omega
  | ⟨1, _⟩ => show win1_8.index t 1 * 256 + 1 * (y 1).val = (y 1).val; omega

/-- The window of the second layer's bias stays at block (0, 0) at every point … -/
theorem b2_idx : ∀ t : Fin cfg1.N, win1_9.index t (0 : Fin 2) = 0 ∧ win1_9.index t (1 : Fin 2) = 0 :=
  (by decide +kernel : ∀ t : Fin grid1.N, _)

/-- … so its block at every point is the whole array. -/
theorem b2_blk (c : Dev nD) (t : Fin cfg1.N) :
    (iblk1 V c 9 t : Vec Ideal S1x256 .f32) = (V c main_v18 : S1x256.Idx → EReal) := by
  obtain ⟨e0, e1⟩ := b2_idx t
  funext y
  unfold iblk1
  rw [View.read_apply]
  show V c main_v18 _ = V c main_v18 y
  congr 1
  funext a
  apply Fin.ext
  match a with
  | ⟨0, _⟩ => show win1_9.index t 0 * 1 + 1 * (y 0).val = (y 0).val; omega
  | ⟨1, _⟩ => show win1_9.index t 1 * 256 + 1 * (y 1).val = (y 1).val; omega

/-- The window of the output layer's weights stays at block (0, 0) at every point … -/
theorem wo_idx : ∀ t : Fin cfg1.N, win1_10.index t (0 : Fin 2) = 0 ∧ win1_10.index t (1 : Fin 2) = 0 :=
  (by decide +kernel : ∀ t : Fin grid1.N, _)

/-- … so its block at every point is the whole array. -/
theorem wo_blk (c : Dev nD) (t : Fin cfg1.N) :
    (iblk1 V c 10 t : Vec Ideal S1x256 .f32) = (V c main_arg11 : S1x256.Idx → EReal) := by
  obtain ⟨e0, e1⟩ := wo_idx t
  funext y
  unfold iblk1
  rw [View.read_apply]
  show V c main_arg11 _ = V c main_arg11 y
  congr 1
  funext a
  apply Fin.ext
  match a with
  | ⟨0, _⟩ => show win1_10.index t 0 * 1 + 1 * (y 0).val = (y 0).val; omega
  | ⟨1, _⟩ => show win1_10.index t 1 * 256 + 1 * (y 1).val = (y 1).val; omega

/-- The window of the output layer's bias stays at block (0, 0) at every point … -/
theorem bo_idx : ∀ t : Fin cfg1.N, win1_11.index t (0 : Fin 2) = 0 ∧ win1_11.index t (1 : Fin 2) = 0 :=
  (by decide +kernel : ∀ t : Fin grid1.N, _)

/-- … so its block at every point is the whole array. -/
theorem bo_blk (c : Dev nD) (t : Fin cfg1.N) :
    (iblk1 V c 11 t : Vec Ideal S1x1 .f32) = (V c main_v19 : S1x1.Idx → EReal) := by
  obtain ⟨e0, e1⟩ := bo_idx t
  funext y
  unfold iblk1
  rw [View.read_apply]
  show V c main_v19 _ = V c main_v19 y
  congr 1
  funext a
  apply Fin.ext
  match a with
  | ⟨0, _⟩ => show win1_11.index t 0 * 1 + 1 * (y 0).val = (y 0).val; omega
  | ⟨1, _⟩ => show win1_11.index t 1 * 1 + 1 * (y 1).val = (y 1).val; omega

/-! ## What one grid point writes back, and the array after all of them -/

/-- The model output of every batch row, as the one array the output window's blocks are cut from. -/
def G (c : Dev nD) : Vec Ideal S16384x1 .f32 := fun i =>
  Cert.Spec.fused (B := 16384) (V c main_v7) (V c main_arg1) (V c main_v9) (V c main_v10) (V c main_arg6) (V c main_v12) (V c main_v14) (V c main_v17) (V c main_v16) (V c main_v18) (V c main_arg11) (V c main_v19) (i 0)

/-- Row `r` of what the body leaves at point `t` is the model output of row `r` of the point's twelve input blocks. -/
theorem out_row (c : Dev nD) (t : Fin cfg1.N) (r : Fin 1024) :
    outsAt1 (F := Ideal) V c t (ix2 r (0 : Fin 1))
      = Cert.Spec.fused (B := 1024) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) r := by
  unfold outsAt1
  exact FusedBody.body_at c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) scM1_0 (Memref.isWhole_whole cc1_scratch0) scM1_1 (Memref.isWhole_whole cc1_scratch1) scM1_2 (Memref.isWhole_whole cc1_scratch2) scM1_3 (Memref.isWhole_whole cc1_scratch3) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) r

/-- Row `r` of the blocks at point `t` gives the model output of batch row `1024 t + r` of the arrays: the two
    batch-indexed blocks are those rows of their arrays, the other ten blocks are their whole arrays. -/
theorem row_eq (c : Dev nD) (t : Fin cfg1.N) (r : Fin 1024) :
    Cert.Spec.fused (B := 1024) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) r
      = G V c (((cfg1.win 12).blk t).view.emb (ix2 r (0 : Fin 1))) := by
  obtain ⟨-, -, e0, e1⟩ := idx_facts t
  have hb : ((((cfg1.win 12).blk t).view.emb (ix2 r (0 : Fin 1)) : S16384x1.Idx) 0).val = t.val * 1024 + r.val := by
    show win1_12.index t 0 * 1024 + 1 * r.val = t.val * 1024 + r.val
    omega
  exact fused_of_rows (iblk1 V c 0 t) (V c main_v7) (iblk1 V c 1 t) (V c main_arg1) (iblk1 V c 2 t) (V c main_v9) (iblk1 V c 3 t) (V c main_v10) (iblk1 V c 4 t) (V c main_arg6) (iblk1 V c 5 t) (V c main_v12) (iblk1 V c 6 t) (V c main_v14) (iblk1 V c 7 t) (V c main_v17) (iblk1 V c 8 t) (V c main_v16) (iblk1 V c 9 t) (V c main_v18) (iblk1 V c 10 t) (V c main_arg11) (iblk1 V c 11 t) (V c main_v19) r ((((cfg1.win 12).blk t).view.emb (ix2 r (0 : Fin 1)) : S16384x1.Idx) 0)
    (fun f e => g_blk V c t (ix3 f e r) (ix3 f e _) rfl rfl hb)
    (fun j => nx_blk V c t (ix2 r j) (ix2 _ j) hb rfl)
    (lw_blk V c t) (lb_blk V c t) (fn_blk V c t) (ff_blk V c t) (w1_blk V c t) (b1_blk V c t) (w2_blk V c t) (b2_blk V c t)
    (wo_blk V c t) (bo_blk V c t)

/-- WHAT POINT `t` WRITES BACK is block `t` of `G`. -/
theorem flushed_eq (c : Dev nD) (t : Fin cfg1.N) :
    (dat1 V c).flushed 12 t = ((cfg1.win 12).blk t).view.read (Elt Ideal) (G V c) := by
  show (cfg1.win 12).cut (grid1.coords t) ((dat1 V c).after 12 t) = _
  rw [after1_12]
  refine funext fun (y : S1024x1.Idx) => ?_
  obtain ⟨r, q, rfl⟩ : ∃ (r : Fin 1024) (q : Fin 1), y = ix2 r q := ⟨y 0, y 1, eq_ix2 y⟩
  obtain rfl : q = 0 := Subsingleton.elim _ _
  show outsAt1 V c t (ix2 r (0 : Fin 1)) = G V c (((cfg1.win 12).blk t).view.emb (ix2 r (0 : Fin 1)))
  exact (out_row V c t r).trans (row_eq V c t r)

/-- Every batch row lies in some point's output block: row `b` in that of point `b / 1024`. -/
theorem cover (i : S16384x1.Idx) :
    ∃ t : Fin cfg1.N, (cfg1.win 12).flush t = true ∧ i ∈ ((cfg1.win 12).blk t).view.set := by
  have h0 : (i 0).val < 16384 := (i 0).isLt
  have h1 : (i 1).val < 1 := (i 1).isLt
  obtain ⟨t, ht⟩ : ∃ t : Fin cfg1.N, t.val = (i 0).val / 1024 :=
    ⟨⟨(i 0).val / 1024, by rw [show cfg1.N = 16 from N_1]; omega⟩, rfl⟩
  obtain ⟨-, -, e0, e1⟩ := idx_facts t
  refine ⟨t, flush1_12 t, ?_⟩
  show i ∈ ((View.whole main_v20).slice (win1_12.rect t)).set
  rw [View.set_slice_whole, Rect.mem_set_unit]
  intro a
  match a with
  | ⟨0, _⟩ => show win1_12.index t 0 * 1024 ≤ (i 0).val ∧ (i 0).val < win1_12.index t 0 * 1024 + 1024; omega
  | ⟨1, _⟩ => show win1_12.index t 1 * 1 ≤ (i 1).val ∧ (i 1).val < win1_12.index t 1 * 1 + 1; omega

/-- THE OUTPUT ARRAY after the sixteen points is `G`: each point writes its block of `G`, and the blocks cover the array. -/
theorem final (c : Dev nD) : ((dat1 (F := Ideal) V c).arrAt 12 cfg1.N : Vec Ideal S16384x1 .f32) = G V c :=
  (dat1 V c).arrAt_eq_of_cover 12 (G V c) (fun t _ => flushed_eq V c t) cover

/-- The second kernel's output array after all its grid points: row `b` is the model output as a function of the
    twelve arrays the kernel reads. -/
theorem fused_at (c : Dev nD) (b : Fin 16384) :
    ((dat1 (F := Ideal) V c).arrAt 12 cfg1.N : Vec Ideal S16384x1 .f32) (ix2 b (0 : Fin 1))
      = Cert.Spec.fused (V c main_v7) (V c main_arg1) (V c main_v9) (V c main_v10) (V c main_arg6) (V c main_v12)
          (V c main_v14) (V c main_v17) (V c main_v16) (V c main_v18) (V c main_arg11) (V c main_v19) b :=
  congrFun (final V c) (ix2 b (0 : Fin 1))

end Cert.KernelIdeal.FusedValue

end
-- ==== Proof.HostReads.lean ====
import proofs.«404604_j83769042141642_2_alg».proof.Proof.Gen.KernelIdeal.Frame
import proofs.«404604_j83769042141642_2_alg».proof.Proof.Spec
import Idealize.ShloMosaic.Lib.ValueIdx
import Idealize.ShloMosaic.Lib.ValueLayout
import Idealize.ShloMosaic.Lib.Pipeline.Value
import Idealize.ShloMosaic.Lib.KernelVsHost
import Idealize.ShloMosaic.Lib.StableHlo.Run

noncomputable section

namespace Cert.KernelIdeal.HostReads

open Cert.KernelIdeal Cert.KernelIdeal.Gen Idealize.ShloMosaic Idealize.ShloMosaic.ValueIdx Idealize.ShloMosaic.TcCoe Idealize.SL.Sem

/-! ## Two layout operations read at any index -/

section Layout
variable {α : Type}

/-- A matrix transposed reads, at `j`, the operand at `j`'s two coordinates exchanged. -/
theorem transpose10_apply {a b : ℕ} (x : (⟨2, ![a, b]⟩ : Shape).Idx → α)
    (h : (⟨2, ![a, b]⟩ : Shape).Transposes [1, 0] ⟨2, ![b, a]⟩) (j : (⟨2, ![b, a]⟩ : Shape).Idx) :
    transpose ⟨2, ![b, a]⟩ [1, 0] x h j = x (ix2 (j 1) (j 0)) :=
  (congrArg (transpose ⟨2, ![b, a]⟩ [1, 0] x h) (eq_ix2 j)).trans (transpose_ix2_apply x h (j 0) (j 1))

/-- A vector laid out as one row reads, at `j`, the vector at `j`'s column. -/
theorem shapeCast_row_apply {a : ℕ} (x : (⟨1, ![a]⟩ : Shape).Idx → α)
    (h : (⟨1, ![a]⟩ : Shape).ShapeCasts ⟨2, ![1, a]⟩) (j : (⟨2, ![1, a]⟩ : Shape).Idx) :
    shapeCast ⟨2, ![1, a]⟩ x h j = x (ix1 (j 1)) :=
  (congrArg (shapeCast ⟨2, ![1, a]⟩ x h) (eq_ix2 j)).trans (shapeCast_a_1a_apply x h (j 0) (j 1))

end Layout

variable (m : (ℓ : Loc nD τ sig) → Buf (Elt Ideal) ℓ) (ρ : Dev nD → PrngReg)

/-! ## A buffer no host operation writes

Every host operation writes one buffer, its result's. A buffer that is the result of none of a stretch's operations is
after the stretch what it was before; an argument of the program is the result of none at all, and a region leaves
every buffer that is not one of its arrays alone: read through the stretches and the region, such a buffer holds the
launch memory. -/

/-- No operation of the stretch writes the buffer: each operation's one result is another buffer. -/
local macro "untouched" : tactic => `(tactic| (
  refine List.forall_iff_forall_mem.mp ?_
  simp only [hostOps0, hostOps0_1, hostOps0_2, hostOps1, List.Forall, StableHlo.nullary_writes, StableHlo.unary_writes,
    StableHlo.binary_writes, StableHlo.reshape_writes, Finset.mem_singleton]
  repeat' apply And.intro
  all_goals exact StableHlo.devRef_ne_of_ne (by decide)))

/-- After the first two stretches, a buffer neither writes holds the launch memory. -/
theorem W2_launch (c : Dev nD) (b : Ref sig .tc)
    (h1 : ∀ op ∈ (hostOps0_1 : List (HloOp τ sig (Elt Ideal))), (Proc.devRef .tc b : DevRef τ sig) ∉ op.writes)
    (h0 : ∀ op ∈ (hostOps0 : List (HloOp τ sig (Elt Ideal))), (Proc.devRef .tc b : DevRef τ sig) ∉ op.writes) :
    W2 m ρ c (Proc.devRef .tc b) = m ((c : Thread nD τ).loc b) :=
  calc W2 m ρ c (Proc.devRef .tc b)
    _ = W1 m ρ c (Proc.devRef .tc b) := StableHlo.after_of_forall_not_mem _ _ h1
    _ = W0 m ρ c (Proc.devRef .tc b) := StableHlo.after_of_forall_not_mem _ _ h0
    _ = m ((c : Thread nD τ).loc b) := rfl

/-- At region 0's exit, a buffer that is none of its arrays and that no stretch before it writes holds the launch
    memory. -/
theorem W4_launch (c : Dev nD) (b : Ref sig .tc) (hr : ∀ w, Pipeline.arrRef spec0 w ≠ b)
    (h2 : ∀ op ∈ (hostOps0_2 : List (HloOp τ sig (Elt Ideal))), (Proc.devRef .tc b : DevRef τ sig) ∉ op.writes)
    (h1 : ∀ op ∈ (hostOps0_1 : List (HloOp τ sig (Elt Ideal))), (Proc.devRef .tc b : DevRef τ sig) ∉ op.writes)
    (h0 : ∀ op ∈ (hostOps0 : List (HloOp τ sig (Elt Ideal))), (Proc.devRef .tc b : DevRef τ sig) ∉ op.writes) :
    W4 m ρ c (Proc.devRef .tc b) = m ((c : Thread nD τ).loc b) :=
  calc W4 m ρ c (Proc.devRef .tc b)
    _ = W3 m ρ c (Proc.devRef .tc b) := W4_of_ne m ρ c b hr
    _ = W2 m ρ c (Proc.devRef .tc b) := StableHlo.after_of_forall_not_mem _ _ h2
    _ = m ((c : Thread nD τ).loc b) := W2_launch m ρ c b h1 h0

theorem W2_arg0 (c : Dev nD) : W2 m ρ c (Proc.devRef .tc main_arg0) = m ((c : Thread nD τ).loc main_arg0) :=
  W2_launch m ρ c main_arg0 (by untouched) (by untouched)
theorem W4_arg3 (c : Dev nD) : W4 m ρ c (Proc.devRef .tc main_arg3) = m ((c : Thread nD τ).loc main_arg3) :=
  W4_launch m ρ c main_arg3 (by decide) (by untouched) (by untouched) (by untouched)
theorem W4_arg4 (c : Dev nD) : W4 m ρ c (Proc.devRef .tc main_arg4) = m ((c : Thread nD τ).loc main_arg4) :=
  W4_launch m ρ c main_arg4 (by decide) (by untouched) (by untouched) (by untouched)
theorem W4_arg6 (c : Dev nD) : W4 m ρ c (Proc.devRef .tc main_arg6) = m ((c : Thread nD τ).loc main_arg6) :=
  W4_launch m ρ c main_arg6 (by decide) (by untouched) (by untouched) (by untouched)
theorem W4_arg7 (c : Dev nD) : W4 m ρ c (Proc.devRef .tc main_arg7) = m ((c : Thread nD τ).loc main_arg7) :=
  W4_launch m ρ c main_arg7 (by decide) (by untouched) (by untouched) (by untouched)
theorem W4_arg8 (c : Dev nD) : W4 m ρ c (Proc.devRef .tc main_arg8) = m ((c : Thread nD τ).loc main_arg8) :=
  W4_launch m ρ c main_arg8 (by decide) (by untouched) (by untouched) (by untouched)
theorem W4_arg9 (c : Dev nD) : W4 m ρ c (Proc.devRef .tc main_arg9) = m ((c : Thread nD τ).loc main_arg9) :=
  W4_launch m ρ c main_arg9 (by decide) (by untouched) (by untouched) (by untouched)
theorem W4_arg10 (c : Dev nD) : W4 m ρ c (Proc.devRef .tc main_arg10) = m ((c : Thread nD τ).loc main_arg10) :=
  W4_launch m ρ c main_arg10 (by decide) (by untouched) (by untouched) (by untouched)
theorem W4_arg12 (c : Dev nD) : W4 m ρ c (Proc.devRef .tc main_arg12) = m ((c : Thread nD τ).loc main_arg12) :=
  W4_launch m ρ c main_arg12 (by decide) (by untouched) (by untouched) (by untouched)

/-! ## What a stretch leaves in a buffer it writes

Each is the composition of the operations that lead to the buffer, applied to the contents the stretch found in the
buffers those operations start from; stated at any contents `X` before the stretch. -/

section Stretches
variable (X : Valuation τ sig (Elt Ideal))

/-- Between the regions: the numeric linear weights, transposed to a column. -/
theorem between_v9 : StableHlo.after hostOps1 X (Proc.devRef .tc main_v9)
    = (truncf (F := Ideal) .bf16 (transpose S13x1 [1, 0]
        (X (Proc.devRef .tc main_arg3) : (⟨S1x13, .f32⟩ : BufTy).Contents (Elt Ideal)) transposes_S1x13_S13x1_1_0) bitsLt_bf16_f32
        : (⟨S13x1, .bf16⟩ : BufTy).Contents (Elt Ideal)) := by
  after_results <;> rfl

/-- Between the regions: the linear bias as a one-by-one array. -/
theorem between_v10 : StableHlo.after hostOps1 X (Proc.devRef .tc main_v10)
    = (shapeCast S1x1 (X (Proc.devRef .tc main_arg4) : (⟨S1, .f32⟩ : BufTy).Contents (Elt Ideal)) shapeCasts_S1_S1x1
        : (⟨S1x1, .f32⟩ : BufTy).Contents (Elt Ideal)) := by
  after_results <;> rfl

/-- Between the regions: the numeric embeddings laid side by side in one row. -/
theorem between_v12 : StableHlo.after hostOps1 X (Proc.devRef .tc main_v12)
    = (truncf (F := Ideal) .bf16 (shapeCast S1x416
        (X (Proc.devRef .tc main_arg6) : (⟨S13x32, .f32⟩ : BufTy).Contents (Elt Ideal)) shapeCasts_S13x32_S1x416) bitsLt_bf16_f32
        : (⟨S1x416, .bf16⟩ : BufTy).Contents (Elt Ideal)) := by
  after_results <;> rfl

/-- Between the regions: the first layer's weights, transposed. -/
theorem between_v14 : StableHlo.after hostOps1 X (Proc.devRef .tc main_v14)
    = (truncf (F := Ideal) .bf16 (transpose S1248x512 [1, 0]
        (X (Proc.devRef .tc main_arg7) : (⟨S512x1248, .f32⟩ : BufTy).Contents (Elt Ideal)) transposes_S512x1248_S1248x512_1_0) bitsLt_bf16_f32
        : (⟨S1248x512, .bf16⟩ : BufTy).Contents (Elt Ideal)) := by
  after_results <;> rfl

/-- Between the regions: the second layer's weights, transposed. -/
theorem between_v16 : StableHlo.after hostOps1 X (Proc.devRef .tc main_v16)
    = (truncf (F := Ideal) .bf16 (transpose S512x256 [1, 0]
        (X (Proc.devRef .tc main_arg9) : (⟨S256x512, .f32⟩ : BufTy).Contents (Elt Ideal)) transposes_S256x512_S512x256_1_0) bitsLt_bf16_f32
        : (⟨S512x256, .bf16⟩ : BufTy).Contents (Elt Ideal)) := by
  after_results <;> rfl

/-- Between the regions: the first layer's bias as one row. -/
theorem between_v17 : StableHlo.after hostOps1 X (Proc.devRef .tc main_v17)
    = (shapeCast S1x512 (X (Proc.devRef .tc main_arg8) : (⟨S512, .f32⟩ : BufTy).Contents (Elt Ideal)) shapeCasts_S512_S1x512
        : (⟨S1x512, .f32⟩ : BufTy).Contents (Elt Ideal)) := by
  after_results <;> rfl

/-- Between the regions: the second layer's bias as one row. -/
theorem between_v18 : StableHlo.after hostOps1 X (Proc.devRef .tc main_v18)
    = (shapeCast S1x256 (X (Proc.devRef .tc main_arg10) : (⟨S256, .f32⟩ : BufTy).Contents (Elt Ideal)) shapeCasts_S256_S1x256
        : (⟨S1x256, .f32⟩ : BufTy).Contents (Elt Ideal)) := by
  after_results <;> rfl

/-- Between the regions: the output bias as a one-by-one array. -/
theorem between_v19 : StableHlo.after hostOps1 X (Proc.devRef .tc main_v19)
    = (shapeCast S1x1 (X (Proc.devRef .tc main_arg12) : (⟨S1, .f32⟩ : BufTy).Contents (Elt Ideal)) shapeCasts_S1_S1x1
        : (⟨S1x1, .f32⟩ : BufTy).Contents (Elt Ideal)) := by
  after_results <;> rfl

/-- First stretch: the embedding table with the linear-weight table joined to it as a 33rd column. -/
theorem first_v1 : StableHlo.after hostOps0 X (Proc.devRef .tc main_v1)
    = (concatenate S26x100000x33 2
        [⟨S26x100000x32, (X (Proc.devRef .tc main_arg5) : (⟨S26x100000x32, .f32⟩ : BufTy).Contents (Elt Ideal))⟩,
         ⟨S26x100000x1, broadcastInDim S26x100000x1 ![0, 1] bcast_S26x100000_S26x100000x1_0_1
            (X (Proc.devRef .tc main_arg2) : (⟨S26x100000, .f32⟩ : BufTy).Contents (Elt Ideal))⟩]
        concatenates_S26x100000x32_S26x100000x1_S26x100000x33_d2
        : (⟨S26x100000x33, .f32⟩ : BufTy).Contents (Elt Ideal)) := by
  after_results <;> rfl

/-- First stretch: the integer zero. -/
theorem first_c : StableHlo.after hostOps0 X (Proc.devRef .tc main_c)
    = (constantI S_ 32 0#32 : (⟨S_, .i32⟩ : BufTy).Contents (Elt Ideal)) := by
  after_results <;> rfl

/-- Second stretch: the joined table padded along the categories, from 100000 up to 100352, with the integer zero
    converted. -/
theorem second_v2 : StableHlo.after hostOps0_1 X (Proc.devRef .tc main_v2)
    = (pad S26x100352x33 ![0, 0, 0] ![0, 352, 0] ![0, 0, 0]
        (X (Proc.devRef .tc main_v1) : (⟨S26x100000x33, .f32⟩ : BufTy).Contents (Elt Ideal))
        (sitofp (F := Ideal) .f32 (X (Proc.devRef .tc main_c) : (⟨S_, .i32⟩ : BufTy).Contents (Elt Ideal)))
        pads_S26x100000x33_S26x100352x33_000_03520_000 h_S_
        : (⟨S26x100352x33, .f32⟩ : BufTy).Contents (Elt Ideal)) := by
  after_results <;> rfl

/-- Third stretch: the padded table with its last two axes exchanged. -/
theorem third_v4 : StableHlo.after hostOps0_2 X (Proc.devRef .tc main_v4)
    = (transpose S26x33x100352 [0, 2, 1] (truncf (F := Ideal) .bf16
        (X (Proc.devRef .tc main_v2) : (⟨S26x100352x33, .f32⟩ : BufTy).Contents (Elt Ideal)) bitsLt_bf16_f32)
        transposes_S26x100352x33_S26x33x100352_0_2_1
        : (⟨S26x33x100352, .bf16⟩ : BufTy).Contents (Elt Ideal)) := by
  after_results <;> rfl

/-- Third stretch: the integer categories transposed, with a unit axis put between the two. -/
theorem third_v6 : StableHlo.after hostOps0_2 X (Proc.devRef .tc main_v6)
    = (broadcastInDim S26x1x16384 ![0, 2] bcast_S26x16384_S26x1x16384_0_2 (transpose S26x16384 [1, 0]
        (X (Proc.devRef .tc main_arg0) : (⟨S16384x26, .i32⟩ : BufTy).Contents (Elt Ideal)) transposes_S16384x26_S26x16384_1_0)
        : (⟨S26x1x16384, .i32⟩ : BufTy).Contents (Elt Ideal)) := by
  after_results <;> rfl

end Stretches

/-! ## Region 0's operands -/

/-! ### The stacked lookup table

Read at `(field f, column e, category k)`: the exchange of the last two axes reads the padded table at `(f, k, e)`; the
padding reads the joined table there when `k < 100000` and the padding value, zero, from 100000 on; the joined table
reads the embedding table in columns `0 … 31` and the linear-weight table, given a unit last axis, in column `32`. -/

section Table
variable (fmc : Cert.Spec.Arr ⟨3, ![26, 100000, 32]⟩) (lc : Cert.Spec.Arr ⟨2, ![26, 100000]⟩)
  (T : Cert.Spec.Arr ⟨3, ![26, 100000, 33]⟩) (z : (⟨0, ![]⟩ : Shape).Idx → EReal)

/-- The linear-weight table given a unit last axis reads, at `(f, k, 0)`, the table at `(f, k)`. -/
theorem column_apply (f : Fin 26) (k : Fin 100000) (u : Fin 1) :
    broadcastInDim S26x100000x1 ![0, 1] bcast_S26x100000_S26x100000x1_0_1 lc (ix3 f k u) = lc (ix2 f k) :=
  broadcastInDim_apply _ bcast_S26x100000_S26x100000x1_0_1 lc (ix3 f k u) (ix2 f k) fun a => match a with
    | ⟨0, _⟩ => by show f.val = if (26 : Nat) = 1 then 0 else f.val; rw [if_neg (by decide)]
    | ⟨1, _⟩ => by show k.val = if (100000 : Nat) = 1 then 0 else k.val; rw [if_neg (by decide)]

/-- The joined table in a column below 32 reads the embedding table. -/
theorem joined_apply_emb (f : Fin 26) (k : Fin 100000) (e : Fin 33) (he : e.val < 32) :
    concatenate S26x100000x33 2
        [⟨S26x100000x32, fmc⟩, ⟨S26x100000x1, broadcastInDim S26x100000x1 ![0, 1] bcast_S26x100000_S26x100000x1_0_1 lc⟩]
        concatenates_S26x100000x32_S26x100000x1_S26x100000x33_d2 (ix3 f k e)
      = fmc (ix3 f k (⟨e.val, he⟩ : Fin 32)) :=
  concatenate_pair_apply_left (t := S26x100000x33) (s₁ := S26x100000x32) (s₂ := S26x100000x1) 2 fmc _
    concatenates_S26x100000x32_S26x100000x1_S26x100000x33_d2 (ix3 f k e) rfl (ix3 f k (⟨e.val, he⟩ : Fin 32))
    fun b => match b with
      | ⟨0, _⟩ => rfl
      | ⟨1, _⟩ => rfl
      | ⟨2, _⟩ => rfl

/-- The joined table in its last column, 32, reads the linear-weight table. -/
theorem joined_apply_lin (f : Fin 26) (k : Fin 100000) (e : Fin 33) (he : ¬ e.val < 32) :
    concatenate S26x100000x33 2
        [⟨S26x100000x32, fmc⟩, ⟨S26x100000x1, broadcastInDim S26x100000x1 ![0, 1] bcast_S26x100000_S26x100000x1_0_1 lc⟩]
        concatenates_S26x100000x32_S26x100000x1_S26x100000x33_d2 (ix3 f k e)
      = lc (ix2 f k) :=
  (concatenate_pair_apply_right (t := S26x100000x33) (s₁ := S26x100000x32) (s₂ := S26x100000x1) 2 fmc _
    concatenates_S26x100000x32_S26x100000x1_S26x100000x33_d2 (ix3 f k e) rfl rfl (ix3 f k (0 : Fin 1))
    (fun b => match b with
      | ⟨0, _⟩ => fun _ => rfl
      | ⟨1, _⟩ => fun _ => rfl
      | ⟨2, _⟩ => fun hb => (hb rfl).elim)
    (by have := e.isLt; show 0 + 32 = e.val; omega)).trans (column_apply lc f k 0)

/-- The padded table at a category below 100000 reads the table it pads. -/
theorem padded_apply_lt (f : Fin 26) (k : Fin 100352) (e : Fin 33) (hk : k.val < 100000) :
    pad S26x100352x33 ![0, 0, 0] ![0, 352, 0] ![0, 0, 0] T z pads_S26x100000x33_S26x100352x33_000_03520_000 h_S_ (ix3 f k e)
      = T (ix3 f (⟨k.val, hk⟩ : Fin 100000) e) :=
  pad_apply_of_inside _ _ _ T z pads_S26x100000x33_S26x100352x33_000_03520_000 h_S_ (ix3 f k e)
    (ix3 f (⟨k.val, hk⟩ : Fin 100000) e) fun a => match a with
      | ⟨0, _⟩ => by show f.val = 0 + f.val * (0 + 1); omega
      | ⟨1, _⟩ => by show k.val = 0 + k.val * (0 + 1); omega
      | ⟨2, _⟩ => by show e.val = 0 + e.val * (0 + 1); omega

/-- The padded table at a category from 100000 on reads the padding value. -/
theorem padded_apply_ge (f : Fin 26) (k : Fin 100352) (e : Fin 33) (hk : ¬ k.val < 100000) :
    pad S26x100352x33 ![0, 0, 0] ![0, 352, 0] ![0, 0, 0] T z pads_S26x100000x33_S26x100352x33_000_03520_000 h_S_ (ix3 f k e)
      = z ix0 :=
  (pad_apply_of_not_inside _ _ _ T z pads_S26x100000x33_S26x100352x33_000_03520_000 h_S_ (ix3 f k e) 1
    (by show ¬(0 ≤ k.val ∧ (k.val - 0) % (0 + 1) = 0 ∧ (k.val - 0) / (0 + 1) < 100000); omega)).trans
    (congrArg z (eq_ix0 _))

end Table

/-- The padded table, before its last two axes are exchanged, as a function of the launch memory. -/
theorem W2_v2 (c : Dev nD) :
    (W2 m ρ c (Proc.devRef .tc main_v2) : (⟨S26x100352x33, .f32⟩ : BufTy).Contents (Elt Ideal))
      = pad S26x100352x33 ![0, 0, 0] ![0, 352, 0] ![0, 0, 0]
          (concatenate S26x100000x33 2
            [⟨S26x100000x32, (m ((c : Thread nD τ).loc main_arg5) : Cert.Spec.Arr ⟨3, ![26, 100000, 32]⟩)⟩,
             ⟨S26x100000x1, broadcastInDim S26x100000x1 ![0, 1] bcast_S26x100000_S26x100000x1_0_1
                (m ((c : Thread nD τ).loc main_arg2) : Cert.Spec.Arr ⟨2, ![26, 100000]⟩)⟩]
            concatenates_S26x100000x32_S26x100000x1_S26x100000x33_d2)
          (sitofp (F := Ideal) .f32 (constantI S_ 32 0#32))
          pads_S26x100000x33_S26x100352x33_000_03520_000 h_S_ := by
  rw [show W2 m ρ c (Proc.devRef .tc main_v2) = _ from second_v2 (W1 m ρ c),
    show W1 m ρ c (Proc.devRef .tc main_v1) = _ from first_v1 (W0 m ρ c),
    show W1 m ρ c (Proc.devRef .tc main_c) = _ from first_c (W0 m ρ c)]

theorem V3_tbl (c : Dev nD) :
    (V3 m ρ c main_v4 : Cert.Spec.Arr ⟨3, ![26, 33, 100352]⟩)
      = Cert.Spec.table (m ((c : Thread nD τ).loc main_arg5)) (m ((c : Thread nD τ).loc main_arg2)) := by
  refine funext fun (j : (⟨3, ![26, 33, 100352]⟩ : Shape).Idx) => ?_
  obtain ⟨f, e, k, rfl⟩ : ∃ (f : Fin 26) (e : Fin 33) (k : Fin 100352), j = ix3 f e k := ⟨j 0, j 1, j 2, eq_ix3 j⟩
  refine (congrFun (third_v4 (W2 m ρ c)) (ix3 f e k)).trans ?_
  refine (transpose_ix3_021_apply _ _ f e k).trans ((truncf_apply (ψ := .bf16) _ bitsLt_bf16_f32 (ix3 f k e)).trans ?_)
  rw [W2_v2 m ρ c]
  show _ = (if hk : k.val < 100000 then
      (if he : e.val < 32 then
        (m ((c : Thread nD τ).loc main_arg5) : Cert.Spec.Arr ⟨3, ![26, 100000, 32]⟩) (ix3 f (⟨k.val, hk⟩ : Fin 100000) (⟨e.val, he⟩ : Fin 32))
      else (m ((c : Thread nD τ).loc main_arg2) : Cert.Spec.Arr ⟨2, ![26, 100000]⟩) (ix2 f (⟨k.val, hk⟩ : Fin 100000)))
    else (0 : EReal))
  by_cases hk : k.val < 100000
  · rw [dif_pos hk]
    refine (padded_apply_lt _ _ f k e hk).trans ?_
    by_cases he : e.val < 32
    · rw [dif_pos he]
      exact joined_apply_emb _ _ f ⟨k.val, hk⟩ e he
    · rw [dif_neg he]
      exact joined_apply_lin _ _ f ⟨k.val, hk⟩ e he
  · rw [dif_neg hk]
    refine (padded_apply_ge _ _ f k e hk).trans ?_
    -- the padding value is the integer zero converted
    show ((((0#32 : BitVec 32).toInt : ℤ) : ℝ) : EReal) = 0
    simp

theorem V3_idx (c : Dev nD) (f : Fin 26) (b : Fin 16384) :
    (V3 m ρ c main_v6 : Vec Ideal S26x1x16384 .i32) (ix3 f (0 : Fin 1) b)
      = (m ((c : Thread nD τ).loc main_arg0) : Vec Ideal S16384x26 .i32) (ix2 b f) := by
  refine (congrFun (third_v6 (W2 m ρ c)) (ix3 f (0 : Fin 1) b)).trans ?_
  rw [W2_arg0 m ρ c]
  -- the unit axis is dropped, then the two coordinates are exchanged
  refine (broadcastInDim_apply _ bcast_S26x16384_S26x1x16384_0_2 _ (ix3 f (0 : Fin 1) b) (ix2 f b) fun a => match a with
    | ⟨0, _⟩ => by show f.val = if (26 : Nat) = 1 then 0 else f.val; rw [if_neg (by decide)]
    | ⟨1, _⟩ => by show b.val = if (16384 : Nat) = 1 then 0 else b.val; rw [if_neg (by decide)]).trans ?_
  exact transpose_ix2_apply _ _ f b

/-! ## Region 1's operands -/

theorem V5_g (c : Dev nD) :
    (V5 m ρ c main_v7 : Vec Ideal S26x33x16384 .f32) = (dat0 (F := Ideal) (V3 m ρ) c).arrAt 2 cfg0.N :=
  (StableHlo.after_of_forall_not_mem (b := Proc.devRef .tc main_v7) hostOps1 (W4 m ρ c) (by untouched)).trans
    (W4_arr m ρ c 2)

theorem V5_nx (c : Dev nD) : V5 m ρ c main_arg1 = m ((c : Thread nD τ).loc main_arg1) :=
  (StableHlo.after_of_forall_not_mem (b := Proc.devRef .tc main_arg1) hostOps1 (W4 m ρ c) (by untouched)).trans
    (W4_launch m ρ c main_arg1 (by decide) (by untouched) (by untouched) (by untouched))

theorem V5_lw (c : Dev nD) :
    (V5 m ρ c main_v9 : Cert.Spec.Arr ⟨2, ![13, 1]⟩)
      = fun j => (m ((c : Thread nD τ).loc main_arg3) : Cert.Spec.Arr ⟨2, ![1, 13]⟩) (ix2 (0 : Fin 1) (j 0)) := by
  refine funext fun (j : (⟨2, ![13, 1]⟩ : Shape).Idx) => ?_
  refine (congrFun (between_v9 (W4 m ρ c)) j).trans ((truncf_apply (ψ := .bf16) _ bitsLt_bf16_f32 j).trans ?_)
  rw [W4_arg3 m ρ c]
  exact (transpose10_apply _ _ j).trans
    (congrArg (fun u : Fin 1 => (m ((c : Thread nD τ).loc main_arg3) : Cert.Spec.Arr ⟨2, ![1, 13]⟩) (ix2 u (j 0)))
      (Fin.fin_one_eq_zero (j 1)))

theorem V5_lb (c : Dev nD) :
    (V5 m ρ c main_v10 : Cert.Spec.Arr ⟨2, ![1, 1]⟩)
      = fun _ => (m ((c : Thread nD τ).loc main_arg4) : Cert.Spec.Arr ⟨1, ![1]⟩) (ix1 (0 : Fin 1)) := by
  refine funext fun (j : (⟨2, ![1, 1]⟩ : Shape).Idx) => ?_
  refine (congrFun (between_v10 (W4 m ρ c)) j).trans ?_
  rw [W4_arg4 m ρ c]
  exact (shapeCast_row_apply _ _ j).trans
    (congrArg (fun u : Fin 1 => (m ((c : Thread nD τ).loc main_arg4) : Cert.Spec.Arr ⟨1, ![1]⟩) (ix1 u)) (Fin.fin_one_eq_zero (j 1)))

theorem V5_fn (c : Dev nD) : V5 m ρ c main_arg6 = m ((c : Thread nD τ).loc main_arg6) :=
  (StableHlo.after_of_forall_not_mem (b := Proc.devRef .tc main_arg6) hostOps1 (W4 m ρ c) (by untouched)).trans
    (W4_arg6 m ρ c)

theorem V5_ff (c : Dev nD) :
    (V5 m ρ c main_v12 : Cert.Spec.Arr ⟨2, ![1, 416]⟩)
      = fun j => (m ((c : Thread nD τ).loc main_arg6) : Cert.Spec.Arr ⟨2, ![13, 32]⟩)
          (ix2 (⟨(j 1).val / 32, by have := idx2_lt1 j; omega⟩ : Fin 13) (⟨(j 1).val % 32, by omega⟩ : Fin 32)) := by
  refine funext fun (j : (⟨2, ![1, 416]⟩ : Shape).Idx) => ?_
  refine (congrFun (between_v12 (W4 m ρ c)) j).trans ((truncf_apply (ψ := .bf16) _ bitsLt_bf16_f32 j).trans ?_)
  rw [W4_arg6 m ρ c]
  -- the row-major position of `(0, q)` in one row of 416 is `q`, that of `(q / 32, q % 32)` in 13 rows of 32 too
  refine shapeCast_apply _ shapeCasts_S13x32_S1x416 j _ ?_
  rw [Shape.rowMajor_val_two, Shape.rowMajor_val_two]
  have h0 : (j 0).val < 1 := (j 0).isLt
  have h1 : (j 1).val < 416 := (j 1).isLt
  show (j 1).val / 32 * 32 + (j 1).val % 32 = (j 0).val * 416 + (j 1).val
  omega

theorem V5_w1 (c : Dev nD) :
    (V5 m ρ c main_v14 : Cert.Spec.Arr ⟨2, ![1248, 512]⟩)
      = fun j => (m ((c : Thread nD τ).loc main_arg7) : Cert.Spec.Arr ⟨2, ![512, 1248]⟩) (ix2 (j 1) (j 0)) := by
  refine funext fun (j : (⟨2, ![1248, 512]⟩ : Shape).Idx) => ?_
  refine (congrFun (between_v14 (W4 m ρ c)) j).trans ((truncf_apply (ψ := .bf16) _ bitsLt_bf16_f32 j).trans ?_)
  rw [W4_arg7 m ρ c]
  exact transpose10_apply _ _ j

theorem V5_b1 (c : Dev nD) :
    (V5 m ρ c main_v17 : Cert.Spec.Arr ⟨2, ![1, 512]⟩)
      = fun j => (m ((c : Thread nD τ).loc main_arg8) : Cert.Spec.Arr ⟨1, ![512]⟩) (ix1 (j 1)) := by
  refine funext fun (j : (⟨2, ![1, 512]⟩ : Shape).Idx) => ?_
  refine (congrFun (between_v17 (W4 m ρ c)) j).trans ?_
  rw [W4_arg8 m ρ c]
  exact shapeCast_row_apply _ _ j

theorem V5_w2 (c : Dev nD) :
    (V5 m ρ c main_v16 : Cert.Spec.Arr ⟨2, ![512, 256]⟩)
      = fun j => (m ((c : Thread nD τ).loc main_arg9) : Cert.Spec.Arr ⟨2, ![256, 512]⟩) (ix2 (j 1) (j 0)) := by
  refine funext fun (j : (⟨2, ![512, 256]⟩ : Shape).Idx) => ?_
  refine (congrFun (between_v16 (W4 m ρ c)) j).trans ((truncf_apply (ψ := .bf16) _ bitsLt_bf16_f32 j).trans ?_)
  rw [W4_arg9 m ρ c]
  exact transpose10_apply _ _ j

theorem V5_b2 (c : Dev nD) :
    (V5 m ρ c main_v18 : Cert.Spec.Arr ⟨2, ![1, 256]⟩)
      = fun j => (m ((c : Thread nD τ).loc main_arg10) : Cert.Spec.Arr ⟨1, ![256]⟩) (ix1 (j 1)) := by
  refine funext fun (j : (⟨2, ![1, 256]⟩ : Shape).Idx) => ?_
  refine (congrFun (between_v18 (W4 m ρ c)) j).trans ?_
  rw [W4_arg10 m ρ c]
  exact shapeCast_row_apply _ _ j

theorem V5_wo (c : Dev nD) : V5 m ρ c main_arg11 = m ((c : Thread nD τ).loc main_arg11) :=
  (StableHlo.after_of_forall_not_mem (b := Proc.devRef .tc main_arg11) hostOps1 (W4 m ρ c) (by untouched)).trans
    (W4_launch m ρ c main_arg11 (by decide) (by untouched) (by untouched) (by untouched))

theorem V5_bo (c : Dev nD) :
    (V5 m ρ c main_v19 : Cert.Spec.Arr ⟨2, ![1, 1]⟩)
      = fun _ => (m ((c : Thread nD τ).loc main_arg12) : Cert.Spec.Arr ⟨1, ![1]⟩) (ix1 (0 : Fin 1)) := by
  refine funext fun (j : (⟨2, ![1, 1]⟩ : Shape).Idx) => ?_
  refine (congrFun (between_v19 (W4 m ρ c)) j).trans ?_
  rw [W4_arg12 m ρ c]
  exact (shapeCast_row_apply _ _ j).trans
    (congrArg (fun u : Fin 1 => (m ((c : Thread nD τ).loc main_arg12) : Cert.Spec.Arr ⟨1, ![1]⟩) (ix1 u)) (Fin.fin_one_eq_zero (j 1)))

end Cert.KernelIdeal.HostReads

end
-- ==== Proof.KernelValue.lean ====
import proofs.«404604_j83769042141642_2_alg».proof.Proof.Gen.KernelIdeal.Frame
import proofs.«404604_j83769042141642_2_alg».proof.Proof.Spec
import proofs.«404604_j83769042141642_2_alg».proof.Proof.GatherValue
import proofs.«404604_j83769042141642_2_alg».proof.Proof.FusedValue
import proofs.«404604_j83769042141642_2_alg».proof.Proof.HostReads
import Idealize.ShloMosaic.Lib.ValueIdx

noncomputable section

namespace Cert.KernelIdeal.KernelValue

open Cert.KernelIdeal Cert.KernelIdeal.Gen Idealize.ShloMosaic Idealize.ShloMosaic.ValueIdx Idealize.ShloMosaic.TcCoe Idealize.SL.Sem
open Cert.KernelIdeal.HostReads

/-!
# The kernel program's result as a function of its arguments

The second kernel's output array is the model output of the arrays it reads; those are the first kernel's output and the
host's re-laid weights; the first kernel's output is the stacked table looked up at the category indices. Composing the
three gives the result array at the last boundary as `Cert.Spec.model` of the thirteen argument arrays.
-/

variable (m : (ℓ : Loc nD τ sig) → Buf (Elt Ideal) ℓ) (ρ : Dev nD → PrngReg)

/-- A word whose signed reading lies in `[0, 100000)` has that unsigned reading. -/
theorem toNat_lt_of_range (x : BitVec 32) (h0 : 0 ≤ x.toInt) (h1 : x.toInt < 100000) : x.toNat < 100000 := by
  rw [BitVec.toInt_eq_toNat_cond] at h0 h1
  split at h0 <;> omega

/-- The first kernel's output array is the looked-up array, when every category index is in range. -/
theorem gathered_eq (c : Dev nD)
    (hr : ∀ i : S16384x26.Idx, 0 ≤ ((m ((c : Thread nD τ).loc main_arg0) : Vec Ideal S16384x26 .i32) i).toInt
      ∧ ((m ((c : Thread nD τ).loc main_arg0) : Vec Ideal S16384x26 .i32) i).toInt < 100000) :
    ((dat0 (F := Ideal) (V3 m ρ) c).arrAt 2 cfg0.N : Cert.Spec.Arr ⟨3, ![26, 33, 16384]⟩)
      = Cert.Spec.gath (Cert.Spec.table (m ((c : Thread nD τ).loc main_arg5)) (m ((c : Thread nD τ).loc main_arg2))) (m ((c : Thread nD τ).loc main_arg0)) := by
  funext j
  obtain ⟨f, e, b, rfl⟩ : ∃ (f : Fin 26) (e : Fin 33) (b : Fin 16384), j = ix3 f e b := ⟨j 0, j 1, j 2, eq_ix3 j⟩
  have hlt : ((m ((c : Thread nD τ).loc main_arg0) : Vec Ideal S16384x26 .i32) (ix2 b f)).toNat < 100000 :=
    toNat_lt_of_range _ (hr (ix2 b f)).1 (hr (ix2 b f)).2
  have hk : (V3 m ρ c main_v6 : Vec Ideal S26x1x16384 .i32) (ix3 f (0 : Fin 1) b)
      = BitVec.ofNat 32 (⟨((m ((c : Thread nD τ).loc main_arg0) : Vec Ideal S16384x26 .i32) (ix2 b f)).toNat, by omega⟩ : Fin 100352).val := by
    rw [V3_idx m ρ c f b]
    show _ = BitVec.ofNat 32 (BitVec.toNat _)
    rw [BitVec.ofNat_toNat, BitVec.setWidth_eq]
  refine (GatherValue.gathered_at (V3 m ρ) c f e b _ hk).trans ?_
  rw [V3_tbl m ρ c]
  have hmin : min ((m ((c : Thread nD τ).loc main_arg0) : Vec Ideal S16384x26 .i32) (ix2 b f)).toNat 100351
      = ((m ((c : Thread nD τ).loc main_arg0) : Vec Ideal S16384x26 .i32) (ix2 b f)).toNat := Nat.min_eq_left (by omega)
  exact congrArg (fun k : Fin 100352 => Cert.Spec.table (m ((c : Thread nD τ).loc main_arg5)) (m ((c : Thread nD τ).loc main_arg2)) (ix3 f e k)) (Fin.ext hmin.symm)

/-- THE KERNEL PROGRAM'S RESULT: the result array at the last boundary, row `b`, is the model output of the arguments. -/
theorem result_at (c : Dev nD)
    (hr : ∀ i : S16384x26.Idx, 0 ≤ ((m ((c : Thread nD τ).loc main_arg0) : Vec Ideal S16384x26 .i32) i).toInt
      ∧ ((m ((c : Thread nD τ).loc main_arg0) : Vec Ideal S16384x26 .i32) i).toInt < 100000) (b : Fin 16384) :
    (W6 m ρ c (Proc.devRef .tc main_v20) : Vec Ideal S16384x1 .f32) (ix2 b (0 : Fin 1))
      = Cert.Spec.model (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) b := by
  have e1 : (W6 m ρ c (Proc.devRef .tc main_v20) : Vec Ideal S16384x1 .f32) = (dat1 (F := Ideal) (V5 m ρ) c).arrAt 12 cfg1.N :=
    W6_arr m ρ c 12
  rw [e1, FusedValue.fused_at (V5 m ρ) c b, V5_g m ρ c, gathered_eq m ρ c hr, V5_nx m ρ c, V5_lw m ρ c, V5_lb m ρ c,
    V5_fn m ρ c, V5_ff m ρ c, V5_w1 m ρ c, V5_b1 m ρ c, V5_w2 m ρ c, V5_b2 m ρ c, V5_wo m ρ c, V5_bo m ρ c]
  rfl

/-- The same for the whole result array. -/
theorem result_eq (c : Dev nD)
    (hr : ∀ i : S16384x26.Idx, 0 ≤ ((m ((c : Thread nD τ).loc main_arg0) : Vec Ideal S16384x26 .i32) i).toInt
      ∧ ((m ((c : Thread nD τ).loc main_arg0) : Vec Ideal S16384x26 .i32) i).toInt < 100000) :
    (W6 m ρ c (Proc.devRef .tc main_v20) : Vec Ideal S16384x1 .f32)
      = fun j => Cert.Spec.model (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (j 0) := by
  funext j
  obtain ⟨b, z, rfl⟩ : ∃ (b : Fin 16384) (z : Fin 1), j = ix2 b z := ⟨j 0, j 1, eq_ix2 j⟩
  obtain rfl : z = 0 := Subsingleton.elim _ _
  exact result_at m ρ c hr b

end Cert.KernelIdeal.KernelValue

end
-- ==== Proof.RefLinFmLib.lean ====
import proofs.«404604_j83769042141642_2_alg».proof.Proof.Spec

noncomputable section

/-! ## Pure reading lemmas of the specification: the stacked table under an in-range category -/

namespace Cert.RefLinFmLib

open scoped BigOperators
open Idealize.ShloMosaic Idealize.ShloMosaic.ValueIdx Cert.Spec

/-- A sum over the 39 field vectors is the sum over the 26 looked-up ones plus the sum over the 13 numeric ones. -/
theorem sum_fin39 {M : Type*} [AddCommMonoid M] (c : Fin 39 → M) :
    ∑ k : Fin 39, c k = (∑ f : Fin 26, c ⟨f.val, by omega⟩) + ∑ j : Fin 13, c ⟨26 + j.val, by omega⟩ :=
  Fin.sum_univ_add (a := 26) (b := 13) c

/-- A 32-bit word whose signed reading lies in [0, 100000) reads the same unsigned, and that reading is below 100000. -/
theorem word_range (a : BitVec 32) (h : 0 ≤ a.toInt ∧ a.toInt < 100000) :
    a.toInt.toNat = a.toNat ∧ a.toNat < 100000 := by
  obtain ⟨h0, h1⟩ := h
  have hl : a.toNat < 2 ^ 32 := a.isLt
  by_cases hc : 2 * a.toNat < 2 ^ 32
  · have e : a.toInt = (a.toNat : Int) := BitVec.toInt_eq_toNat_of_lt hc
    rw [e] at h1 ⊢
    exact ⟨by omega, by omega⟩
  · exfalso
    have e : a.toInt = (a.toNat : Int) - ((2 ^ 32 : Nat) : Int) := by
      rw [BitVec.toInt_eq_toNat_cond, if_neg hc]
    omega

/-- The stacked table at an embedding column and a category below 100000 is the embedding table's entry. -/
theorem table_emb (fmc : Arr ⟨3, ![26, 100000, 32]⟩) (lc : Arr ⟨2, ![26, 100000]⟩) (f : Fin 26) (e : Fin 32)
    (k : Fin 100352) (hk : k.val < 100000) :
    table fmc lc (ix3 f (Fin.castLE (by decide) e : Fin 33) k) = fmc (ix3 f (⟨k.val, hk⟩ : Fin 100000) e) := by
  unfold table
  split
  · split
    · rfl
    · rename_i h1 h2; exact absurd e.isLt h2
  · rename_i h1; exact absurd hk h1

/-- The stacked table at column 32 and a category below 100000 is the linear-weight table's entry. -/
theorem table_lin (fmc : Arr ⟨3, ![26, 100000, 32]⟩) (lc : Arr ⟨2, ![26, 100000]⟩) (f : Fin 26)
    (k : Fin 100352) (hk : k.val < 100000) :
    table fmc lc (ix3 f (32 : Fin 33) k) = lc (ix2 f (⟨k.val, hk⟩ : Fin 100000)) := by
  unfold table
  split
  · split
    · rename_i h1 h2; exact absurd h2 (show ¬ ((32 : Fin 33).val < 32) by decide)
    · rfl
  · rename_i h1; exact absurd hk h1

/-- The looked-up array at an embedding column, for a category index in range: the embedding table's row at that
    category (the clamp to the padded extent is the identity below 100000). -/
theorem gath_table_emb (fmc : Arr ⟨3, ![26, 100000, 32]⟩) (lc : Arr ⟨2, ![26, 100000]⟩)
    (cx : (⟨2, ![16384, 26]⟩ : Shape).Idx → BitVec 32) (b : Fin 16384) (f : Fin 26) (e : Fin 32)
    (h : (cx (ix2 b f)).toNat < 100000) :
    gath (table fmc lc) cx (ix3 f (Fin.castLE (by decide) e : Fin 33) b)
      = fmc (ix3 f (⟨(cx (ix2 b f)).toNat, h⟩ : Fin 100000) e) := by
  have hm : min (cx (ix2 b f)).toNat 100351 = (cx (ix2 b f)).toNat := Nat.min_eq_left (by omega)
  show table fmc lc (ix3 f (Fin.castLE (by decide) e : Fin 33)
      (⟨min (cx (ix2 b f)).toNat 100351, by omega⟩ : Fin 100352)) = _
  rw [table_emb fmc lc f e _ (show min (cx (ix2 b f)).toNat 100351 < 100000 by omega)]
  exact congrArg fmc (congrArg (fun k : Fin 100000 => ix3 f k e) (Fin.ext hm))

/-- The looked-up array at column 32, for a category index in range: the linear-weight table's entry at that
    category. -/
theorem gath_table_lin (fmc : Arr ⟨3, ![26, 100000, 32]⟩) (lc : Arr ⟨2, ![26, 100000]⟩)
    (cx : (⟨2, ![16384, 26]⟩ : Shape).Idx → BitVec 32) (b : Fin 16384) (f : Fin 26)
    (h : (cx (ix2 b f)).toNat < 100000) :
    gath (table fmc lc) cx (ix3 f (32 : Fin 33) b) = lc (ix2 f (⟨(cx (ix2 b f)).toNat, h⟩ : Fin 100000)) := by
  have hm : min (cx (ix2 b f)).toNat 100351 = (cx (ix2 b f)).toNat := Nat.min_eq_left (by omega)
  show table fmc lc (ix3 f (32 : Fin 33) (⟨min (cx (ix2 b f)).toNat 100351, by omega⟩ : Fin 100352)) = _
  rw [table_lin fmc lc f _ (show min (cx (ix2 b f)).toNat 100351 < 100000 by omega)]
  exact congrArg lc (congrArg (fun k : Fin 100000 => ix2 f k) (Fin.ext hm))

end Cert.RefLinFmLib

end
-- ==== Proof.RefLinFmGather.lean ====
import proofs.«404604_j83769042141642_2_alg».proof.Proof.Gen.ReferenceIdeal.Read
import proofs.«404604_j83769042141642_2_alg».proof.Proof.RefLinFmLib
import Idealize.ShloMosaic.Lib.ValueIdx
import Idealize.ShloMosaic.Lib.Pipeline.Value
import Idealize.ShloMosaic.Lib.StableHlo.Predicate
import Idealize.ShloMosaic.PureOps.Ideal.Laws

noncomputable section

/-! ## The reference's two gathers read at an index -/

namespace Cert.ReferenceIdeal.RefLinFmGather

open Cert.ReferenceIdeal Cert.ReferenceIdeal.Gen Idealize.ShloMosaic Idealize.ShloMosaic.ValueIdx
open Idealize.ShloMosaic.StableHlo.Predicate (slt_iff_toNat toInt_ofNat_small)

/-! ### The gather with a two-component start index (field, category), both axes collapsed -/

/-- The gather from the 26×100000 table read at (b, f): the table at the two components of the start index
    `idx[b, f, ·]`, each read signed and clamped to its axis. -/
theorem gather2_apply {α : Type} {w : Nat} (x : S26x100000.Idx → α) (idx : IVec S16384x26x2 w) (b : Fin 16384) (f : Fin 26) :
    Host.gather gather_S26x100000_S16384x26x2_S16384x26_n_01_n_n_01_2_11 x idx (ix2 b f)
      = x (ix2 (⟨min (idx (ix3 b f (0 : Fin 2))).toInt.toNat 25, by omega⟩ : Fin 26)
               (⟨min (idx (ix3 b f (1 : Fin 2))).toInt.toNat 99999, by omega⟩ : Fin 100000)) := by
  unfold Host.gather
  refine congrArg x (funext fun a => Fin.ext ?_)
  match a with
  | ⟨0, _⟩ =>
    show gather_S26x100000_S16384x26x2_S16384x26_n_01_n_n_01_2_11.start (ix2 b f) idx 0 + gather_S26x100000_S16384x26x2_S16384x26_n_01_n_n_01_2_11.batchCoord (ix2 b f) 0 + gather_S26x100000_S16384x26x2_S16384x26_n_01_n_n_01_2_11.offCoord (ix2 b f) 0 = _
    rw [GatherDims.batchCoord_eq_zero gather_S26x100000_S16384x26x2_S16384x26_n_01_n_n_01_2_11 (ix2 b f) 0 (by decide),
      GatherDims.offCoord_eq_zero gather_S26x100000_S16384x26x2_S16384x26_n_01_n_n_01_2_11 (ix2 b f) 0 (by decide)]
    simp only [Nat.add_zero]
    unfold GatherDims.start
    rw [dif_pos (show (0 : Fin S26x100000.rank) ∈ gather_S26x100000_S16384x26x2_S16384x26_n_01_n_n_01_2_11.startIndexMap by decide)]
    have hsi : gather_S26x100000_S16384x26x2_S16384x26_n_01_n_n_01_2_11.siIdx (ix2 b f)
        ⟨List.idxOf (0 : Fin S26x100000.rank) gather_S26x100000_S16384x26x2_S16384x26_n_01_n_n_01_2_11.startIndexMap, List.idxOf_lt_length_iff.2 (by decide)⟩
          = ix3 b f (0 : Fin 2) := by
      funext c; refine Fin.ext ?_
      match c with
      | ⟨0, _⟩ => rfl
      | ⟨1, _⟩ => rfl
      | ⟨2, _⟩ => rfl
    rw [hsi]
    rfl
  | ⟨1, _⟩ =>
    show gather_S26x100000_S16384x26x2_S16384x26_n_01_n_n_01_2_11.start (ix2 b f) idx 1 + gather_S26x100000_S16384x26x2_S16384x26_n_01_n_n_01_2_11.batchCoord (ix2 b f) 1 + gather_S26x100000_S16384x26x2_S16384x26_n_01_n_n_01_2_11.offCoord (ix2 b f) 1 = _
    rw [GatherDims.batchCoord_eq_zero gather_S26x100000_S16384x26x2_S16384x26_n_01_n_n_01_2_11 (ix2 b f) 1 (by decide),
      GatherDims.offCoord_eq_zero gather_S26x100000_S16384x26x2_S16384x26_n_01_n_n_01_2_11 (ix2 b f) 1 (by decide)]
    simp only [Nat.add_zero]
    unfold GatherDims.start
    rw [dif_pos (show (1 : Fin S26x100000.rank) ∈ gather_S26x100000_S16384x26x2_S16384x26_n_01_n_n_01_2_11.startIndexMap by decide)]
    have hsi : gather_S26x100000_S16384x26x2_S16384x26_n_01_n_n_01_2_11.siIdx (ix2 b f)
        ⟨List.idxOf (1 : Fin S26x100000.rank) gather_S26x100000_S16384x26x2_S16384x26_n_01_n_n_01_2_11.startIndexMap, List.idxOf_lt_length_iff.2 (by decide)⟩
          = ix3 b f (1 : Fin 2) := by
      funext c; refine Fin.ext ?_
      match c with
      | ⟨0, _⟩ => rfl
      | ⟨1, _⟩ => rfl
      | ⟨2, _⟩ => rfl
    rw [hsi]
    rfl

/-- The gather from the 26×100000×32 table read at (b, f, e): the start index `idx[b, f, ·]` names field and
    category as above, and the one offset axis carries the column e through. -/
theorem gather3_apply {α : Type} {w : Nat} (x : S26x100000x32.Idx → α) (idx : IVec S16384x26x2 w)
    (b : Fin 16384) (f : Fin 26) (e : Fin 32) :
    Host.gather gather_S26x100000x32_S16384x26x2_S16384x26x32_2_01_n_n_01_2_1132 x idx (ix3 b f e)
      = x (ix3 (⟨min (idx (ix3 b f (0 : Fin 2))).toInt.toNat 25, by omega⟩ : Fin 26)
               (⟨min (idx (ix3 b f (1 : Fin 2))).toInt.toNat 99999, by omega⟩ : Fin 100000) e) := by
  unfold Host.gather
  refine congrArg x (funext fun a => Fin.ext ?_)
  match a with
  | ⟨0, _⟩ =>
    show gather_S26x100000x32_S16384x26x2_S16384x26x32_2_01_n_n_01_2_1132.start (ix3 b f e) idx 0 + gather_S26x100000x32_S16384x26x2_S16384x26x32_2_01_n_n_01_2_1132.batchCoord (ix3 b f e) 0 + gather_S26x100000x32_S16384x26x2_S16384x26x32_2_01_n_n_01_2_1132.offCoord (ix3 b f e) 0 = _
    rw [GatherDims.batchCoord_eq_zero gather_S26x100000x32_S16384x26x2_S16384x26x32_2_01_n_n_01_2_1132 (ix3 b f e) 0 (by decide),
      GatherDims.offCoord_eq_zero gather_S26x100000x32_S16384x26x2_S16384x26x32_2_01_n_n_01_2_1132 (ix3 b f e) 0 (by decide)]
    simp only [Nat.add_zero]
    unfold GatherDims.start
    rw [dif_pos (show (0 : Fin S26x100000x32.rank) ∈ gather_S26x100000x32_S16384x26x2_S16384x26x32_2_01_n_n_01_2_1132.startIndexMap by decide)]
    have hsi : gather_S26x100000x32_S16384x26x2_S16384x26x32_2_01_n_n_01_2_1132.siIdx (ix3 b f e)
        ⟨List.idxOf (0 : Fin S26x100000x32.rank) gather_S26x100000x32_S16384x26x2_S16384x26x32_2_01_n_n_01_2_1132.startIndexMap, List.idxOf_lt_length_iff.2 (by decide)⟩
          = ix3 b f (0 : Fin 2) := by
      funext c; refine Fin.ext ?_
      match c with
      | ⟨0, _⟩ => rfl
      | ⟨1, _⟩ => rfl
      | ⟨2, _⟩ => rfl
    rw [hsi]
    rfl
  | ⟨1, _⟩ =>
    show gather_S26x100000x32_S16384x26x2_S16384x26x32_2_01_n_n_01_2_1132.start (ix3 b f e) idx 1 + gather_S26x100000x32_S16384x26x2_S16384x26x32_2_01_n_n_01_2_1132.batchCoord (ix3 b f e) 1 + gather_S26x100000x32_S16384x26x2_S16384x26x32_2_01_n_n_01_2_1132.offCoord (ix3 b f e) 1 = _
    rw [GatherDims.batchCoord_eq_zero gather_S26x100000x32_S16384x26x2_S16384x26x32_2_01_n_n_01_2_1132 (ix3 b f e) 1 (by decide),
      GatherDims.offCoord_eq_zero gather_S26x100000x32_S16384x26x2_S16384x26x32_2_01_n_n_01_2_1132 (ix3 b f e) 1 (by decide)]
    simp only [Nat.add_zero]
    unfold GatherDims.start
    rw [dif_pos (show (1 : Fin S26x100000x32.rank) ∈ gather_S26x100000x32_S16384x26x2_S16384x26x32_2_01_n_n_01_2_1132.startIndexMap by decide)]
    have hsi : gather_S26x100000x32_S16384x26x2_S16384x26x32_2_01_n_n_01_2_1132.siIdx (ix3 b f e)
        ⟨List.idxOf (1 : Fin S26x100000x32.rank) gather_S26x100000x32_S16384x26x2_S16384x26x32_2_01_n_n_01_2_1132.startIndexMap, List.idxOf_lt_length_iff.2 (by decide)⟩
          = ix3 b f (1 : Fin 2) := by
      funext c; refine Fin.ext ?_
      match c with
      | ⟨0, _⟩ => rfl
      | ⟨1, _⟩ => rfl
      | ⟨2, _⟩ => rfl
    rw [hsi]
    rfl
  | ⟨2, _⟩ =>
    show gather_S26x100000x32_S16384x26x2_S16384x26x32_2_01_n_n_01_2_1132.start (ix3 b f e) idx 2 + gather_S26x100000x32_S16384x26x2_S16384x26x32_2_01_n_n_01_2_1132.batchCoord (ix3 b f e) 2 + gather_S26x100000x32_S16384x26x2_S16384x26x32_2_01_n_n_01_2_1132.offCoord (ix3 b f e) 2 = _
    rw [GatherDims.batchCoord_eq_zero gather_S26x100000x32_S16384x26x2_S16384x26x32_2_01_n_n_01_2_1132 (ix3 b f e) 2 (by decide)]
    unfold GatherDims.start
    rw [dif_neg (show ¬ (2 : Fin S26x100000x32.rank) ∈ gather_S26x100000x32_S16384x26x2_S16384x26x32_2_01_n_n_01_2_1132.startIndexMap by decide)]
    unfold GatherDims.offCoord
    rw [dif_pos (show (2 : Fin S26x100000x32.rank) ∈ gather_S26x100000x32_S16384x26x2_S16384x26x32_2_01_n_n_01_2_1132.sKept by decide)]
    simp only [Nat.add_zero, Nat.zero_add]
    rfl

/-! ### The start indices: component 0 is the field, component 1 the category -/

/-- A small non-negative word is not below zero, read signed. -/
theorem not_slt_zero (a : BitVec 32) (ha : a.toNat < 2 ^ 31) : IntOp.cmpi .slt a 0#32 = 0#1 :=
  eq_zero_of_ne_one fun h => absurd ((slt_iff_toNat ha (by decide)).mp h) (Nat.not_lt_zero _)

/-- The field word: `select(f < 0, f + 26, f)` of the word of a field number is that word. -/
theorem field_word (f : Fin 26) :
    Scalar.select (IntOp.cmpi .slt (BitVec.ofNat 32 f.val) 0#32) (IntOp.addi (BitVec.ofNat 32 f.val) 26#32)
      (BitVec.ofNat 32 f.val) = BitVec.ofNat 32 f.val := by
  rw [not_slt_zero (BitVec.ofNat 32 f.val) (by have := f.isLt; rw [BitVec.toNat_ofNat]; omega), select_zero]

/-- The category word: `select(c < 0, c + 100000, c)` of a category in range is the category. -/
theorem cat_word (a : BitVec 32) (h : 0 ≤ a.toInt ∧ a.toInt < 100000) :
    Scalar.select (IntOp.cmpi .slt a 0#32) (IntOp.addi a 100000#32) a = a := by
  rw [not_slt_zero a (by have := (Cert.RefLinFmLib.word_range a h).2; omega), select_zero]

/-- Component 0 of the first gather's start index at (b, f) is the field number. -/
theorem v15_field (x0 : (⟨S16384x26, .i32⟩ : BufTy).Contents (Elt Ideal)) (b : Fin 16384) (f : Fin 26) :
    Read.val_main_v15 (F := Ideal) x0 (ix3 b f (0 : Fin 2)) = BitVec.ofNat 32 f.val := by
  unfold Read.val_main_v15
  have h := concatenate_pair_apply_left (t := S16384x26x2) (s₁ := S16384x26x1) (s₂ := S16384x26x1) (2 : Fin 3)
    (Read.val_main_v13 (F := Ideal)) (Read.val_main_v14 (F := Ideal) x0)
    concatenates_S16384x26x1_S16384x26x1_S16384x26x2_d2 (ix3 b f (0 : Fin 2)) rfl (ix3 b f (0 : Fin 1))
    (fun a => match a with | ⟨0, _⟩ => rfl | ⟨1, _⟩ => rfl | ⟨2, _⟩ => rfl)
  refine h.trans ?_
  rw [Read.val_main_v13_apply, Read.val_main_v12_apply, Read.val_main_v6_apply, Read.val_main_v3_apply,
    Read.val_main_v5_apply, Read.val_main_v1_apply, Read.val_main_v0_apply, Read.val_main_v2_apply, Read.val_main_c_apply,
    Read.val_main_v4_apply, Read.val_main_c_0_apply]
  exact field_word f

/-- Component 1 of the first gather's start index at (b, f) is the category index, when it is in range. -/
theorem v15_cat (x0 : (⟨S16384x26, .i32⟩ : BufTy).Contents (Elt Ideal))
    (hr : ∀ i : S16384x26.Idx, 0 ≤ (x0 i).toInt ∧ (x0 i).toInt < 100000) (b : Fin 16384) (f : Fin 26) :
    Read.val_main_v15 (F := Ideal) x0 (ix3 b f (1 : Fin 2)) = x0 (ix2 b f) := by
  unfold Read.val_main_v15
  have h := concatenate_pair_apply_right (t := S16384x26x2) (s₁ := S16384x26x1) (s₂ := S16384x26x1) (2 : Fin 3)
    (Read.val_main_v13 (F := Ideal)) (Read.val_main_v14 (F := Ideal) x0)
    concatenates_S16384x26x1_S16384x26x1_S16384x26x2_d2 (ix3 b f (1 : Fin 2)) rfl rfl (ix3 b f (0 : Fin 1))
    (fun a ha => match a, ha with | ⟨0, _⟩, _ => rfl | ⟨1, _⟩, _ => rfl | ⟨2, _⟩, ha => (ha rfl).elim) rfl
  refine h.trans ?_
  have e14 : Read.idx_main_v14 (ix3 b f (0 : Fin 1)) = ix2 b f :=
    funext fun a => Fin.ext (by match a with | ⟨0, _⟩ => rfl | ⟨1, _⟩ => rfl)
  rw [Read.val_main_v14_apply, e14, Read.val_main_v11_apply, Read.val_main_v8_apply, Read.val_main_v10_apply,
    Read.val_main_v7_apply, Read.val_main_c_1_apply, Read.val_main_v9_apply, Read.val_main_c_2_apply]
  exact cat_word _ (hr (ix2 b f))

/-- Component 0 of the second gather's start index at (b, f) is the field number. -/
theorem v38_field (x0 : (⟨S16384x26, .i32⟩ : BufTy).Contents (Elt Ideal)) (b : Fin 16384) (f : Fin 26) :
    Read.val_main_v38 (F := Ideal) x0 (ix3 b f (0 : Fin 2)) = BitVec.ofNat 32 f.val := by
  unfold Read.val_main_v38
  have h := concatenate_pair_apply_left (t := S16384x26x2) (s₁ := S16384x26x1) (s₂ := S16384x26x1) (2 : Fin 3)
    (Read.val_main_v36 (F := Ideal)) (Read.val_main_v37 (F := Ideal) x0)
    concatenates_S16384x26x1_S16384x26x1_S16384x26x2_d2 (ix3 b f (0 : Fin 2)) rfl (ix3 b f (0 : Fin 1))
    (fun a => match a with | ⟨0, _⟩ => rfl | ⟨1, _⟩ => rfl | ⟨2, _⟩ => rfl)
  refine h.trans ?_
  rw [Read.val_main_v36_apply, Read.val_main_v35_apply, Read.val_main_v29_apply, Read.val_main_v26_apply,
    Read.val_main_v28_apply, Read.val_main_v1_apply, Read.val_main_v0_apply, Read.val_main_v25_apply, Read.val_main_c_3_apply,
    Read.val_main_v27_apply, Read.val_main_c_4_apply]
  exact field_word f

/-- Component 1 of the second gather's start index at (b, f) is the category index, when it is in range. -/
theorem v38_cat (x0 : (⟨S16384x26, .i32⟩ : BufTy).Contents (Elt Ideal))
    (hr : ∀ i : S16384x26.Idx, 0 ≤ (x0 i).toInt ∧ (x0 i).toInt < 100000) (b : Fin 16384) (f : Fin 26) :
    Read.val_main_v38 (F := Ideal) x0 (ix3 b f (1 : Fin 2)) = x0 (ix2 b f) := by
  unfold Read.val_main_v38
  have h := concatenate_pair_apply_right (t := S16384x26x2) (s₁ := S16384x26x1) (s₂ := S16384x26x1) (2 : Fin 3)
    (Read.val_main_v36 (F := Ideal)) (Read.val_main_v37 (F := Ideal) x0)
    concatenates_S16384x26x1_S16384x26x1_S16384x26x2_d2 (ix3 b f (1 : Fin 2)) rfl rfl (ix3 b f (0 : Fin 1))
    (fun a ha => match a, ha with | ⟨0, _⟩, _ => rfl | ⟨1, _⟩, _ => rfl | ⟨2, _⟩, ha => (ha rfl).elim) rfl
  refine h.trans ?_
  have e37 : Read.idx_main_v37 (ix3 b f (0 : Fin 1)) = ix2 b f :=
    funext fun a => Fin.ext (by match a with | ⟨0, _⟩ => rfl | ⟨1, _⟩ => rfl)
  rw [Read.val_main_v37_apply, e37, Read.val_main_v34_apply, Read.val_main_v31_apply, Read.val_main_v33_apply,
    Read.val_main_v30_apply, Read.val_main_c_5_apply, Read.val_main_v32_apply, Read.val_main_c_6_apply]
  exact cat_word _ (hr (ix2 b f))

/-! ### The two looked-up arrays of the reference at an index -/

/-- The clamped field component is the field. -/
theorem field_clamp (f : Fin 26) : min (BitVec.ofNat 32 f.val).toInt.toNat 25 = f.val := by
  have hf := f.isLt
  rw [toInt_ofNat_small f.val (by omega)]
  omega

/-- The clamped category component is the category, when it is in range. -/
theorem cat_clamp (a : BitVec 32) (h : 0 ≤ a.toInt ∧ a.toInt < 100000) : min a.toInt.toNat 99999 = a.toNat := by
  obtain ⟨e, hlt⟩ := Cert.RefLinFmLib.word_range a h
  rw [e]; omega

/-- The looked-up linear weights of the reference at (b, f): the table's entry at field f and the category of row b. -/
theorem v16_apply (x0 : (⟨S16384x26, .i32⟩ : BufTy).Contents (Elt Ideal)) (x2 : (⟨S26x100000, .f32⟩ : BufTy).Contents (Elt Ideal))
    (hr : ∀ i : S16384x26.Idx, 0 ≤ (x0 i).toInt ∧ (x0 i).toInt < 100000) (b : Fin 16384) (f : Fin 26) :
    Read.val_main_v16 (F := Ideal) x0 x2 (ix2 b f)
      = x2 (ix2 f (⟨(x0 (ix2 b f)).toNat, (Cert.RefLinFmLib.word_range _ (hr (ix2 b f))).2⟩ : Fin 100000)) := by
  unfold Read.val_main_v16
  refine (gather2_apply x2 (Read.val_main_v15 (F := Ideal) x0) b f).trans ?_
  refine congrArg x2 (funext fun a => Fin.ext ?_)
  match a with
  | ⟨0, _⟩ =>
    show min (Read.val_main_v15 (F := Ideal) x0 (ix3 b f (0 : Fin 2))).toInt.toNat 25 = f.val
    rw [v15_field]; exact field_clamp f
  | ⟨1, _⟩ =>
    show min (Read.val_main_v15 (F := Ideal) x0 (ix3 b f (1 : Fin 2))).toInt.toNat 99999 = (x0 (ix2 b f)).toNat
    rw [v15_cat x0 hr]; exact cat_clamp _ (hr (ix2 b f))

/-- The looked-up embeddings of the reference at (b, f, e): the table's entry at field f, the category of row b and
    column e. -/
theorem v39_apply (x0 : (⟨S16384x26, .i32⟩ : BufTy).Contents (Elt Ideal)) (x5 : (⟨S26x100000x32, .f32⟩ : BufTy).Contents (Elt Ideal))
    (hr : ∀ i : S16384x26.Idx, 0 ≤ (x0 i).toInt ∧ (x0 i).toInt < 100000) (b : Fin 16384) (f : Fin 26) (e : Fin 32) :
    Read.val_main_v39 (F := Ideal) x0 x5 (ix3 b f e)
      = x5 (ix3 f (⟨(x0 (ix2 b f)).toNat, (Cert.RefLinFmLib.word_range _ (hr (ix2 b f))).2⟩ : Fin 100000) e) := by
  unfold Read.val_main_v39
  refine (gather3_apply x5 (Read.val_main_v38 (F := Ideal) x0) b f e).trans ?_
  refine congrArg x5 (funext fun a => Fin.ext ?_)
  match a with
  | ⟨0, _⟩ =>
    show min (Read.val_main_v38 (F := Ideal) x0 (ix3 b f (0 : Fin 2))).toInt.toNat 25 = f.val
    rw [v38_field]; exact field_clamp f
  | ⟨1, _⟩ =>
    show min (Read.val_main_v38 (F := Ideal) x0 (ix3 b f (1 : Fin 2))).toInt.toNat 99999 = (x0 (ix2 b f)).toNat
    rw [v38_cat x0 hr]; exact cat_clamp _ (hr (ix2 b f))
  | ⟨2, _⟩ => rfl

end Cert.ReferenceIdeal.RefLinFmGather

end
-- ==== Proof.RefLinFm.lean ====
import proofs.«404604_j83769042141642_2_alg».proof.Proof.Gen.ReferenceIdeal.Read
import proofs.«404604_j83769042141642_2_alg».proof.Proof.Spec
import proofs.«404604_j83769042141642_2_alg».proof.Proof.RefLinFmLib
import proofs.«404604_j83769042141642_2_alg».proof.Proof.RefLinFmGather
import Idealize.ShloMosaic.Lib.ValueIdx
import Idealize.ShloMosaic.Lib.Pipeline.Value
import Idealize.ShloMosaic.PureOps.Ideal.Laws

noncomputable section

namespace Cert.ReferenceIdeal.RefLinFm

open Cert.ReferenceIdeal Idealize.ShloMosaic Idealize.ShloMosaic.ValueIdx

section Fields

open scoped BigOperators
open Cert.ReferenceIdeal.Gen Cert.RefLinFmLib Cert.ReferenceIdeal.RefLinFmGather

/-! ## The 39 field vectors of the reference: 26 looked-up rows, then 13 numeric embeddings scaled by their feature -/

/-- Field k < 26 of the concatenated array is the looked-up embedding row. -/
theorem v46_emb (x0 : (⟨S16384x26, .i32⟩ : BufTy).Contents (Elt Ideal)) (x1 : (⟨S16384x13, .f32⟩ : BufTy).Contents (Elt Ideal)) (x5 : (⟨S26x100000x32, .f32⟩ : BufTy).Contents (Elt Ideal)) (x6 : (⟨S13x32, .f32⟩ : BufTy).Contents (Elt Ideal))
    (hr : ∀ i : S16384x26.Idx, 0 ≤ (x0 i).toInt ∧ (x0 i).toInt < 100000) (b : Fin 16384) (f : Fin 26) (e : Fin 32) :
    Read.val_main_v46 (F := Ideal) x0 x1 x5 x6 (ix3 b (⟨f.val, by omega⟩ : Fin 39) e)
      = x5 (ix3 f (⟨(x0 (ix2 b f)).toNat, (word_range _ (hr (ix2 b f))).2⟩ : Fin 100000) e) := by
  unfold Read.val_main_v46
  have h := concatenate_pair_apply_left (t := S16384x39x32) (s₁ := S16384x26x32) (s₂ := S16384x13x32) (1 : Fin 3)
    (Read.val_main_v39 (F := Ideal) x0 x5) (Read.val_main_v45 (F := Ideal) x1 x6)
    concatenates_S16384x26x32_S16384x13x32_S16384x39x32_d1 (ix3 b (⟨f.val, by omega⟩ : Fin 39) e) rfl (ix3 b f e)
    (fun a => match a with | ⟨0, _⟩ => rfl | ⟨1, _⟩ => rfl | ⟨2, _⟩ => rfl)
  exact h.trans (v39_apply x0 x5 hr b f e)

/-- Field 26 + j of the concatenated array is the numeric embedding of feature j times the feature. -/
theorem v46_num (x0 : (⟨S16384x26, .i32⟩ : BufTy).Contents (Elt Ideal)) (x1 : (⟨S16384x13, .f32⟩ : BufTy).Contents (Elt Ideal)) (x5 : (⟨S26x100000x32, .f32⟩ : BufTy).Contents (Elt Ideal)) (x6 : (⟨S13x32, .f32⟩ : BufTy).Contents (Elt Ideal))
    (b : Fin 16384) (j : Fin 13) (e : Fin 32) :
    Read.val_main_v46 (F := Ideal) x0 x1 x5 x6 (ix3 b (⟨26 + j.val, by omega⟩ : Fin 39) e)
      = x6 (ix2 j e) * x1 (ix2 b j) := by
  unfold Read.val_main_v46
  have h := concatenate_pair_apply_right (t := S16384x39x32) (s₁ := S16384x26x32) (s₂ := S16384x13x32) (1 : Fin 3)
    (Read.val_main_v39 (F := Ideal) x0 x5) (Read.val_main_v45 (F := Ideal) x1 x6)
    concatenates_S16384x26x32_S16384x13x32_S16384x39x32_d1 (ix3 b (⟨26 + j.val, by omega⟩ : Fin 39) e) rfl rfl (ix3 b j e)
    (fun a ha => match a, ha with | ⟨0, _⟩, _ => rfl | ⟨1, _⟩, ha => (ha rfl).elim | ⟨2, _⟩, _ => rfl)
    (Nat.add_comm _ _)
  refine h.trans ?_
  have e41 : Read.idx_main_v40 (Read.idx_main_v41 (ix3 b j e)) = ix2 j e :=
    funext fun a => Fin.ext (by match a with | ⟨0, _⟩ => rfl | ⟨1, _⟩ => rfl)
  have e44 : Read.idx_main_v43 (Read.idx_main_v44 (ix3 b j e)) = ix2 b j :=
    funext fun a => Fin.ext (by match a with | ⟨0, _⟩ => rfl | ⟨1, _⟩ => rfl)
  show Read.val_main_v41 (F := Ideal) x6 (ix3 b j e) * Read.val_main_v44 (F := Ideal) x1 (ix3 b j e) = _
  rw [Read.val_main_v41_apply, Read.val_main_v40_apply, Read.val_main_v44_apply, Read.val_main_v43_apply, e41, e44]

/-- Column e of the sum of the 39 field vectors of row b, in the reference. -/
theorem v47_eq (x0 : (⟨S16384x26, .i32⟩ : BufTy).Contents (Elt Ideal)) (x1 : (⟨S16384x13, .f32⟩ : BufTy).Contents (Elt Ideal)) (x2 : (⟨S26x100000, .f32⟩ : BufTy).Contents (Elt Ideal)) (x5 : (⟨S26x100000x32, .f32⟩ : BufTy).Contents (Elt Ideal)) (x6 : (⟨S13x32, .f32⟩ : BufTy).Contents (Elt Ideal))
    (hr : ∀ i : S16384x26.Idx, 0 ≤ (x0 i).toInt ∧ (x0 i).toInt < 100000) (b : Fin 16384) (e : Fin 32) :
    Read.val_main_v47 (F := Ideal) x0 x1 x5 x6 (ix2 b e)
      = Cert.Spec.sT (Cert.Spec.gath (Cert.Spec.table x5 x2) x0) x1 x6 b e := by
  rw [Read.val_main_v47_apply, Read.val_main_cst_7_apply, sum_fin39]
  unfold Cert.Spec.sT
  simp only [Ideal.ofBits_def, Ideal.ofBits_zero_f32, zero_add]
  refine congrArg₂ (· + ·) (Finset.sum_congr rfl fun f _ => ?_) (Finset.sum_congr rfl fun j _ => ?_)
  · have ei : Read.idx_main_v47 (ix2 b e) (⟨f.val, by omega⟩ : Fin 39) = ix3 b (⟨f.val, by omega⟩ : Fin 39) e :=
      funext fun a => Fin.ext (by match a with | ⟨0, _⟩ => rfl | ⟨1, _⟩ => rfl | ⟨2, _⟩ => rfl)
    exact ((congrArg (Read.val_main_v46 (F := Ideal) x0 x1 x5 x6) ei).trans (v46_emb x0 x1 x5 x6 hr b f e)).trans
      (gath_table_emb x5 x2 x0 b f e (word_range _ (hr (ix2 b f))).2).symm
  · have ei : Read.idx_main_v47 (ix2 b e) (⟨26 + j.val, by omega⟩ : Fin 39) = ix3 b (⟨26 + j.val, by omega⟩ : Fin 39) e :=
      funext fun a => Fin.ext (by match a with | ⟨0, _⟩ => rfl | ⟨1, _⟩ => rfl | ⟨2, _⟩ => rfl)
    exact ((congrArg (Read.val_main_v46 (F := Ideal) x0 x1 x5 x6) ei).trans (v46_num x0 x1 x5 x6 b j e)).trans
      (mul_comm _ _)

/-- Column e of the sum of the squares of the 39 field vectors of row b, in the reference. -/
theorem v50_eq (x0 : (⟨S16384x26, .i32⟩ : BufTy).Contents (Elt Ideal)) (x1 : (⟨S16384x13, .f32⟩ : BufTy).Contents (Elt Ideal)) (x2 : (⟨S26x100000, .f32⟩ : BufTy).Contents (Elt Ideal)) (x5 : (⟨S26x100000x32, .f32⟩ : BufTy).Contents (Elt Ideal)) (x6 : (⟨S13x32, .f32⟩ : BufTy).Contents (Elt Ideal))
    (hr : ∀ i : S16384x26.Idx, 0 ≤ (x0 i).toInt ∧ (x0 i).toInt < 100000) (b : Fin 16384) (e : Fin 32) :
    Read.val_main_v50 (F := Ideal) x0 x1 x5 x6 (ix2 b e)
      = Cert.Spec.qT (Cert.Spec.gath (Cert.Spec.table x5 x2) x0) x1 x6 b e := by
  rw [Read.val_main_v50_apply, Read.val_main_cst_8_apply, sum_fin39]
  unfold Cert.Spec.qT
  simp only [Read.val_main_v49_apply, Ideal.mulf_def, Ideal.ofBits_def, Ideal.ofBits_zero_f32, zero_add]
  refine congrArg₂ (· + ·) (Finset.sum_congr rfl fun f _ => ?_) (Finset.sum_congr rfl fun j _ => ?_)
  · have ei : Read.idx_main_v50 (ix2 b e) (⟨f.val, by omega⟩ : Fin 39) = ix3 b (⟨f.val, by omega⟩ : Fin 39) e :=
      funext fun a => Fin.ext (by match a with | ⟨0, _⟩ => rfl | ⟨1, _⟩ => rfl | ⟨2, _⟩ => rfl)
    have hv := ((congrArg (Read.val_main_v46 (F := Ideal) x0 x1 x5 x6) ei).trans (v46_emb x0 x1 x5 x6 hr b f e)).trans
      (gath_table_emb x5 x2 x0 b f e (word_range _ (hr (ix2 b f))).2).symm
    exact congrArg₂ (· * ·) hv hv
  · have ei : Read.idx_main_v50 (ix2 b e) (⟨26 + j.val, by omega⟩ : Fin 39) = ix3 b (⟨26 + j.val, by omega⟩ : Fin 39) e :=
      funext fun a => Fin.ext (by match a with | ⟨0, _⟩ => rfl | ⟨1, _⟩ => rfl | ⟨2, _⟩ => rfl)
    have hv := (congrArg (Read.val_main_v46 (F := Ideal) x0 x1 x5 x6) ei).trans (v46_num x0 x1 x5 x6 b j e)
    exact (congrArg₂ (· * ·) hv hv).trans ((mul_mul_mul_comm _ _ _ _).trans (mul_comm _ _))

/-! ## The two terms -/

end Fields

/-! ## The two terms -/

/-- The reference's first-order term at row `b`, for category indices in range. -/
theorem ref_lin (x0 : (⟨S16384x26, .i32⟩ : BufTy).Contents (Elt Ideal)) (x1 : (⟨S16384x13, .f32⟩ : BufTy).Contents (Elt Ideal)) (x2 : (⟨S26x100000, .f32⟩ : BufTy).Contents (Elt Ideal)) (x3 : (⟨S1x13, .f32⟩ : BufTy).Contents (Elt Ideal)) (x4 : (⟨S1, .f32⟩ : BufTy).Contents (Elt Ideal)) (x5 : (⟨S26x100000x32, .f32⟩ : BufTy).Contents (Elt Ideal)) (x6 : (⟨S13x32, .f32⟩ : BufTy).Contents (Elt Ideal))
    (hr : ∀ i : S16384x26.Idx, 0 ≤ (x0 i).toInt ∧ (x0 i).toInt < 100000) (b : Fin 16384) :
    Cert.ReferenceIdeal.Read.val_main_v24 (F := Ideal) x0 x1 x2 x3 x4 (ix2 b (0 : Fin 1))
      = Cert.Spec.lin (Cert.Spec.gath (Cert.Spec.table x5 x2) x0) x1 (fun j => x3 (ix2 (0 : Fin 1) (j 0)))
          (fun _ => x4 (ix1 (0 : Fin 1))) b := by
  rw [Read.val_main_v24_apply, Read.val_main_v21_apply, Read.val_main_v18_apply, Read.val_main_v17_apply,
    Read.val_main_cst_apply, Read.val_main_v20_apply, Read.val_main_v23_apply, Read.val_main_v22_apply]
  unfold Cert.Spec.lin
  simp only [Ideal.addf_def, Ideal.ofBits_def, Ideal.ofBits_zero_f32, zero_add]
  refine congrArg₂ (· + ·) (congrArg₂ (· + ·) (Finset.sum_congr rfl fun f _ => ?_) (Finset.sum_congr rfl fun j _ => ?_)) ?_
  · -- the looked-up linear weight of field f
    have ei : Read.idx_main_v17 (Read.idx_main_v18 (ix2 b (0 : Fin 1))) f = ix2 b f :=
      funext fun a => Fin.ext (by match a with | ⟨0, _⟩ => rfl | ⟨1, _⟩ => rfl)
    exact ((congrArg (Read.val_main_v16 (F := Ideal) x0 x2) ei).trans (RefLinFmGather.v16_apply x0 x2 hr b f)).trans
      (Cert.RefLinFmLib.gath_table_lin x5 x2 x0 b f (Cert.RefLinFmLib.word_range _ (hr (ix2 b f))).2).symm
  · -- numeric feature j against its linear weight
    have el : Read.lidx_main_v20 (ix2 b (0 : Fin 1)) j = ix2 b j :=
      funext fun a => Fin.ext (by match a with | ⟨0, _⟩ => rfl | ⟨1, _⟩ => rfl)
    have er : Read.idx_main_v19 (Read.ridx_main_v20 (ix2 b (0 : Fin 1)) j) = ix2 (0 : Fin 1) j :=
      funext fun a => Fin.ext (by match a with | ⟨0, _⟩ => rfl | ⟨1, _⟩ => rfl)
    exact congrArg₂ (· * ·) (congrArg x1 el) ((Read.val_main_v19_apply x3 _).trans (congrArg x3 er))
  · -- the bias
    exact congrArg x4 (funext fun a => Fin.ext (by match a with | ⟨0, _⟩ => rfl))

/-- The reference's second-order term at row `b`, for category indices in range. -/
theorem ref_fm (x0 : (⟨S16384x26, .i32⟩ : BufTy).Contents (Elt Ideal)) (x1 : (⟨S16384x13, .f32⟩ : BufTy).Contents (Elt Ideal)) (x2 : (⟨S26x100000, .f32⟩ : BufTy).Contents (Elt Ideal)) (x3 : (⟨S1x13, .f32⟩ : BufTy).Contents (Elt Ideal)) (x4 : (⟨S1, .f32⟩ : BufTy).Contents (Elt Ideal)) (x5 : (⟨S26x100000x32, .f32⟩ : BufTy).Contents (Elt Ideal)) (x6 : (⟨S13x32, .f32⟩ : BufTy).Contents (Elt Ideal))
    (hr : ∀ i : S16384x26.Idx, 0 ≤ (x0 i).toInt ∧ (x0 i).toInt < 100000) (b : Fin 16384) :
    Cert.ReferenceIdeal.Read.val_main_v55 (F := Ideal) x0 x1 x5 x6 (ix2 b (0 : Fin 1))
      = Cert.Spec.fm (Cert.Spec.gath (Cert.Spec.table x5 x2) x0) x1 x6 b := by
  rw [Read.val_main_v55_apply, Read.val_main_v54_apply, Read.val_main_cst_10_apply, Read.val_main_v53_apply,
    Read.val_main_v52_apply, Read.val_main_cst_9_apply]
  unfold Cert.Spec.fm Cert.Spec.half
  simp only [Read.val_main_v51_apply, Read.val_main_v48_apply, Ideal.subf_def, Ideal.mulf_def, Ideal.ofBits_def,
    Ideal.ofBits_zero_f32, zero_add]
  refine congrArg (_ * ·) (Finset.sum_congr rfl fun e _ => ?_)
  have ei : Read.idx_main_v52 (Read.idx_main_v53 (ix2 b (0 : Fin 1))) e = ix2 b e :=
    funext fun a => Fin.ext (by match a with | ⟨0, _⟩ => rfl | ⟨1, _⟩ => rfl)
  have h47 := (congrArg (Read.val_main_v47 (F := Ideal) x0 x1 x5 x6) ei).trans (v47_eq x0 x1 x2 x5 x6 hr b e)
  have h50 := (congrArg (Read.val_main_v50 (F := Ideal) x0 x1 x5 x6) ei).trans (v50_eq x0 x1 x2 x5 x6 hr b e)
  exact congrArg₂ (· - ·) (congrArg₂ (· * ·) h47 h47) h50

end Cert.ReferenceIdeal.RefLinFm

end
-- ==== Proof.RefDeep.lean ====
import proofs.«404604_j83769042141642_2_alg».proof.Proof.Gen.ReferenceIdeal.Read
import proofs.«404604_j83769042141642_2_alg».proof.Proof.Spec
import Idealize.ShloMosaic.Lib.ValueIdx
import Idealize.ShloMosaic.Lib.Pipeline.Value
import Idealize.ShloMosaic.PureOps.Ideal.Laws

noncomputable section

namespace Cert.ReferenceIdeal.RefDeep

open Cert.ReferenceIdeal Idealize.ShloMosaic Idealize.ShloMosaic.ValueIdx

open Cert.ReferenceIdeal.Read Cert.ReferenceIdeal.Gen
open scoped BigOperators

/-!
# The reference's perceptron term is the specification's

The reference lays the 26 looked-up embeddings and the 13 numeric embeddings of a batch row side by side
(a gather from the embedding table, a concatenation along the field axis, a reshape to one row of 1248 entries)
and passes the row through three affine layers with `max(·, 0)` after the first two. Read index by index:

* the gather's two start components at `(b, f)` are the field `f` and, for a category index in `[0, 100000)`,
  the index itself, both inside the table, so the gather reads the table's row `(f, index)` unclamped;
* the specification's looked-up array at an embedding column is the same table entry (its minimum with the last
  padded row is the index itself);
* entry `k` of the reshaped row is field `k / 32`, column `k % 32` of the concatenation;
* each layer's contraction agrees with the specification's sum term by term, in the same order.

Only termwise equalities are used; nothing here needs an entry to be finite.
-/

/-! ## Words -/

/-- A 32-bit word whose signed value lies in [0, 100000) has that value as its unsigned one. -/
theorem word_range (w : BitVec 32) (h0 : 0 ≤ w.toInt) (h1 : w.toInt < 100000) :
    w.toNat < 100000 ∧ w.toInt = (w.toNat : Int) := by
  have hw := w.isLt
  rw [BitVec.toInt_eq_toNat_cond] at h0 h1 ⊢
  split at h0 <;> rename_i hc
  · rw [if_pos hc] at h1 ⊢; omega
  · rw [if_neg hc] at h1; omega

/-- A small count as a 32-bit word keeps its value, unsigned and signed. -/
theorem ofNat_small (n : Nat) (hn : n < 2 ^ 31) :
    (BitVec.ofNat 32 n).toNat = n ∧ (BitVec.ofNat 32 n).toInt = (n : Int) := by
  have h1 : (BitVec.ofNat 32 n).toNat = n := by
    rw [BitVec.toNat_ofNat]; exact Nat.mod_eq_of_lt (by omega)
  refine ⟨h1, ?_⟩
  rw [BitVec.toInt_eq_toNat_cond, h1, if_pos (by omega)]

/-- A word with non-negative signed value is not below zero in the signed order. -/
theorem slt_zero_of_nonneg (w : BitVec 32) (h0 : 0 ≤ w.toInt) : IntOp.cmpi .slt w 0#32 = 0#1 := by
  have hf : w.slt 0#32 = false := by
    simp only [BitVec.slt, BitVec.toInt_zero, decide_eq_false_iff_not, not_lt]; exact h0
  show BitVec.ofBool (w.slt 0#32) = 0#1
  rw [hf]; rfl

/-! ## The specification's looked-up array at an embedding column -/

/-- Under the range hypothesis the looked-up array at an embedding column is the embedding table's entry at the category
    the index names: the minimum with the last padded row is the index itself, which is below the table's extent. -/
theorem gath_table_emb (x5 : Cert.Spec.Arr ⟨3, ![26, 100000, 32]⟩) (x2 : Cert.Spec.Arr ⟨2, ![26, 100000]⟩)
    (x0 : (⟨2, ![16384, 26]⟩ : Shape).Idx → BitVec 32) (b : Fin 16384) (f : Fin 26) (e : Fin 33) (he : e.val < 32)
    (hc : (x0 (ix2 b f)).toNat < 100000) :
    Cert.Spec.gath (Cert.Spec.table x5 x2) x0 (ix3 f e b)
      = x5 (ix3 f (⟨(x0 (ix2 b f)).toNat, hc⟩ : Fin 100000) (⟨e.val, he⟩ : Fin 32)) := by
  have hm : min (x0 (ix2 b f)).toNat 100351 = (x0 (ix2 b f)).toNat := Nat.min_eq_left (by omega)
  have hk : min (x0 (ix2 b f)).toNat 100351 < 100000 := by rw [hm]; exact hc
  show (if hk : min (x0 (ix2 b f)).toNat 100351 < 100000 then
      if he : e.val < 32 then x5 (ix3 f (⟨min (x0 (ix2 b f)).toNat 100351, hk⟩ : Fin 100000) (⟨e.val, he⟩ : Fin 32))
      else x2 (ix2 f (⟨min (x0 (ix2 b f)).toNat 100351, hk⟩ : Fin 100000))
    else 0) = _
  rw [dif_pos hk, dif_pos he]
  refine congrArg x5 ?_
  funext a
  match a with
  | ⟨0, _⟩ => rfl
  | ⟨1, _⟩ => exact Fin.ext hm
  | ⟨2, _⟩ => rfl

/-! ## The reference's gather from the embedding table, read at an index -/

section Gather
variable {α : Type}

/-- The start-indices index `(b, f, c)` at which result index `(b, f, e)` reads component `c` of its start index. -/
abbrev startAt (j : S16384x26x32.Idx) (c : Fin 2) : S16384x26x2.Idx :=
  fun a => match a with
    | ⟨0, _⟩ => ⟨(j 0).val, (j 0).isLt⟩
    | ⟨1, _⟩ => ⟨(j 1).val, (j 1).isLt⟩
    | ⟨2, _⟩ => c

/-- On the table's field axis the operand index is the start index's first component, read signed and clamped. -/
theorem operand_field {w : Nat} (idx : IVec S16384x26x2 w) (j : S16384x26x32.Idx) :
    (gather_S26x100000x32_S16384x26x2_S16384x26x32_2_01_n_n_01_2_1132.operandIdx j idx 0).val
      = min (idx (startAt j 0)).toInt.toNat 25 := by
  show gather_S26x100000x32_S16384x26x2_S16384x26x32_2_01_n_n_01_2_1132.start j idx 0 + gather_S26x100000x32_S16384x26x2_S16384x26x32_2_01_n_n_01_2_1132.batchCoord j 0 + gather_S26x100000x32_S16384x26x2_S16384x26x32_2_01_n_n_01_2_1132.offCoord j 0 = _
  rw [GatherDims.batchCoord_eq_zero gather_S26x100000x32_S16384x26x2_S16384x26x32_2_01_n_n_01_2_1132 j 0 List.not_mem_nil,
    GatherDims.offCoord_eq_zero gather_S26x100000x32_S16384x26x2_S16384x26x32_2_01_n_n_01_2_1132 j 0
      (fun h => ((GatherDims.mem_sKept gather_S26x100000x32_S16384x26x2_S16384x26x32_2_01_n_n_01_2_1132 0).mp h).1
        (show (0 : Fin S26x100000x32.rank) ∈ gather_S26x100000x32_S16384x26x2_S16384x26x32_2_01_n_n_01_2_1132.collapsedSliceDims by decide))]
  simp only [Nat.add_zero]
  unfold GatherDims.start
  rw [dif_pos (show (0 : Fin S26x100000x32.rank) ∈ gather_S26x100000x32_S16384x26x2_S16384x26x32_2_01_n_n_01_2_1132.startIndexMap by decide)]
  have hsi : gather_S26x100000x32_S16384x26x2_S16384x26x32_2_01_n_n_01_2_1132.siIdx j
      ⟨List.idxOf (0 : Fin S26x100000x32.rank) gather_S26x100000x32_S16384x26x2_S16384x26x32_2_01_n_n_01_2_1132.startIndexMap,
        List.idxOf_lt_length_iff.2 (show (0 : Fin S26x100000x32.rank) ∈ gather_S26x100000x32_S16384x26x2_S16384x26x32_2_01_n_n_01_2_1132.startIndexMap by decide)⟩ = startAt j 0 := by
    funext b; refine Fin.ext ?_
    match b with
    | ⟨0, _⟩ => rfl
    | ⟨1, _⟩ => rfl
    | ⟨2, _⟩ => rfl
  rw [hsi]
  rfl

/-- On the table's category axis the operand index is the start index's second component, read signed and clamped. -/
theorem operand_cat {w : Nat} (idx : IVec S16384x26x2 w) (j : S16384x26x32.Idx) :
    (gather_S26x100000x32_S16384x26x2_S16384x26x32_2_01_n_n_01_2_1132.operandIdx j idx 1).val
      = min (idx (startAt j 1)).toInt.toNat 99999 := by
  show gather_S26x100000x32_S16384x26x2_S16384x26x32_2_01_n_n_01_2_1132.start j idx 1 + gather_S26x100000x32_S16384x26x2_S16384x26x32_2_01_n_n_01_2_1132.batchCoord j 1 + gather_S26x100000x32_S16384x26x2_S16384x26x32_2_01_n_n_01_2_1132.offCoord j 1 = _
  rw [GatherDims.batchCoord_eq_zero gather_S26x100000x32_S16384x26x2_S16384x26x32_2_01_n_n_01_2_1132 j 1 List.not_mem_nil,
    GatherDims.offCoord_eq_zero gather_S26x100000x32_S16384x26x2_S16384x26x32_2_01_n_n_01_2_1132 j 1
      (fun h => ((GatherDims.mem_sKept gather_S26x100000x32_S16384x26x2_S16384x26x32_2_01_n_n_01_2_1132 1).mp h).1
        (show (1 : Fin S26x100000x32.rank) ∈ gather_S26x100000x32_S16384x26x2_S16384x26x32_2_01_n_n_01_2_1132.collapsedSliceDims by decide))]
  simp only [Nat.add_zero]
  unfold GatherDims.start
  rw [dif_pos (show (1 : Fin S26x100000x32.rank) ∈ gather_S26x100000x32_S16384x26x2_S16384x26x32_2_01_n_n_01_2_1132.startIndexMap by decide)]
  have hsi : gather_S26x100000x32_S16384x26x2_S16384x26x32_2_01_n_n_01_2_1132.siIdx j
      ⟨List.idxOf (1 : Fin S26x100000x32.rank) gather_S26x100000x32_S16384x26x2_S16384x26x32_2_01_n_n_01_2_1132.startIndexMap,
        List.idxOf_lt_length_iff.2 (show (1 : Fin S26x100000x32.rank) ∈ gather_S26x100000x32_S16384x26x2_S16384x26x32_2_01_n_n_01_2_1132.startIndexMap by decide)⟩ = startAt j 1 := by
    funext b; refine Fin.ext ?_
    match b with
    | ⟨0, _⟩ => rfl
    | ⟨1, _⟩ => rfl
    | ⟨2, _⟩ => rfl
  rw [hsi]
  rfl

/-- On the table's column axis, which the start index does not name, the operand index is the result's column. -/
theorem operand_col {w : Nat} (idx : IVec S16384x26x2 w) (j : S16384x26x32.Idx) :
    (gather_S26x100000x32_S16384x26x2_S16384x26x32_2_01_n_n_01_2_1132.operandIdx j idx 2).val = (j 2).val := by
  show gather_S26x100000x32_S16384x26x2_S16384x26x32_2_01_n_n_01_2_1132.start j idx 2 + gather_S26x100000x32_S16384x26x2_S16384x26x32_2_01_n_n_01_2_1132.batchCoord j 2 + gather_S26x100000x32_S16384x26x2_S16384x26x32_2_01_n_n_01_2_1132.offCoord j 2 = _
  have hs : gather_S26x100000x32_S16384x26x2_S16384x26x32_2_01_n_n_01_2_1132.start j idx 2 = 0 := by
    unfold GatherDims.start
    rw [dif_neg (show ¬ (2 : Fin S26x100000x32.rank) ∈ gather_S26x100000x32_S16384x26x2_S16384x26x32_2_01_n_n_01_2_1132.startIndexMap by decide)]
  rw [GatherDims.batchCoord_eq_zero gather_S26x100000x32_S16384x26x2_S16384x26x32_2_01_n_n_01_2_1132 j 2 List.not_mem_nil, hs]
  simp only [Nat.add_zero, Nat.zero_add]
  unfold GatherDims.offCoord
  rw [dif_pos (show (2 : Fin S26x100000x32.rank) ∈ gather_S26x100000x32_S16384x26x2_S16384x26x32_2_01_n_n_01_2_1132.sKept by decide)]
  rfl

/-- THE GATHER AT `(b, f, e)`: the table at the two start components read signed and clamped, column `e`. -/
theorem gather_emb_apply {w : Nat} (x : S26x100000x32.Idx → α) (idx : IVec S16384x26x2 w) (b : Fin 16384) (f : Fin 26) (e : Fin 32) :
    Host.gather gather_S26x100000x32_S16384x26x2_S16384x26x32_2_01_n_n_01_2_1132 x idx (ix3 b f e)
      = x (ix3 (⟨min (idx (ix3 b f (0 : Fin 2))).toInt.toNat 25, by omega⟩ : Fin 26)
            (⟨min (idx (ix3 b f (1 : Fin 2))).toInt.toNat 99999, by omega⟩ : Fin 100000) e) := by
  have s0 : startAt (ix3 b f e) 0 = ix3 b f (0 : Fin 2) := by
    funext a; match a with | ⟨0, _⟩ => rfl | ⟨1, _⟩ => rfl | ⟨2, _⟩ => rfl
  have s1 : startAt (ix3 b f e) 1 = ix3 b f (1 : Fin 2) := by
    funext a; match a with | ⟨0, _⟩ => rfl | ⟨1, _⟩ => rfl | ⟨2, _⟩ => rfl
  unfold Host.gather
  refine congrArg x ?_
  funext a
  refine Fin.ext ?_
  match a with
  | ⟨0, _⟩ => exact (operand_field idx (ix3 b f e)).trans (by rw [s0])
  | ⟨1, _⟩ => exact (operand_cat idx (ix3 b f e)).trans (by rw [s1])
  | ⟨2, _⟩ => exact operand_col idx (ix3 b f e)

end Gather

/-! ## The two components of the gather's start index -/

/-- Component 0 at `(b, f)` is the field number: the field iota passes a select whose condition, field below zero,
    is false. -/
theorem start_field (x0 : (⟨S16384x26, .i32⟩ : BufTy).Contents (Elt Ideal)) (b : Fin 16384) (f : Fin 26) :
    val_main_v38 (F := Ideal) x0 (ix3 b f (0 : Fin 2)) = BitVec.ofNat 32 f.val := by
  unfold val_main_v38
  rw [concatenate_pair_apply_left (t := S16384x26x2) (s₁ := S16384x26x1) (s₂ := S16384x26x1)
    (2 : Fin S16384x26x2.rank) (val_main_v36 (F := Ideal)) (val_main_v37 (F := Ideal) x0)
    concatenates_S16384x26x1_S16384x26x1_S16384x26x2_d2 (ix3 b f (0 : Fin 2)) rfl (ix3 b f (0 : Fin 1))
    (fun a => by match a with | ⟨0, _⟩ => rfl | ⟨1, _⟩ => rfl | ⟨2, _⟩ => rfl)]
  rw [val_main_v36_apply, val_main_v35_apply, val_main_v29_apply, val_main_v26_apply, val_main_v25_apply,
    val_main_c_3_apply, val_main_v1_apply, val_main_v0_apply]
  show Scalar.select (IntOp.cmpi .slt (BitVec.ofNat 32 f.val) 0#32) _ (BitVec.ofNat 32 f.val) = _
  rw [slt_zero_of_nonneg (BitVec.ofNat 32 f.val) (by rw [(ofNat_small f.val (by omega)).2]; omega), select_zero]

/-- Component 1 at `(b, f)` is the category index itself: under the range hypothesis it is not below zero, so the
    select that would add the table's extent keeps it. -/
theorem start_cat (x0 : (⟨S16384x26, .i32⟩ : BufTy).Contents (Elt Ideal))
    (hr : ∀ i : S16384x26.Idx, 0 ≤ (x0 i).toInt ∧ (x0 i).toInt < 100000) (b : Fin 16384) (f : Fin 26) :
    val_main_v38 (F := Ideal) x0 (ix3 b f (1 : Fin 2)) = x0 (ix2 b f) := by
  unfold val_main_v38
  rw [concatenate_pair_apply_right (t := S16384x26x2) (s₁ := S16384x26x1) (s₂ := S16384x26x1)
    (2 : Fin S16384x26x2.rank) (val_main_v36 (F := Ideal)) (val_main_v37 (F := Ideal) x0)
    concatenates_S16384x26x1_S16384x26x1_S16384x26x2_d2 (ix3 b f (1 : Fin 2)) rfl rfl (ix3 b f (0 : Fin 1))
    (fun a ha => by match a with | ⟨0, _⟩ => rfl | ⟨1, _⟩ => rfl | ⟨2, _⟩ => exact absurd rfl ha) rfl]
  rw [val_main_v37_apply, val_main_v34_apply, val_main_v31_apply, val_main_v30_apply, val_main_c_5_apply]
  have e : idx_main_v37 (ix3 b f (0 : Fin 1)) = ix2 b f := by
    funext a; match a with | ⟨0, _⟩ => rfl | ⟨1, _⟩ => rfl
  rw [e, slt_zero_of_nonneg _ (hr _).1, select_zero]

/-! ## The looked-up embeddings -/

/-- THE LOOKED-UP EMBEDDING at `(b, f, e)`: the table's row at field `f` and the category the index names. Both start
    components are in range (the field below 26, the category below 100000), so neither is clamped. -/
theorem cat_emb (x0 : (⟨S16384x26, .i32⟩ : BufTy).Contents (Elt Ideal)) (x5 : (⟨S26x100000x32, .f32⟩ : BufTy).Contents (Elt Ideal))
    (hr : ∀ i : S16384x26.Idx, 0 ≤ (x0 i).toInt ∧ (x0 i).toInt < 100000) (b : Fin 16384) (f : Fin 26) (e : Fin 32) :
    val_main_v39 (F := Ideal) x0 x5 (ix3 b f e)
      = x5 (ix3 f (⟨(x0 (ix2 b f)).toNat, (word_range (x0 (ix2 b f)) (hr (ix2 b f)).1 (hr (ix2 b f)).2).1⟩ : Fin 100000) e) := by
  unfold val_main_v39
  rw [gather_emb_apply]
  refine congrArg x5 ?_
  funext a
  match a with
  | ⟨0, _⟩ =>
    refine Fin.ext ?_
    show min (val_main_v38 (F := Ideal) x0 (ix3 b f (0 : Fin 2))).toInt.toNat 25 = f.val
    rw [start_field, (ofNat_small f.val (by omega)).2, Int.toNat_natCast]
    exact Nat.min_eq_left (by omega)
  | ⟨1, _⟩ =>
    refine Fin.ext ?_
    show min (val_main_v38 (F := Ideal) x0 (ix3 b f (1 : Fin 2))).toInt.toNat 99999 = (x0 (ix2 b f)).toNat
    have hw := word_range (x0 (ix2 b f)) (hr (ix2 b f)).1 (hr (ix2 b f)).2
    rw [start_cat x0 hr, hw.2, Int.toNat_natCast]
    exact Nat.min_eq_left (by omega)
  | ⟨2, _⟩ => rfl

/-! ## The perceptron's input row -/

/-- The numeric embeddings laid side by side as one row of 416 entries. -/
abbrev numRow (x6 : Cert.Spec.Arr ⟨2, ![13, 32]⟩) : Cert.Spec.Arr ⟨2, ![1, 416]⟩ :=
  fun j => x6 (ix2 (⟨(j 1).val / 32, by have := idx2_lt1 j; omega⟩ : Fin 13) (⟨(j 1).val % 32, by omega⟩ : Fin 32))

/-- THE INPUT ROW at `(b, k)`: the reshape reads the concatenation at field `k / 32`, column `k % 32`; below field 26
    that is a looked-up embedding, from 26 on the numeric embedding `k / 32 − 26`. -/
theorem xrow (x0 : (⟨S16384x26, .i32⟩ : BufTy).Contents (Elt Ideal)) (x2 : (⟨S26x100000, .f32⟩ : BufTy).Contents (Elt Ideal))
    (x5 : (⟨S26x100000x32, .f32⟩ : BufTy).Contents (Elt Ideal)) (x6 : (⟨S13x32, .f32⟩ : BufTy).Contents (Elt Ideal))
    (hr : ∀ i : S16384x26.Idx, 0 ≤ (x0 i).toInt ∧ (x0 i).toInt < 100000) (b : Fin 16384) (k : Fin 1248) :
    val_main_v56 (F := Ideal) x0 x5 x6 (ix2 b k)
      = Cert.Spec.xin (Cert.Spec.gath (Cert.Spec.table x5 x2) x0) (numRow x6) b k := by
  have hk := k.isLt
  have hb := b.isLt
  have e56 : idx_main_v56 (ix2 b k) = ix3 b (⟨k.val / 32, by omega⟩ : Fin 39) (⟨k.val % 32, by omega⟩ : Fin 32) := by
    funext a; refine Fin.ext ?_
    match a with
    | ⟨0, _⟩ => show (b.val * 1248 + k.val) / 1248 = b.val; omega
    | ⟨1, _⟩ => show (b.val * 1248 + k.val) / 32 % 39 = k.val / 32; omega
    | ⟨2, _⟩ => show (b.val * 1248 + k.val) % 32 = k.val % 32; omega
  rw [val_main_v56_apply, e56]
  unfold Cert.Spec.xin val_main_v42
  by_cases h : k.val < 832
  · rw [dif_pos h, concatenate_pair_apply_left (t := S16384x39x32) (s₁ := S16384x26x32) (s₂ := S16384x13x32)
      (1 : Fin S16384x39x32.rank) (val_main_v39 (F := Ideal) x0 x5) (val_main_v41 (F := Ideal) x6)
      concatenates_S16384x26x32_S16384x13x32_S16384x39x32_d1
      (ix3 b (⟨k.val / 32, by omega⟩ : Fin 39) (⟨k.val % 32, by omega⟩ : Fin 32)) rfl
      (ix3 b (⟨k.val / 32, by omega⟩ : Fin 26) (⟨k.val % 32, by omega⟩ : Fin 32))
      (fun a => by match a with | ⟨0, _⟩ => rfl | ⟨1, _⟩ => rfl | ⟨2, _⟩ => rfl)]
    rw [cat_emb x0 x5 hr, gath_table_emb x5 x2 x0 b (⟨k.val / 32, by omega⟩ : Fin 26) (⟨k.val % 32, by omega⟩ : Fin 33)
      (by show k.val % 32 < 32; omega)
      (word_range (x0 (ix2 b (⟨k.val / 32, by omega⟩ : Fin 26))) (hr _).1 (hr _).2).1]
  · rw [dif_neg h, concatenate_pair_apply_right (t := S16384x39x32) (s₁ := S16384x26x32) (s₂ := S16384x13x32)
      (1 : Fin S16384x39x32.rank) (val_main_v39 (F := Ideal) x0 x5) (val_main_v41 (F := Ideal) x6)
      concatenates_S16384x26x32_S16384x13x32_S16384x39x32_d1
      (ix3 b (⟨k.val / 32, by omega⟩ : Fin 39) (⟨k.val % 32, by omega⟩ : Fin 32)) rfl rfl
      (ix3 b (⟨k.val / 32 - 26, by omega⟩ : Fin 13) (⟨k.val % 32, by omega⟩ : Fin 32))
      (fun a ha => by match a with | ⟨0, _⟩ => rfl | ⟨1, _⟩ => exact absurd rfl ha | ⟨2, _⟩ => rfl)
      (by show k.val / 32 - 26 + 26 = k.val / 32; omega)]
    rw [val_main_v41_apply, val_main_v40_apply]
    refine congrArg x6 ?_
    funext a; refine Fin.ext ?_
    match a with
    | ⟨0, _⟩ => show k.val / 32 - 26 = (k.val - 832) / 32; omega
    | ⟨1, _⟩ => show k.val % 32 = (k.val - 832) % 32; omega

/-! ## The three layers -/

section Layers
variable (x0 : (⟨S16384x26, .i32⟩ : BufTy).Contents (Elt Ideal)) (x2 : (⟨S26x100000, .f32⟩ : BufTy).Contents (Elt Ideal))
  (x5 : (⟨S26x100000x32, .f32⟩ : BufTy).Contents (Elt Ideal)) (x6 : (⟨S13x32, .f32⟩ : BufTy).Contents (Elt Ideal))
  (x7 : (⟨S512x1248, .f32⟩ : BufTy).Contents (Elt Ideal)) (x8 : (⟨S512, .f32⟩ : BufTy).Contents (Elt Ideal))
  (x9 : (⟨S256x512, .f32⟩ : BufTy).Contents (Elt Ideal)) (x10 : (⟨S256, .f32⟩ : BufTy).Contents (Elt Ideal))
  (x11 : (⟨S1x256, .f32⟩ : BufTy).Contents (Elt Ideal)) (x12 : (⟨S1, .f32⟩ : BufTy).Contents (Elt Ideal))

/-- FIRST HIDDEN LAYER at `(b, h)`: the contraction over the 1248 inputs termwise (each factor read where the
    specification reads it, the weight transposed), the bias row broadcast, the maximum with the zero word. -/
theorem layer1 (hr : ∀ i : S16384x26.Idx, 0 ≤ (x0 i).toInt ∧ (x0 i).toInt < 100000) (b : Fin 16384) (h : Fin 512) :
    val_main_v62 (F := Ideal) x0 x5 x6 x7 x8 (ix2 b h)
      = Cert.Spec.h1 (Cert.Spec.gath (Cert.Spec.table x5 x2) x0) (numRow x6)
          (fun j => x7 (ix2 (j 1) (j 0))) (fun j => x8 (ix1 (j 1))) b h := by
  rw [val_main_v62_apply, val_main_v61_apply, val_main_v58_apply, val_main_v60_apply, val_main_v59_apply,
    val_main_call0_v0_apply, val_main_call0_cst_apply]
  simp only [Ideal.maximumf_def, Ideal.addf_def, Ideal.ofBits_def, Ideal.ofBits_zero_f32]
  unfold Cert.Spec.h1
  congr 1
  congr 1
  · refine Finset.sum_congr rfl fun k _ => ?_
    have el : lidx_main_v58 (ix2 b h) k = ix2 b k := by
      funext a; match a with | ⟨0, _⟩ => rfl | ⟨1, _⟩ => rfl
    have er : idx_main_v57 (ridx_main_v58 (ix2 b h) k) = ix2 h k := by
      funext a; match a with | ⟨0, _⟩ => rfl | ⟨1, _⟩ => rfl
    rw [el, xrow x0 x2 x5 x6 hr, val_main_v57_apply, er]
  · refine congrArg x8 ?_
    funext a; match a with | ⟨0, _⟩ => rfl

/-- SECOND HIDDEN LAYER at `(b, o)`, the same way over the 512 first-layer outputs. -/
theorem layer2 (hr : ∀ i : S16384x26.Idx, 0 ≤ (x0 i).toInt ∧ (x0 i).toInt < 100000) (b : Fin 16384) (o : Fin 256) :
    val_main_v68 (F := Ideal) x0 x5 x6 x7 x8 x9 x10 (ix2 b o)
      = Cert.Spec.h2 (Cert.Spec.gath (Cert.Spec.table x5 x2) x0) (numRow x6)
          (fun j => x7 (ix2 (j 1) (j 0))) (fun j => x8 (ix1 (j 1)))
          (fun j => x9 (ix2 (j 1) (j 0))) (fun j => x10 (ix1 (j 1))) b o := by
  rw [val_main_v68_apply, val_main_v67_apply, val_main_v64_apply, val_main_v66_apply, val_main_v65_apply,
    val_main_call1_v0_apply, val_main_call1_cst_apply]
  simp only [Ideal.maximumf_def, Ideal.addf_def, Ideal.ofBits_def, Ideal.ofBits_zero_f32]
  unfold Cert.Spec.h2
  congr 1
  congr 1
  · refine Finset.sum_congr rfl fun h _ => ?_
    have el : lidx_main_v64 (ix2 b o) h = ix2 b h := by
      funext a; match a with | ⟨0, _⟩ => rfl | ⟨1, _⟩ => rfl
    have er : idx_main_v63 (ridx_main_v64 (ix2 b o) h) = ix2 o h := by
      funext a; match a with | ⟨0, _⟩ => rfl | ⟨1, _⟩ => rfl
    rw [el, layer1 x0 x2 x5 x6 x7 x8 hr, val_main_v63_apply, er]
  · refine congrArg x10 ?_
    funext a; match a with | ⟨0, _⟩ => rfl

/-- THE OUTPUT LAYER at row `b`: the contraction over the 256 second-layer outputs plus the bias. -/
theorem layer3 (hr : ∀ i : S16384x26.Idx, 0 ≤ (x0 i).toInt ∧ (x0 i).toInt < 100000) (b : Fin 16384) :
    val_main_v73 (F := Ideal) x0 x5 x6 x7 x8 x9 x10 x11 x12 (ix2 b (0 : Fin 1))
      = Cert.Spec.deep (Cert.Spec.gath (Cert.Spec.table x5 x2) x0) (numRow x6)
          (fun j => x7 (ix2 (j 1) (j 0))) (fun j => x8 (ix1 (j 1)))
          (fun j => x9 (ix2 (j 1) (j 0))) (fun j => x10 (ix1 (j 1))) x11 (fun _ => x12 (ix1 (0 : Fin 1))) b := by
  rw [val_main_v73_apply, val_main_v70_apply, val_main_v72_apply, val_main_v71_apply]
  simp only [Ideal.addf_def]
  unfold Cert.Spec.deep
  congr 1
  · refine Finset.sum_congr rfl fun o _ => ?_
    have el : lidx_main_v70 (ix2 b (0 : Fin 1)) o = ix2 b o := by
      funext a; match a with | ⟨0, _⟩ => rfl | ⟨1, _⟩ => rfl
    have er : idx_main_v69 (ridx_main_v70 (ix2 b (0 : Fin 1)) o) = ix2 (0 : Fin 1) o := by
      funext a; match a with | ⟨0, _⟩ => rfl | ⟨1, _⟩ => rfl
    rw [el, layer2 x0 x2 x5 x6 x7 x8 x9 x10 hr, val_main_v69_apply, er]
  · refine congrArg x12 ?_
    funext a; match a with | ⟨0, _⟩ => rfl

end Layers

/-- The reference's perceptron term at row `b`, for category indices in range. -/
theorem ref_deep (x0 : (⟨S16384x26, .i32⟩ : BufTy).Contents (Elt Ideal)) (x1 : (⟨S16384x13, .f32⟩ : BufTy).Contents (Elt Ideal)) (x2 : (⟨S26x100000, .f32⟩ : BufTy).Contents (Elt Ideal)) (x3 : (⟨S1x13, .f32⟩ : BufTy).Contents (Elt Ideal)) (x4 : (⟨S1, .f32⟩ : BufTy).Contents (Elt Ideal)) (x5 : (⟨S26x100000x32, .f32⟩ : BufTy).Contents (Elt Ideal)) (x6 : (⟨S13x32, .f32⟩ : BufTy).Contents (Elt Ideal)) (x7 : (⟨S512x1248, .f32⟩ : BufTy).Contents (Elt Ideal)) (x8 : (⟨S512, .f32⟩ : BufTy).Contents (Elt Ideal)) (x9 : (⟨S256x512, .f32⟩ : BufTy).Contents (Elt Ideal)) (x10 : (⟨S256, .f32⟩ : BufTy).Contents (Elt Ideal)) (x11 : (⟨S1x256, .f32⟩ : BufTy).Contents (Elt Ideal)) (x12 : (⟨S1, .f32⟩ : BufTy).Contents (Elt Ideal))
    (hr : ∀ i : S16384x26.Idx, 0 ≤ (x0 i).toInt ∧ (x0 i).toInt < 100000) (b : Fin 16384) :
    Cert.ReferenceIdeal.Read.val_main_v73 (F := Ideal) x0 x5 x6 x7 x8 x9 x10 x11 x12 (ix2 b (0 : Fin 1))
      = Cert.Spec.deep (Cert.Spec.gath (Cert.Spec.table x5 x2) x0)
          (fun j => x6 (ix2 (⟨(j 1).val / 32, by have := idx2_lt1 j; omega⟩ : Fin 13) (⟨(j 1).val % 32, by omega⟩ : Fin 32)))
          (fun j => x7 (ix2 (j 1) (j 0))) (fun j => x8 (ix1 (j 1)))
          (fun j => x9 (ix2 (j 1) (j 0))) (fun j => x10 (ix1 (j 1))) x11 (fun _ => x12 (ix1 (0 : Fin 1))) b :=
  layer3 x0 x2 x5 x6 x7 x8 x9 x10 x11 x12 hr b

end Cert.ReferenceIdeal.RefDeep

end
-- ==== Proof.RefValue.lean ====
import proofs.«404604_j83769042141642_2_alg».proof.Proof.Gen.ReferenceIdeal.Read
import proofs.«404604_j83769042141642_2_alg».proof.Proof.RefLinFm
import proofs.«404604_j83769042141642_2_alg».proof.Proof.RefDeep
import proofs.«404604_j83769042141642_2_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Idealize.ShloMosaic Idealize.ShloMosaic.ValueIdx

/-- The reference's result at row `b` is the model output, when every category index lies in the tables' range
    (a non-negative index is taken as it is, and an index below the table's extent is not clamped). -/
theorem ref_at (x0 : (⟨S16384x26, .i32⟩ : BufTy).Contents (Elt Ideal)) (x1 : (⟨S16384x13, .f32⟩ : BufTy).Contents (Elt Ideal)) (x2 : (⟨S26x100000, .f32⟩ : BufTy).Contents (Elt Ideal)) (x3 : (⟨S1x13, .f32⟩ : BufTy).Contents (Elt Ideal)) (x4 : (⟨S1, .f32⟩ : BufTy).Contents (Elt Ideal)) (x5 : (⟨S26x100000x32, .f32⟩ : BufTy).Contents (Elt Ideal)) (x6 : (⟨S13x32, .f32⟩ : BufTy).Contents (Elt Ideal)) (x7 : (⟨S512x1248, .f32⟩ : BufTy).Contents (Elt Ideal)) (x8 : (⟨S512, .f32⟩ : BufTy).Contents (Elt Ideal)) (x9 : (⟨S256x512, .f32⟩ : BufTy).Contents (Elt Ideal)) (x10 : (⟨S256, .f32⟩ : BufTy).Contents (Elt Ideal)) (x11 : (⟨S1x256, .f32⟩ : BufTy).Contents (Elt Ideal)) (x12 : (⟨S1, .f32⟩ : BufTy).Contents (Elt Ideal))
    (hr : ∀ i : S16384x26.Idx, 0 ≤ (x0 i).toInt ∧ (x0 i).toInt < 100000) (b : Fin 16384) :
    Cert.ReferenceIdeal.Read.val_main_v75 (F := Ideal) x0 x1 x2 x3 x4 x5 x6 x7 x8 x9 x10 x11 x12 (ix2 b (0 : Fin 1))
      = Cert.Spec.model x0 x1 x2 x3 x4 x5 x6 x7 x8 x9 x10 x11 x12 b := by
  rw [Cert.ReferenceIdeal.Read.val_main_v75_apply, Cert.ReferenceIdeal.Read.val_main_v74_apply]
  show (_ + _) + _ = _
  rw [Cert.ReferenceIdeal.RefLinFm.ref_lin x0 x1 x2 x3 x4 x5 x6 hr b, Cert.ReferenceIdeal.RefLinFm.ref_fm x0 x1 x2 x3 x4 x5 x6 hr b,
    Cert.ReferenceIdeal.RefDeep.ref_deep x0 x1 x2 x3 x4 x5 x6 x7 x8 x9 x10 x11 x12 hr b]
  rfl

end Cert.ReferenceIdeal.RefValue

end
-- ==== Proof.PreRange.lean ====
import proofs.«404604_j83769042141642_2_alg».proof.Pre_finite_inputs
import Idealize.ShloMosaic.Lib.ReduceAll
import Idealize.ShloMosaic.Lib.Affine
import Idealize.ShloMosaic.Lib.ValueIdx

/-!
# The index range, read out of the precondition

The precondition is a conjunction of `all`-reductions; its last two conjuncts say that every category index is
non-negative and below the tables' extent 100000. A conjunction of one-bit words is `1` only if both are, and an
`all`-reduction is `1` only if every entry is; a signed compare that is `1` is the order of the signed readings.
-/

noncomputable section

namespace Cert.Pre_finite_inputs.Range

open Cert.Pre_finite_inputs Idealize.ShloMosaic Idealize.ShloMosaic.ValueIdx

variable [Facts] {F : FTy → Type} [FloatOps F]

instance : Subsingleton S_.Idx := ⟨fun a b => funext fun d => d.elim0⟩

/-- Under the precondition every category index lies in `[0, 100000)`. -/
theorem range_of_pre (x0 : IVec S16384x26 32) (x1 : FVec F S16384x13 .f32) (x2 : FVec F S26x100000 .f32) (x3 : FVec F S1x13 .f32) (x4 : FVec F S1 .f32) (x5 : FVec F S26x100000x32 .f32) (x6 : FVec F S13x32 .f32) (x7 : FVec F S512x1248 .f32) (x8 : FVec F S512 .f32) (x9 : FVec F S256x512 .f32) (x10 : FVec F S256 .f32) (x11 : FVec F S1x256 .f32) (x12 : FVec F S1 .f32)
    (h : fn (F := F) x0 x1 x2 x3 x4 x5 x6 x7 x8 x9 x10 x11 x12 = fun _ => 1#1) (i : S16384x26.Idx) :
    0 ≤ (x0 i).toInt ∧ (x0 i).toInt < 100000 := by
  have h0 := congrFun h ix0
  dsimp only [fn, fn_part1, fn_part2, fn_part3] at h0
  obtain ⟨h1, hlt⟩ := IntOp.andi_eq_one.mp h0
  obtain ⟨-, hge⟩ := IntOp.andi_eq_one.mp h1
  have a := Host.reduce_andi_all _ _ _ _ _ hge i
  have b := Host.reduce_andi_all _ _ _ _ _ hlt i
  have a' : (0#32 : BitVec 32).toInt ≤ (x0 i).toInt := IntOp.cmpi_sge.mp a
  have b' : (x0 i).toInt < (100000#32 : BitVec 32).toInt := IntOp.cmpi_slt.mp b
  have z0 : (0#32 : BitVec 32).toInt = 0 := by decide
  have z1 : (100000#32 : BitVec 32).toInt = 100000 := by decide
  rw [z0] at a'
  rw [z1] at b'
  exact ⟨a', b'⟩

end Cert.Pre_finite_inputs.Range

end
-- ==== Proof.lean ====
import proofs.«404604_j83769042141642_2_alg».proof.Defs
import proofs.«404604_j83769042141642_2_alg».proof.Proof.Gen.Kernel
import proofs.«404604_j83769042141642_2_alg».proof.Proof.Gen.Kernel.Frame
import proofs.«404604_j83769042141642_2_alg».proof.Proof.Gen.KernelIdeal
import proofs.«404604_j83769042141642_2_alg».proof.Proof.Gen.KernelIdeal.Frame
import proofs.«404604_j83769042141642_2_alg».proof.Proof.Gen.ReferenceIdeal
import proofs.«404604_j83769042141642_2_alg».proof.Proof.Gen.ReferenceIdeal.Run
import proofs.«404604_j83769042141642_2_alg».proof.Proof.Gen.ReferenceIdeal.Read
import proofs.«404604_j83769042141642_2_alg».proof.Proof.Gen.Pre_finite_inputs
import proofs.«404604_j83769042141642_2_alg».proof.Proof.RunValue
import proofs.«404604_j83769042141642_2_alg».proof.Proof.KernelValue
import proofs.«404604_j83769042141642_2_alg».proof.Proof.RefValue
import proofs.«404604_j83769042141642_2_alg».proof.Proof.PreRange
import Idealize.ShloMosaic.Adequacy
import Idealize.ShloMosaic.Init

/-!
# The certificate

A DeepFM forward pass: for each batch row the sum of a first-order term (looked-up linear weights, numeric features
against their weights, a bias), the factorisation-machine second-order term `½ Σ_e ((Σ_v v_e)² − Σ_v v_e²)` over the 39
field vectors, and a three-layer perceptron on the field embeddings. The kernel program looks the rows up by a one-hot
matrix product accumulated over tiles of the category axis and fuses the rest in a second kernel; the reference gathers.

Both programs compute `Cert.Spec.model` of the thirteen arguments, provided every category index lies in the tables'
range `[0, 100000)` — outside it the reference's lookup wraps or clamps while a one-hot row is zero —, which the
precondition states. No finiteness is used: the two sides differ only by the order and grouping of sums and products.

* the three frames are the generated runs;
* the idealization rewrote nothing, so `preserves` is trivial;
* `algebraic`: the kernel program's run with its result named (`run_value`) at `KernelValue.result_eq`, the reference's
  generated run at `RefValue.ref_at`, the index range from `Range.range_of_pre`.
-/

noncomputable section

namespace Cert.Proof

open Idealize.ShloMosaic Idealize.SL.Sem Idealize.ShloMosaic.ValueIdx

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  fun m ρ m' ρ' hpre hagree =>
    have hr : ∀ c i, _ := fun c i => Cert.Pre_finite_inputs.Range.range_of_pre (F := Ideal) _ _ _ _ _ _ _ _ _ _ _ _ _ (hpre c) i
    ⟨fun c => fun j => Cert.Spec.model (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (j 0),
      (θ_run Cert.KernelIdeal.defs _ _).mono
        (fun r h c => ⟨(h c).1.trans (Cert.KernelIdeal.KernelValue.result_eq m ρ c (hr c)), (h c).2⟩)
        (Cert.KernelIdeal.Gen.run_value (F := Ideal) m ρ),
      (θ_run Cert.ReferenceIdeal.defs _ _).mono
        (fun r h c => ⟨by
          rw [(h c).1, Cert.ReferenceIdeal.Read.val_main_v75_eq]
          funext j
          obtain ⟨b, z, rfl⟩ : ∃ (b : Fin 16384) (z : Fin 1), j = ix2 b z := ⟨j 0, j 1, eq_ix2 j⟩
          obtain rfl : z = 0 := Subsingleton.elim _ _
          obtain ⟨e0, e1, e2, e3, e4, e5, e6, e7, e8, e9, e10, e11, e12⟩ := hagree c
          rw [e0, e1, e2, e3, e4, e5, e6, e7, e8, e9, e10, e11, e12]
          exact Cert.ReferenceIdeal.RefValue.ref_at _ _ _ _ _ _ _ _ _ _ _ _ _ (hr c) b, (h c).2⟩)
        (Cert.ReferenceIdeal.Value.run (F := Ideal) m' ρ')⟩⟩

end Cert.Proof

end
